-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S16384 : Shape := ⟨1, ![16384]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192 : S_.BroadcastsInDim S8192 (![] : Fin 0 → Fin S8192.rank)
  reducesTo_S8192_S_d0 : S8192.ReducesTo [0] S_
  bcast_S_S16384 : S_.BroadcastsInDim S16384 (![] : Fin 0 → Fin S16384.rank)
  reducesTo_S16384_S_d0 : S16384.ReducesTo [0] S_

variable [Facts]

def fn_part4 {F : FTy → Type} [FloatOps F] (main_arg11 : IVec S16384 32) (main_v63 : IVec S_ 1) (main_v64 : IVec S16384 32) : IVec S_ 1 :=
  let main_v65 : IVec S16384 1 := cmpi .sge main_arg11 main_v64
  let main_c_29 : IVec S_ 1 := constantI S_ 1 1#1
  let main_v66 : IVec S_ 1 := (fun x v => Host.reduce IntOp.andi x v reducesTo_S16384_S_d0 h_S_) main_v65 main_c_29
  let main_v67 : IVec S_ 1 := andi main_v63 main_v66
  let main_c_30 : IVec S_ 32 := constantI S_ 32 3584#32
  let main_v68 : IVec S16384 32 := broadcastInDim S16384 ![] bcast_S_S16384 main_c_30
  let main_v69 : IVec S16384 1 := cmpi .slt main_arg11 main_v68
  let main_c_31 : IVec S_ 1 := constantI S_ 1 1#1
  let main_v70 : IVec S_ 1 := (fun x v => Host.reduce IntOp.andi x v reducesTo_S16384_S_d0 h_S_) main_v69 main_c_31
  let main_v71 : IVec S_ 1 := andi main_v67 main_v70
  main_v71

def fn_part3 {F : FTy → Type} [FloatOps F] (main_arg7 : IVec S8192 32) (main_arg8 : IVec S8192 32) (main_arg10 : IVec S16384 32) (main_arg11 : IVec S16384 32) (main_v47 : IVec S_ 1) (main_v48 : IVec S8192 32) : IVec S_ 1 :=
  let main_v49 : IVec S8192 1 := cmpi .sge main_arg7 main_v48
  let main_c_21 : IVec S_ 1 := constantI S_ 1 1#1
  let main_v50 : IVec S_ 1 := (fun x v => Host.reduce IntOp.andi x v reducesTo_S8192_S_d0 h_S_) main_v49 main_c_21
  let main_v51 : IVec S_ 1 := andi main_v47 main_v50
  let main_c_22 : IVec S_ 32 := constantI S_ 32 0#32
  let main_v52 : IVec S8192 32 := broadcastInDim S8192 ![] bcast_S_S8192 main_c_22
  let main_v53 : IVec S8192 1 := cmpi .sge main_arg8 main_v52
  let main_c_23 : IVec S_ 1 := constantI S_ 1 1#1
  let main_v54 : IVec S_ 1 := (fun x v => Host.reduce IntOp.andi x v reducesTo_S8192_S_d0 h_S_) main_v53 main_c_23
  let main_v55 : IVec S_ 1 := andi main_v51 main_v54
  let main_c_24 : IVec S_ 32 := constantI S_ 32 3072#32
  let main_v56 : IVec S8192 32 := broadcastInDim S8192 ![] bcast_S_S8192 main_c_24
  let main_v57 : IVec S8192 1 := cmpi .slt main_arg8 main_v56
  let main_c_25 : IVec S_ 1 := constantI S_ 1 1#1
  let main_v58 : IVec S_ 1 := (fun x v => Host.reduce IntOp.andi x v reducesTo_S8192_S_d0 h_S_) main_v57 main_c_25
  let main_v59 : IVec S_ 1 := andi main_v55 main_v58
  let main_c_26 : IVec S_ 32 := constantI S_ 32 0#32
  let main_v60 : IVec S16384 32 := broadcastInDim S16384 ![] bcast_S_S16384 main_c_26
  let main_v61 : IVec S16384 1 := cmpi .sge main_arg10 main_v60
  let main_c_27 : IVec S_ 1 := constantI S_ 1 1#1
  let main_v62 : IVec S_ 1 := (fun x v => Host.reduce IntOp.andi x v reducesTo_S16384_S_d0 h_S_) main_v61 main_c_27
  let main_v63 : IVec S_ 1 := andi main_v59 main_v62
  let main_c_28 : IVec S_ 32 := constantI S_ 32 0#32
  let main_v64 : IVec S16384 32 := broadcastInDim S16384 ![] bcast_S_S16384 main_c_28
  fn_part4 (F := F) main_arg11 main_v63 main_v64

def fn_part2 {F : FTy → Type} [FloatOps F] (main_arg2 : IVec S8192 32) (main_arg4 : IVec S8192 32) (main_arg5 : IVec S8192 32) (main_arg7 : IVec S8192 32) (main_arg8 : IVec S8192 32) (main_arg10 : IVec S16384 32) (main_arg11 : IVec S16384 32) (main_v31 : IVec S_ 1) (main_v32 : IVec S8192 32) : IVec S_ 1 :=
  let main_v33 : IVec S8192 1 := cmpi .slt main_arg2 main_v32
  let main_c_13 : IVec S_ 1 := constantI S_ 1 1#1
  let main_v34 : IVec S_ 1 := (fun x v => Host.reduce IntOp.andi x v reducesTo_S8192_S_d0 h_S_) main_v33 main_c_13
  let main_v35 : IVec S_ 1 := andi main_v31 main_v34
  let main_c_14 : IVec S_ 32 := constantI S_ 32 0#32
  let main_v36 : IVec S8192 32 := broadcastInDim S8192 ![] bcast_S_S8192 main_c_14
  let main_v37 : IVec S8192 1 := cmpi .sge main_arg4 main_v36
  let main_c_15 : IVec S_ 1 := constantI S_ 1 1#1
  let main_v38 : IVec S_ 1 := (fun x v => Host.reduce IntOp.andi x v reducesTo_S8192_S_d0 h_S_) main_v37 main_c_15
  let main_v39 : IVec S_ 1 := andi main_v35 main_v38
  let main_c_16 : IVec S_ 32 := constantI S_ 32 0#32
  let main_v40 : IVec S8192 32 := broadcastInDim S8192 ![] bcast_S_S8192 main_c_16
  let main_v41 : IVec S8192 1 := cmpi .sge main_arg5 main_v40
  let main_c_17 : IVec S_ 1 := constantI S_ 1 1#1
  let main_v42 : IVec S_ 1 := (fun x v => Host.reduce IntOp.andi x v reducesTo_S8192_S_d0 h_S_) main_v41 main_c_17
  let main_v43 : IVec S_ 1 := andi main_v39 main_v42
  let main_c_18 : IVec S_ 32 := constantI S_ 32 2560#32
  let main_v44 : IVec S8192 32 := broadcastInDim S8192 ![] bcast_S_S8192 main_c_18
  let main_v45 : IVec S8192 1 := cmpi .slt main_arg5 main_v44
  let main_c_19 : IVec S_ 1 := constantI S_ 1 1#1
  let main_v46 : IVec S_ 1 := (fun x v => Host.reduce IntOp.andi x v reducesTo_S8192_S_d0 h_S_) main_v45 main_c_19
  let main_v47 : IVec S_ 1 := andi main_v43 main_v46
  let main_c_20 : IVec S_ 32 := constantI S_ 32 0#32
  let main_v48 : IVec S8192 32 := broadcastInDim S8192 ![] bcast_S_S8192 main_c_20
  fn_part3 (F := F) main_arg7 main_arg8 main_arg10 main_arg11 main_v47 main_v48

def fn_part1 {F : FTy → Type} [FloatOps F] (main_arg1 : IVec S8192 32) (main_arg2 : IVec S8192 32) (main_arg4 : IVec S8192 32) (main_arg5 : IVec S8192 32) (main_arg7 : IVec S8192 32) (main_arg8 : IVec S8192 32) (main_arg10 : IVec S16384 32) (main_arg11 : IVec S16384 32) (main_arg12 : FVec F S16384 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S16384 .f32 := Host.absf main_arg12
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  let main_c_8 : IVec S_ 32 := constantI S_ 32 0#32
  let main_v24 : IVec S8192 32 := broadcastInDim S8192 ![] bcast_S_S8192 main_c_8
  let main_v25 : IVec S8192 1 := cmpi .sge main_arg1 main_v24
  let main_c_9 : IVec S_ 1 := constantI S_ 1 1#1
  let main_v26 : IVec S_ 1 := (fun x v => Host.reduce IntOp.andi x v reducesTo_S8192_S_d0 h_S_) main_v25 main_c_9
  let main_v27 : IVec S_ 1 := andi main_v23 main_v26
  let main_c_10 : IVec S_ 32 := constantI S_ 32 0#32
  let main_v28 : IVec S8192 32 := broadcastInDim S8192 ![] bcast_S_S8192 main_c_10
  let main_v29 : IVec S8192 1 := cmpi .sge main_arg2 main_v28
  let main_c_11 : IVec S_ 1 := constantI S_ 1 1#1
  let main_v30 : IVec S_ 1 := (fun x v => Host.reduce IntOp.andi x v reducesTo_S8192_S_d0 h_S_) main_v29 main_c_11
  let main_v31 : IVec S_ 1 := andi main_v27 main_v30
  let main_c_12 : IVec S_ 32 := constantI S_ 32 2048#32
  let main_v32 : IVec S8192 32 := broadcastInDim S8192 ![] bcast_S_S8192 main_c_12
  fn_part2 (F := F) main_arg2 main_arg4 main_arg5 main_arg7 main_arg8 main_arg10 main_arg11 main_v31 main_v32

def fn {F : FTy → Type} [FloatOps F] (main_arg0 : FVec F S8192x2048 .f32) (main_arg1 : IVec S8192 32) (main_arg2 : IVec S8192 32) (main_arg3 : FVec F S8192 .f32) (main_arg4 : IVec S8192 32) (main_arg5 : IVec S8192 32) (main_arg6 : FVec F S8192 .f32) (main_arg7 : IVec S8192 32) (main_arg8 : IVec S8192 32) (main_arg9 : FVec F S8192 .f32) (main_arg10 : IVec S16384 32) (main_arg11 : IVec S16384 32) (main_arg12 : FVec F S16384 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192 .f32 := Host.absf main_arg3
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg6
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg9
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg1 main_arg2 main_arg4 main_arg5 main_arg7 main_arg8 main_arg10 main_arg11 main_arg12 main_v13 main_v16
-- ==== Kernel.lean ====
abbrev S8192x2048 : Shape := ⟨2, ![8192, 2048]⟩
abbrev S8192 : Shape := ⟨1, ![8192]⟩
abbrev S16384 : Shape := ⟨1, ![16384]⟩
abbrev S_ : Shape := ⟨0, ![]⟩
abbrev S2048x512 : Shape := ⟨2, ![2048, 512]⟩
abbrev S8192x1 : Shape := ⟨2, ![8192, 1]⟩
abbrev S8192x2 : Shape := ⟨2, ![8192, 2]⟩
abbrev S2560x512 : Shape := ⟨2, ![2560, 512]⟩
abbrev S3072x512 : Shape := ⟨2, ![3072, 512]⟩
abbrev S3584x2048 : Shape := ⟨2, ![3584, 2048]⟩
abbrev S16384x1 : Shape := ⟨2, ![16384, 1]⟩
abbrev S16384x2 : Shape := ⟨2, ![16384, 2]⟩
abbrev S512x512 : Shape := ⟨2, ![512, 512]⟩
abbrev S2048x2048 : Shape := ⟨2, ![2048, 2048]⟩
abbrev S512x2048 : Shape := ⟨2, ![512, 2048]⟩
abbrev S2048x3584 : Shape := ⟨2, ![2048, 3584]⟩
abbrev S1024x512 : Shape := ⟨2, ![1024, 512]⟩
abbrev S1536x2048 : Shape := ⟨2, ![1536, 2048]⟩
abbrev S512x1536 : Shape := ⟨2, ![512, 1536]⟩
abbrev S512x3584 : Shape := ⟨2, ![512, 3584]⟩
abbrev S512x1024 : Shape := ⟨2, ![512, 1024]⟩

abbrev nBuf : Space → Nat
  | .hbm => 110
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S8192, .i32⟩
  | .hbm, ⟨3, _⟩ => ⟨S8192, .f32⟩
  | .hbm, ⟨4, _⟩ => ⟨S8192, .i32⟩
  | .hbm, ⟨5, _⟩ => ⟨S8192, .i32⟩
  | .hbm, ⟨6, _⟩ => ⟨S8192, .f32⟩
  | .hbm, ⟨7, _⟩ => ⟨S8192, .i32⟩
  | .hbm, ⟨8, _⟩ => ⟨S8192, .i32⟩
  | .hbm, ⟨9, _⟩ => ⟨S8192, .f32⟩
  | .hbm, ⟨10, _⟩ => ⟨S16384, .i32⟩
  | .hbm, ⟨11, _⟩ => ⟨S16384, .i32⟩
  | .hbm, ⟨12, _⟩ => ⟨S16384, .f32⟩
  | .hbm, ⟨13, _⟩ => ⟨S_, .f32⟩
  | .hbm, ⟨14, _⟩ => ⟨S2048x512, .f32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S8192x1, .i32⟩
  | .hbm, ⟨30, _⟩ => ⟨S8192x1, .i32⟩
  | .hbm, ⟨31, _⟩ => ⟨S8192x2, .i32⟩
  | .hbm, ⟨32, _⟩ => ⟨S2048x512, .f32⟩
  | .hbm, ⟨33, _⟩ => ⟨S_, .f32⟩
  | .hbm, ⟨34, _⟩ => ⟨S2560x512, .f32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S8192x1, .i32⟩
  | .hbm, ⟨50, _⟩ => ⟨S8192x1, .i32⟩
  | .hbm, ⟨51, _⟩ => ⟨S8192x2, .i32⟩
  | .hbm, ⟨52, _⟩ => ⟨S2560x512, .f32⟩
  | .hbm, ⟨53, _⟩ => ⟨S_, .f32⟩
  | .hbm, ⟨54, _⟩ => ⟨S3072x512, .f32⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S8192, .i32⟩
  | .hbm, ⟨62, _⟩ => ⟨S_, .i32⟩
  | .hbm, ⟨63, _⟩ => ⟨S8192, .i32⟩
  | .hbm, ⟨64, _⟩ => ⟨S8192, .i1⟩
  | .hbm, ⟨65, _⟩ => ⟨S_, .i32⟩
  | .hbm, ⟨66, _⟩ => ⟨S8192, .i32⟩
  | .hbm, ⟨67, _⟩ => ⟨S8192, .i32⟩
  | .hbm, ⟨68, _⟩ => ⟨S8192, .i32⟩
  | .hbm, ⟨69, _⟩ => ⟨S8192x1, .i32⟩
  | .hbm, ⟨70, _⟩ => ⟨S8192x1, .i32⟩
  | .hbm, ⟨71, _⟩ => ⟨S8192x2, .i32⟩
  | .hbm, ⟨72, _⟩ => ⟨S3072x512, .f32⟩
  | .hbm, ⟨73, _⟩ => ⟨S_, .f32⟩
  | .hbm, ⟨74, _⟩ => ⟨S3584x2048, .f32⟩
  | .hbm, ⟨75, _⟩ => ⟨S_, .i32⟩
  | .hbm, ⟨76, _⟩ => ⟨S16384, .i32⟩
  | .hbm, ⟨77, _⟩ => ⟨S16384, .i1⟩
  | .hbm, ⟨78, _⟩ => ⟨S_, .i32⟩
  | .hbm, ⟨79, _⟩ => ⟨S16384, .i32⟩
  | .hbm, ⟨80, _⟩ => ⟨S16384, .i32⟩
  | .hbm, ⟨81, _⟩ => ⟨S16384, .i32⟩
  | .hbm, ⟨82, _⟩ => ⟨S_, .i32⟩
  | .hbm, ⟨83, _⟩ => ⟨S16384, .i32⟩
  | .hbm, ⟨84, _⟩ => ⟨S16384, .i1⟩
  | .hbm, ⟨85, _⟩ => ⟨S_, .i32⟩
  | .hbm, ⟨86, _⟩ => ⟨S16384, .i32⟩
  | .hbm, ⟨87, _⟩ => ⟨S16384, .i32⟩
  | .hbm, ⟨88, _⟩ => ⟨S16384, .i32⟩
  | .hbm, ⟨89, _⟩ => ⟨S16384x1, .i32⟩
  | .hbm, ⟨90, _⟩ => ⟨S16384x1, .i32⟩
  | .hbm, ⟨91, _⟩ => ⟨S16384x2, .i32⟩
  | .hbm, ⟨92, _⟩ => ⟨S3584x2048, .f32⟩
  | .hbm, ⟨93, _⟩ => ⟨S2048x512, .f32⟩
  | .hbm, ⟨94, _⟩ => ⟨S512x512, .f32⟩
  | .hbm, ⟨95, _⟩ => ⟨S2048x512, .f32⟩
  | .hbm, ⟨96, _⟩ => ⟨S512x512, .f32⟩
  | .hbm, ⟨97, _⟩ => ⟨S512x512, .f32⟩
  | .hbm, ⟨98, _⟩ => ⟨S2048x2048, .f32⟩
  | .hbm, ⟨99, _⟩ => ⟨S512x2048, .f32⟩
  | .hbm, ⟨100, _⟩ => ⟨S512x2048, .f32⟩
  | .hbm, ⟨101, _⟩ => ⟨S512x2048, .f32⟩
  | .hbm, ⟨102, _⟩ => ⟨S2048x3584, .f32⟩
  | .hbm, ⟨103, _⟩ => ⟨S2048x3584, .bf16⟩
  | .hbm, ⟨104, _⟩ => ⟨S512x512, .bf16⟩
  | .hbm, ⟨105, _⟩ => ⟨S1024x512, .f32⟩
  | .hbm, ⟨106, _⟩ => ⟨S1024x512, .bf16⟩
  | .hbm, ⟨107, _⟩ => ⟨S1536x2048, .f32⟩
  | .hbm, ⟨108, _⟩ => ⟨S1536x2048, .bf16⟩
  | .hbm, ⟨109, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x3584, .bf16⟩
  | .local _ .vmem, ⟨3, _⟩ => ⟨S512x512, .bf16⟩
  | .local _ .vmem, ⟨4, _⟩ => ⟨S1024x512, .bf16⟩
  | .local _ .vmem, ⟨5, _⟩ => ⟨S1536x2048, .bf16⟩
  | .local _ .vmem, ⟨6, _⟩ => ⟨S512x2048, .f32⟩
  | .local _ .vmem, ⟨7, _⟩ => ⟨S512x2048, .f32⟩
  | .local _ .vmem, ⟨8, _⟩ => ⟨S512x1536, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_c_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_6 : Ref sig .tc := ⟨.hbm, 42, rfl⟩
abbrev main_v21 : Ref sig .tc := ⟨.hbm, 43, rfl⟩
abbrev main_v22 : Ref sig .tc := ⟨.hbm, 44, rfl⟩
abbrev main_c_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_c_9 : Ref sig .tc := ⟨.hbm, 55, rfl⟩
abbrev main_v31 : Ref sig .tc := ⟨.hbm, 56, rfl⟩
abbrev main_v32 : Ref sig .tc := ⟨.hbm, 57, rfl⟩
abbrev main_c_10 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_11 : Ref sig .tc := ⟨.hbm, 62, rfl⟩
abbrev main_v36 : Ref sig .tc := ⟨.hbm, 63, rfl⟩
abbrev main_v37 : Ref sig .tc := ⟨.hbm, 64, rfl⟩
abbrev main_c_12 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_13 : Ref sig .tc := ⟨.hbm, 73, rfl⟩
abbrev main_v45 : Ref sig .tc := ⟨.hbm, 74, rfl⟩
abbrev main_c_14 : Ref sig .tc := ⟨.hbm, 75, rfl⟩
abbrev main_v46 : Ref sig .tc := ⟨.hbm, 76, rfl⟩
abbrev main_v47 : Ref sig .tc := ⟨.hbm, 77, rfl⟩
abbrev main_c_15 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_16 : Ref sig .tc := ⟨.hbm, 82, rfl⟩
abbrev main_v51 : Ref sig .tc := ⟨.hbm, 83, rfl⟩
abbrev main_v52 : Ref sig .tc := ⟨.hbm, 84, rfl⟩
abbrev main_c_17 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S2048x512 : S_.BroadcastsInDim S2048x512 (![] : Fin 0 → Fin S2048x512.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S_S2560x512 : S_.BroadcastsInDim S2560x512 (![] : Fin 0 → Fin S2560x512.rank)
  bcast_S_S3072x512 : S_.BroadcastsInDim S3072x512 (![] : Fin 0 → Fin S3072x512.rank)
  bcast_S_S3584x2048 : S_.BroadcastsInDim S3584x2048 (![] : Fin 0 → Fin S3584x2048.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  slices_S2560x512_S2048x512_0_0 : S2560x512.Slices ![0, 0] S2048x512
  slices_S2560x512_S512x512_2048_0 : S2560x512.Slices ![2048, 0] S512x512
  slices_S3072x512_S2048x512_0_0 : S3072x512.Slices ![0, 0] S2048x512
  slices_S3072x512_S512x512_2048_0 : S3072x512.Slices ![2048, 0] S512x512
  slices_S3072x512_S512x512_2560_0 : S3072x512.Slices ![2560, 0] S512x512
  slices_S3584x2048_S2048x2048_0_0 : S3584x2048.Slices ![0, 0] S2048x2048
  slices_S3584x2048_S512x2048_2048_0 : S3584x2048.Slices ![2048, 0] S512x2048
  slices_S3584x2048_S512x2048_2560_0 : S3584x2048.Slices ![2560, 0] S512x2048
  slices_S3584x2048_S512x2048_3072_0 : S3584x2048.Slices ![3072, 0] S512x2048
  concatenates_S2048x512_S2048x512_S2048x512_S2048x2048_S2048x3584_d1 : Shape.Concatenates [S2048x512, S2048x512, S2048x512, S2048x2048] S2048x3584 1
  bitsLt_bf16_f32 : FTy.bits .bf16 < FTy.bits .f32
  concatenates_S512x512_S512x512_S1024x512_d0 : Shape.Concatenates [S512x512, S512x512] S1024x512 0
  concatenates_S512x2048_S512x2048_S512x2048_S1536x2048_d0 : Shape.Concatenates [S512x2048, S512x2048, S512x2048] S1536x2048 0
  inb_S512x2048_S512x2048_0_0 : ∀ a, (![0, 0] : Fin 2 → Nat) a + S512x2048.size a ≤ S512x2048.size a
  h_S512x2048 : 0 < S512x2048.numel
  inb_S2048x3584_S2048x3584_0_0 : ∀ a, (![0, 0] : Fin 2 → Nat) a + S2048x3584.size a ≤ S2048x3584.size a
  h_S2048x3584 : 0 < S2048x3584.numel
  shapeCasts_S2048x3584_S2048x3584 : S2048x3584.ShapeCasts S2048x3584
  slices_S512x3584_o0_0_S512x512 : S512x3584.Slices ![0, 0] S512x512
  inb_S512x1536_S512x512_0_0 : ∀ a, (![0, 0] : Fin 2 → Nat) a + S512x512.size a ≤ S512x1536.size a
  h_S512x512 : 0 < S512x512.numel
  shapeCasts_S512x512_S512x512 : S512x512.ShapeCasts S512x512
  packedbf16_S512x1536_S512x512_0_0 : (Rect.unit (s := S512x1536) ![0, 0] S512x512.size inb_S512x1536_S512x512_0_0).PackedRows (EltTy.packing .bf16)
  slices_S512x3584_o0_512_S512x512 : S512x3584.Slices ![0, 512] S512x512
  inb_S512x512_S512x512_0_0 : ∀ a, (![0, 0] : Fin 2 → Nat) a + S512x512.size a ≤ S512x512.size a
  inb_S512x1536_S512x512_0_512 : ∀ a, (![0, 512] : Fin 2 → Nat) a + S512x512.size a ≤ S512x1536.size a
  packedbf16_S512x1536_S512x512_0_512 : (Rect.unit (s := S512x1536) ![0, 512] S512x512.size inb_S512x1536_S512x512_0_512).PackedRows (EltTy.packing .bf16)
  slices_S512x3584_o0_1024_S512x512 : S512x3584.Slices ![0, 1024] S512x512
  inb_S512x1536_S512x1024_0_0 : ∀ a, (![0, 0] : Fin 2 → Nat) a + S512x1024.size a ≤ S512x1536.size a
  h_S512x1024 : 0 < S512x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1536_S512x512_0_1024 : ∀ a, (![0, 1024] : Fin 2 → Nat) a + S512x512.size a ≤ S512x1536.size a
  packedbf16_S512x1536_S512x512_0_1024 : (Rect.unit (s := S512x1536) ![0, 1024] S512x512.size inb_S512x1536_S512x512_0_1024).PackedRows (EltTy.packing .bf16)
  slices_S512x3584_o0_1536_S512x2048 : S512x3584.Slices ![0, 1536] S512x2048
  inb_S512x1536_S512x1536_0_0 : ∀ a, (![0, 0] : Fin 2 → Nat) a + S512x1536.size a ≤ S512x1536.size a
  h_S512x1536 : 0 < S512x1536.numel
  inb_S1536x2048_S1536x2048_0_0 : ∀ a, (![0, 0] : Fin 2 → Nat) a + S1536x2048.size a ≤ S1536x2048.size a
  h_S1536x2048 : 0 < S1536x2048.numel
  shapeCasts_S1536x2048_S1536x2048 : S1536x2048.ShapeCasts S1536x2048
  scatter_S2048x512_S8192x2_S8192_n_01_01_1_wf : ScatterDims.WF S2048x512 S8192x2 S8192 [] [0, 1] [0, 1] 1
  scatter_S2560x512_S8192x2_S8192_n_01_01_1_wf : ScatterDims.WF S2560x512 S8192x2 S8192 [] [0, 1] [0, 1] 1
  scatter_S3072x512_S8192x2_S8192_n_01_01_1_wf : ScatterDims.WF S3072x512 S8192x2 S8192 [] [0, 1] [0, 1] 1
  scatter_S3584x2048_S16384x2_S16384_n_01_01_1_wf : ScatterDims.WF S3584x2048 S16384x2 S16384 [] [0, 1] [0, 1] 1
  dot_S512x2048_S2048x3584_S512x3584_1_0_0_1_n_n_wf : DotDims.WF S512x2048 S2048x3584 S512x3584 [1] [0] [0] [1] [] []
  dot_S512x512_S512x512_S512x512_1_0_0_1_n_n_wf : DotDims.WF S512x512 S512x512 S512x512 [1] [0] [0] [1] [] []
  dot_S512x1024_S1024x512_S512x512_1_0_0_1_n_n_wf : DotDims.WF S512x1024 S1024x512 S512x512 [1] [0] [0] [1] [] []
  dot_S512x1536_S1536x2048_S512x2048_1_0_0_1_n_n_wf : DotDims.WF S512x1536 S1536x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x3584.size a ≤ S2048x3584.size a
  hwx0_1 : ∀ i : grid0.Coords, EltTy.bits .bf16 = 32 ∨ (Rect.block (s := S2048x3584) S2048x3584.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1536x2048.size a ≤ S1536x2048.size a
  hwx0_4 : ∀ i : grid0.Coords, EltTy.bits .bf16 = 32 ∨ (Rect.block (s := S1536x2048) S1536x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .f32 = 32 ∨ (Rect.block (s := S8192x2048) S512x2048.size (cc0_transform_5 i) (hinb0_5 i)).WholeWords (EltTy.packing .f32)

variable [Facts₀]

def scatter_S2048x512_S8192x2_S8192_n_01_01_1 : ScatterDims S2048x512 S8192x2 S8192 where
  updateWindowDims := []
  insertedWindowDims := [0, 1]
  scatterDimsToOperandDims := [0, 1]
  indexVectorDim := 1
  wf := scatter_S2048x512_S8192x2_S8192_n_01_01_1_wf
def scatter_S2560x512_S8192x2_S8192_n_01_01_1 : ScatterDims S2560x512 S8192x2 S8192 where
  updateWindowDims := []
  insertedWindowDims := [0, 1]
  scatterDimsToOperandDims := [0, 1]
  indexVectorDim := 1
  wf := scatter_S2560x512_S8192x2_S8192_n_01_01_1_wf
def scatter_S3072x512_S8192x2_S8192_n_01_01_1 : ScatterDims S3072x512 S8192x2 S8192 where
  updateWindowDims := []
  insertedWindowDims := [0, 1]
  scatterDimsToOperandDims := [0, 1]
  indexVectorDim := 1
  wf := scatter_S3072x512_S8192x2_S8192_n_01_01_1_wf
def scatter_S3584x2048_S16384x2_S16384_n_01_01_1 : ScatterDims S3584x2048 S16384x2 S16384 where
  updateWindowDims := []
  insertedWindowDims := [0, 1]
  scatterDimsToOperandDims := [0, 1]
  indexVectorDim := 1
  wf := scatter_S3584x2048_S16384x2_S16384_n_01_01_1_wf
def dot_S512x2048_S2048x3584_S512x3584_1_0_0_1_n_n : DotDims S512x2048 S2048x3584 S512x3584 where
  lhsContracting := [1]
  rhsContracting := [0]
  lhsNonContracting := [0]
  rhsNonContracting := [1]
  lhsBatch := []
  rhsBatch := []
  wf := dot_S512x2048_S2048x3584_S512x3584_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x1536_S1536x2048_S512x2048_1_0_0_1_n_n : DotDims S512x1536 S1536x2048 S512x2048 where
  lhsContracting := [1]
  rhsContracting := [0]
  lhsNonContracting := [0]
  rhsNonContracting := [1]
  lhsBatch := []
  rhsBatch := []
  wf := dot_S512x1536_S1536x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v70) S2048x3584.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v71) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v73) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v75) S1536x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v76) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192 : Shape := ⟨1, ![8192]⟩
abbrev S16384 : Shape := ⟨1, ![16384]⟩
abbrev S_ : Shape := ⟨0, ![]⟩
abbrev S8192x1 : Shape := ⟨2, ![8192, 1]⟩
abbrev S8192x8192 : Shape := ⟨2, ![8192, 8192]⟩
abbrev S1x8192 : Shape := ⟨2, ![1, 8192]⟩
abbrev S512x8192 : Shape := ⟨2, ![512, 8192]⟩
abbrev S8192x512 : Shape := ⟨2, ![8192, 512]⟩
abbrev S8192x2560 : Shape := ⟨2, ![8192, 2560]⟩
abbrev S8192x3072 : Shape := ⟨2, ![8192, 3072]⟩
abbrev S8192x3584 : Shape := ⟨2, ![8192, 3584]⟩
abbrev S16384x1 : Shape := ⟨2, ![16384, 1]⟩
abbrev S8192x16384 : Shape := ⟨2, ![8192, 16384]⟩
abbrev S1x16384 : Shape := ⟨2, ![1, 16384]⟩
abbrev S16384x8192 : Shape := ⟨2, ![16384, 8192]⟩
abbrev S2048x8192 : Shape := ⟨2, ![2048, 8192]⟩

abbrev nBuf : Space → Nat
  | .hbm => 88
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S8192, .i32⟩
  | .hbm, ⟨3, _⟩ => ⟨S8192, .f32⟩
  | .hbm, ⟨4, _⟩ => ⟨S8192, .i32⟩
  | .hbm, ⟨5, _⟩ => ⟨S8192, .i32⟩
  | .hbm, ⟨6, _⟩ => ⟨S8192, .f32⟩
  | .hbm, ⟨7, _⟩ => ⟨S8192, .i32⟩
  | .hbm, ⟨8, _⟩ => ⟨S8192, .i32⟩
  | .hbm, ⟨9, _⟩ => ⟨S8192, .f32⟩
  | .hbm, ⟨10, _⟩ => ⟨S16384, .i32⟩
  | .hbm, ⟨11, _⟩ => ⟨S16384, .i32⟩
  | .hbm, ⟨12, _⟩ => ⟨S16384, .f32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S8192x8192, .f32⟩
  | .hbm, ⟨22, _⟩ => ⟨S1x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S512x8192, .f32⟩
  | .hbm, ⟨28, _⟩ => ⟨S8192x1, .i32⟩
  | .hbm, ⟨29, _⟩ => ⟨S512x8192, .f32⟩
  | .hbm, ⟨30, _⟩ => ⟨S8192x512, .f32⟩
  | .hbm, ⟨31, _⟩ => ⟨S8192x2560, .f32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S8192x1, .i32⟩
  | .hbm, ⟨40, _⟩ => ⟨S8192x8192, .f32⟩
  | .hbm, ⟨41, _⟩ => ⟨S1x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S512x8192, .f32⟩
  | .hbm, ⟨47, _⟩ => ⟨S8192x1, .i32⟩
  | .hbm, ⟨48, _⟩ => ⟨S512x8192, .f32⟩
  | .hbm, ⟨49, _⟩ => ⟨S8192x512, .f32⟩
  | .hbm, ⟨50, _⟩ => ⟨S8192x3072, .f32⟩
  | .hbm, ⟨51, _⟩ => ⟨S_, .i32⟩
  | .hbm, ⟨52, _⟩ => ⟨S8192, .i32⟩
  | .hbm, ⟨53, _⟩ => ⟨S8192, .i1⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S8192, .i32⟩
  | .hbm, ⟨58, _⟩ => ⟨S8192x1, .i32⟩
  | .hbm, ⟨59, _⟩ => ⟨S8192x8192, .f32⟩
  | .hbm, ⟨60, _⟩ => ⟨S1x8192, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S512x8192, .f32⟩
  | .hbm, ⟨66, _⟩ => ⟨S8192x1, .i32⟩
  | .hbm, ⟨67, _⟩ => ⟨S512x8192, .f32⟩
  | .hbm, ⟨68, _⟩ => ⟨S8192x512, .f32⟩
  | .hbm, ⟨69, _⟩ => ⟨S8192x3584, .f32⟩
  | .hbm, ⟨70, _⟩ => ⟨S_, .i32⟩
  | .hbm, ⟨71, _⟩ => ⟨S16384, .i32⟩
  | .hbm, ⟨72, _⟩ => ⟨S16384, .i1⟩
  | .hbm, ⟨73, _⟩ => ⟨S_, .i32⟩
  | .hbm, ⟨74, _⟩ => ⟨S16384, .i32⟩
  | .hbm, ⟨75, _⟩ => ⟨S16384, .i32⟩
  | .hbm, ⟨76, _⟩ => ⟨S16384, .i32⟩
  | .hbm, ⟨77, _⟩ => ⟨S16384x1, .i32⟩
  | .hbm, ⟨78, _⟩ => ⟨S8192x16384, .f32⟩
  | .hbm, ⟨79, _⟩ => ⟨S1x16384, .f32⟩
  | .hbm, ⟨80, _⟩ => ⟨S8192x16384, .f32⟩
  | .hbm, ⟨81, _⟩ => ⟨S8192x16384, .f32⟩
  | .hbm, ⟨82, _⟩ => ⟨S16384x8192, .f32⟩
  | .hbm, ⟨83, _⟩ => ⟨S_, .f32⟩
  | .hbm, ⟨84, _⟩ => ⟨S2048x8192, .f32⟩
  | .hbm, ⟨85, _⟩ => ⟨S16384x1, .i32⟩
  | .hbm, ⟨86, _⟩ => ⟨S2048x8192, .f32⟩
  | .hbm, ⟨87, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_7 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S8192x8192_S8192x8192_1_0 : S8192x8192.Transposes [1, 0] S8192x8192
  bcast_S_S512x8192 : S_.BroadcastsInDim S512x8192 (![] : Fin 0 → Fin S512x8192.rank)
  transposes_S512x8192_S8192x512_1_0 : S512x8192.Transposes [1, 0] S8192x512
  concatenates_S8192x2048_S8192x512_S8192x2560_d1 : Shape.Concatenates [S8192x2048, S8192x512] S8192x2560 1
  concatenates_S8192x2560_S8192x512_S8192x3072_d1 : Shape.Concatenates [S8192x2560, S8192x512] S8192x3072 1
  concatenates_S8192x3072_S8192x512_S8192x3584_d1 : Shape.Concatenates [S8192x3072, S8192x512] S8192x3584 1
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  transposes_S8192x16384_S16384x8192_1_0 : S8192x16384.Transposes [1, 0] S16384x8192
  bcast_S_S2048x8192 : S_.BroadcastsInDim S2048x8192 (![] : Fin 0 → Fin S2048x8192.rank)
  transposes_S2048x8192_S8192x2048_1_0 : S2048x8192.Transposes [1, 0] S8192x2048
  gather_S8192x2048_S8192x1_S8192x8192_0_1_n_n_1_1_81921_wf : GatherDims.WF S8192x2048 S8192x1 S8192x8192 [0] [1] [] [1] [] 1 ![8192, 1]
  scatter_S512x8192_S8192x1_S8192x8192_1_0_0_1_wf : ScatterDims.WF S512x8192 S8192x1 S8192x8192 [1] [0] [0] 1
  gather_S8192x2560_S8192x1_S8192x8192_0_1_n_n_1_1_81921_wf : GatherDims.WF S8192x2560 S8192x1 S8192x8192 [0] [1] [] [1] [] 1 ![8192, 1]
  gather_S8192x3072_S8192x1_S8192x8192_0_1_n_n_1_1_81921_wf : GatherDims.WF S8192x3072 S8192x1 S8192x8192 [0] [1] [] [1] [] 1 ![8192, 1]
  gather_S8192x3584_S16384x1_S8192x16384_0_1_n_n_1_1_81921_wf : GatherDims.WF S8192x3584 S16384x1 S8192x16384 [0] [1] [] [1] [] 1 ![8192, 1]
  scatter_S2048x8192_S16384x1_S16384x8192_1_0_0_1_wf : ScatterDims.WF S2048x8192 S16384x1 S16384x8192 [1] [0] [0] 1

variable [Facts₀]

def gather_S8192x2048_S8192x1_S8192x8192_0_1_n_n_1_1_81921 : GatherDims S8192x2048 S8192x1 S8192x8192 where
  offsetDims := [0]
  collapsedSliceDims := [1]
  operandBatchingDims := []
  startIndicesBatchingDims := []
  startIndexMap := [1]
  indexVectorDim := 1
  sliceSizes := ![8192, 1]
  wf := gather_S8192x2048_S8192x1_S8192x8192_0_1_n_n_1_1_81921_wf
def scatter_S512x8192_S8192x1_S8192x8192_1_0_0_1 : ScatterDims S512x8192 S8192x1 S8192x8192 where
  updateWindowDims := [1]
  insertedWindowDims := [0]
  scatterDimsToOperandDims := [0]
  indexVectorDim := 1
  wf := scatter_S512x8192_S8192x1_S8192x8192_1_0_0_1_wf
def gather_S8192x2560_S8192x1_S8192x8192_0_1_n_n_1_1_81921 : GatherDims S8192x2560 S8192x1 S8192x8192 where
  offsetDims := [0]
  collapsedSliceDims := [1]
  operandBatchingDims := []
  startIndicesBatchingDims := []
  startIndexMap := [1]
  indexVectorDim := 1
  sliceSizes := ![8192, 1]
  wf := gather_S8192x2560_S8192x1_S8192x8192_0_1_n_n_1_1_81921_wf
def gather_S8192x3072_S8192x1_S8192x8192_0_1_n_n_1_1_81921 : GatherDims S8192x3072 S8192x1 S8192x8192 where
  offsetDims := [0]
  collapsedSliceDims := [1]
  operandBatchingDims := []
  startIndicesBatchingDims := []
  startIndexMap := [1]
  indexVectorDim := 1
  sliceSizes := ![8192, 1]
  wf := gather_S8192x3072_S8192x1_S8192x8192_0_1_n_n_1_1_81921_wf
def gather_S8192x3584_S16384x1_S8192x16384_0_1_n_n_1_1_81921 : GatherDims S8192x3584 S16384x1 S8192x16384 where
  offsetDims := [0]
  collapsedSliceDims := [1]
  operandBatchingDims := []
  startIndicesBatchingDims := []
  startIndexMap := [1]
  indexVectorDim := 1
  sliceSizes := ![8192, 1]
  wf := gather_S8192x3584_S16384x1_S8192x16384_0_1_n_n_1_1_81921_wf
def scatter_S2048x8192_S16384x1_S16384x8192_1_0_0_1 : ScatterDims S2048x8192 S16384x1 S16384x8192 where
  updateWindowDims := [1]
  insertedWindowDims := [0]
  scatterDimsToOperandDims := [0]
  indexVectorDim := 1
  wf := scatter_S2048x8192_S16384x1_S16384x8192_1_0_0_1_wf

class Facts : Prop extends Facts₀ where

variable [Facts]
-- ==== Proof.Ref.RunH.lean ====
/-
  The reference's run, by hand: its 75 host operations are four stretches of one level each — wrap the column
  indices, gather the columns, multiply by the values, transpose, add up by row into a zero matrix, transpose back,
  append — and each stretch's result is the generated stage of the contents the stretch starts from.  Composing the
  four stretches gives the result buffer at the last stage of the argument arrays; no operation writes an argument.
-/
import proofs.«409427_j11175504904589_3_alg».proof.Proof.Ref.RunP
import proofs.«409427_j11175504904589_3_alg».proof.Proof.Ref.ReadP
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ValueP Cert.ReferenceIdeal.ReadP

namespace Stretch

/-! ## Cutting the line of operations -/

/-- What a line of operations leaves is what its part from position `n` on leaves after its first `n` operations. -/
theorem after_split {τ' : Topo} {sig' : RefSig} {Val : EltTy → Type} (n : ℕ) (l : List (HloOp τ' sig' Val))
    (V0 : Valuation τ' sig' Val) : after l V0 = after (l.drop n) (after (l.take n) V0) := by
  rw [← after_append, List.take_append_drop]

/-- The first `i + n` operations are the first `i`, then the next `n`. -/
theorem after_take_add {τ' : Topo} {sig' : RefSig} {Val : EltTy → Type} (i n : ℕ) (l : List (HloOp τ' sig' Val))
    (V0 : Valuation τ' sig' Val) : after (l.take (i + n)) V0 = after ((l.drop i).take n) (after (l.take i) V0) := by
  rw [List.take_add, after_append]

/-- No operation of a stretch of the operations writes a given buffer: read off the stretch operation by operation. -/
macro "ref_not_written" : tactic =>
  `(tactic| (refine List.forall_iff_forall_mem.mp ?_
             simp only [ops, List.drop_succ_cons, List.drop_zero, List.take_succ_cons, List.take_zero, List.Forall,
               nullary_writes, unary_writes, binary_writes, ternary_writes, Finset.mem_singleton]
             repeat' apply And.intro
             all_goals exact devRef_ne_of_ne (by decide)))

/-! ## The four levels, each from the contents it starts from -/

section Levels
variable (V0 : Valuation τ sig (Elt F))

set_option maxHeartbeats 4000000 in
/-- The first level: the first nineteen operations leave the input with the first sparse product appended. -/
theorem level1 : after (List.take 19 (ops (F := F))) V0 (Proc.devRef .tc main_v15)
    = val_main_v15 (F := F) (V0 (Proc.devRef .tc main_arg0)) (V0 (Proc.devRef .tc main_arg1)) (V0 (Proc.devRef .tc main_arg2)) (V0 (Proc.devRef .tc main_arg3)) := by
  simp only [ops, List.take_succ_cons, List.take_zero]
  after_results
  rfl

set_option maxHeartbeats 4000000 in
/-- The second level: the next nineteen read the first level's result and the second weight only. -/
theorem level2 : after (List.take 38 (ops (F := F))) V0 (Proc.devRef .tc main_v31)
    = val_main_v31 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  show after (List.take (19 + 19) (ops (F := F))) V0 (Proc.devRef .tc main_v31) = _
  rw [after_take_add]
  have h15 := level1 V0
  have a4 : after (List.take 19 ops) V0 (Proc.devRef .tc main_arg4) = V0 (Proc.devRef .tc main_arg4) :=
    after_of_forall_not_mem _ _ (by ref_not_written)
  have a5 : after (List.take 19 ops) V0 (Proc.devRef .tc main_arg5) = V0 (Proc.devRef .tc main_arg5) :=
    after_of_forall_not_mem _ _ (by ref_not_written)
  have a6 : after (List.take 19 ops) V0 (Proc.devRef .tc main_arg6) = V0 (Proc.devRef .tc main_arg6) :=
    after_of_forall_not_mem _ _ (by ref_not_written)
  generalize after (List.take 19 (ops (F := F))) V0 = W at h15 a4 a5 a6 ⊢
  simp only [ops, List.drop_succ_cons, List.drop_zero, List.take_succ_cons, List.take_zero]
  after_results
  rw [h15, a4, a5, a6]
  rfl

set_option maxHeartbeats 4000000 in
/-- The third level: the next nineteen read the second level's result and the third weight only. -/
theorem level3 : after (List.take 57 (ops (F := F))) V0 (Proc.devRef .tc main_v47)
    = val_main_v47 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  show after (List.take (38 + 19) (ops (F := F))) V0 (Proc.devRef .tc main_v47) = _
  rw [after_take_add]
  have h31 := level2 V0
  have a7 : after (List.take 38 ops) V0 (Proc.devRef .tc main_arg7) = V0 (Proc.devRef .tc main_arg7) :=
    after_of_forall_not_mem _ _ (by ref_not_written)
  have a8 : after (List.take 38 ops) V0 (Proc.devRef .tc main_arg8) = V0 (Proc.devRef .tc main_arg8) :=
    after_of_forall_not_mem _ _ (by ref_not_written)
  have a9 : after (List.take 38 ops) V0 (Proc.devRef .tc main_arg9) = V0 (Proc.devRef .tc main_arg9) :=
    after_of_forall_not_mem _ _ (by ref_not_written)
  generalize after (List.take 38 (ops (F := F))) V0 = W at h31 a7 a8 a9 ⊢
  simp only [ops, List.drop_succ_cons, List.drop_zero, List.take_succ_cons, List.take_zero]
  after_results
  rw [h31, a7, a8, a9]
  rfl

set_option maxHeartbeats 4000000 in
/-- The last level: the remaining eighteen read the third level's result and the last weight only. -/
theorem level4 : after (ops (F := F)) V0 (Proc.devRef .tc main_v62)
    = val_main_v62 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  rw [after_split 57]
  have h47 := level3 V0
  have a10 : after (List.take 57 ops) V0 (Proc.devRef .tc main_arg10) = V0 (Proc.devRef .tc main_arg10) :=
    after_of_forall_not_mem _ _ (by ref_not_written)
  have a11 : after (List.take 57 ops) V0 (Proc.devRef .tc main_arg11) = V0 (Proc.devRef .tc main_arg11) :=
    after_of_forall_not_mem _ _ (by ref_not_written)
  have a12 : after (List.take 57 ops) V0 (Proc.devRef .tc main_arg12) = V0 (Proc.devRef .tc main_arg12) :=
    after_of_forall_not_mem _ _ (by ref_not_written)
  generalize after (List.take 57 (ops (F := F))) V0 = W at h47 a10 a11 a12 ⊢
  simp only [ops, List.drop_succ_cons, List.drop_zero]
  after_results
  rw [h47, a10, a11, a12]
  rfl

/-- No operation writes an argument array. -/
theorem arg_kept (b : Ref sig .tc) (hb : ∀ op ∈ (ops (F := F)), (Proc.devRef (τ := τ) .tc b) ∉ op.writes) :
    after (ops (F := F)) V0 (Proc.devRef .tc b) = V0 (Proc.devRef .tc b) :=
  after_of_forall_not_mem _ _ hb

end Levels

end Stretch

open Stretch

set_option maxRecDepth 8192 in
set_option maxHeartbeats 40000000 in
/-- Every weakly fair execution of the reference's @main terminates with the result buffer at the last stage of the
    argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62)
        = Cert.ReferenceIdeal.ReadP.val_main_v62 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v62).trans (level4 (launchContents m c)),
      (h c main_arg0).trans (arg_kept (launchContents m c) main_arg0 (by ref_not_written)),
      (h c main_arg1).trans (arg_kept (launchContents m c) main_arg1 (by ref_not_written)),
      (h c main_arg2).trans (arg_kept (launchContents m c) main_arg2 (by ref_not_written)),
      (h c main_arg3).trans (arg_kept (launchContents m c) main_arg3 (by ref_not_written)),
      (h c main_arg4).trans (arg_kept (launchContents m c) main_arg4 (by ref_not_written)),
      (h c main_arg5).trans (arg_kept (launchContents m c) main_arg5 (by ref_not_written)),
      (h c main_arg6).trans (arg_kept (launchContents m c) main_arg6 (by ref_not_written)),
      (h c main_arg7).trans (arg_kept (launchContents m c) main_arg7 (by ref_not_written)),
      (h c main_arg8).trans (arg_kept (launchContents m c) main_arg8 (by ref_not_written)),
      (h c main_arg9).trans (arg_kept (launchContents m c) main_arg9 (by ref_not_written)),
      (h c main_arg10).trans (arg_kept (launchContents m c) main_arg10 (by ref_not_written)),
      (h c main_arg11).trans (arg_kept (launchContents m c) main_arg11 (by ref_not_written)),
      (h c main_arg12).trans (arg_kept (launchContents m c) main_arg12 (by ref_not_written))⟩)
    (run_seq scopedRefs_eq scopedSems_eq defs main (fun _ => ops) main_eq (fun _ => ops_sub) m ρ)

end Cert.ReferenceIdeal.Hand

end
-- ==== Proof.KB.Kit.lean ====
/-
  The launch side of Kernel's one pallas_call, written by hand because the program's host prefix holds a
  several-operand concatenate: what the region finds in every TensorCore buffer (the host operations' results),
  that @main is those operations followed by the region, that no host operation writes an argument array, each
  window's block at a grid point, and the frame claim's post read off a frame run's post.
-/
import proofs.«409427_j11175504904589_3_alg».proof.Proof.Gen.Kernel.Launch
import proofs.«409427_j11175504904589_3_alg».proof.Proof.Gen.Kernel.Skeleton
import proofs.«409427_j11175504904589_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel Cert.Kernel.Gen

/-! ## @main up to the region -/

/-- Core `c`'s TensorCore buffers when the region is entered: after the host operations that densify the four
    sparse weights, slice them, put the slices side by side and round them to bf16. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not, for any proof data whose
    array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not, for any proof data whose
    array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not, for any proof data whose
    array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not, for any proof data whose
    array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post — the staged
    input array at its entry contents, every array no window stages as the region found it — is the frame claim's
    post: every argument array ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

end Cert.Kernel.Hand

end
-- ==== Proof.KB.Run.lean ====
/-
  The kernel body run once, on any whole staging memrefs: the five inputs at given contents, the output block's
  buffer and the scratch at anything.  It ends with the inputs as they were and with the output buffer and the
  scratch written by the pieces the run meets — one store of the whole output block, three stores of 512 columns
  each into the scratch; a load of the scratch after a store reads what was stored.
-/
import proofs.«409427_j11175504904589_3_alg».proof.Proof.KB.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel Cert.Kernel.Gen

set_option maxHeartbeats 4000000 in
/-- The pieces the body's stores leave in the output block's buffer (`L5`) and in the scratch (`LS0`), last first,
    with the proof that the body runs to a continuation that holds the inputs unchanged and the two buffers written
    by those pieces. -/
noncomputable def kernelRun (c : Dev nD) (i : grid0.Coords) (arg1 : Memref sig .tc .vmem S512x2048 .f32) (harg1 : arg1.IsWhole) (arg2 : Memref sig .tc .vmem S2048x3584 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S1536x2048 .bf16) (harg5 : arg5.IsWhole) (arg6 : Memref sig .tc .vmem S512x2048 .f32) (harg6 : arg6.IsWhole) (arg7 : Memref sig .tc .vmem S512x1536 .bf16) (harg7 : arg7.IsWhole)
    (x0 : Vec F S512x2048 .f32) (x1 : Vec F S2048x3584 .bf16) (x2 : Vec F S512x512 .bf16) (x3 : Vec F S1024x512 .bf16) (x4 : Vec F S1536x2048 .bf16) :
    Σ' (L5 : List (View.Piece (Elt F) S512x2048 .f32)), { LS0 : List (View.Piece (Elt F) S512x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Hand

end
-- ==== Proof.KB.Frame.lean ====
/-
  The frame of Kernel's one pallas_call: the proof data (every input window's buffer holds its block, the output
  window's the body's block function of the five input blocks, the scratch anything), the body obligation at a
  generic grid point from the body's run, the launch, and the frame claim.  The scratch needs no invariant of its
  own: every one of its columns is stored at each point before it is read.
-/
import proofs.«409427_j11175504904589_3_alg».proof.Proof.KB.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel Cert.Kernel.Gen

/-! ## The memrefs the pipeline calls the body with -/

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)
/-- The scratch operand: a whole scoped buffer of the kernel's own. -/
abbrev scM0_0 : Memref sig .tc .vmem S512x1536 .bf16 := Memref.whole cc0_scratch0
/-- One staging buffer of the output window, through which its contents are stated. -/
abbrev VO0_5 : View sig .tc .vmem S512x2048 .f32 := (Memref.whole cc0_stg5_0 : Memref sig .tc .vmem S512x2048 .f32).view

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the body leaves in the output window's buffer -/

/-- The run's pieces for the output block tile it (one store of the whole block). -/
theorem cover0_5 (c : Dev nD) (i : grid0.Coords) (arg1 : Memref sig .tc .vmem S512x2048 .f32) (harg1 : arg1.IsWhole) (arg2 : Memref sig .tc .vmem S2048x3584 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S1536x2048 .bf16) (harg5 : arg5.IsWhole) (arg6 : Memref sig .tc .vmem S512x2048 .f32) (harg6 : arg6.IsWhole) (arg7 : Memref sig .tc .vmem S512x1536 .bf16) (harg7 : arg7.IsWhole)
    (x0 : Vec F S512x2048 .f32) (x1 : Vec F S2048x3584 .bf16) (x2 : Vec F S512x512 .bf16) (x3 : Vec F S1024x512 .bf16) (x4 : Vec F S1536x2048 .bf16) (y : S512x2048.Idx) :
    ∃ pc ∈ (kernelRun c i arg1 harg1 arg2 harg2 arg3 harg3 arg4 harg4 arg5 harg5 arg6 harg6 arg7 harg7 x0 x1 x2 x3 x4).1, y ∈ pc.1.set :=
  View.cover_of_tiledL (kernelRun c i arg1 harg1 arg2 harg2 arg3 harg3 arg4 harg4 arg5 harg5 arg6 harg6 arg7 harg7 x0 x1 x2 x3 x4).1 S512x2048.size (by sl_kernel_rfl) y

/-- What the body leaves in the output window's buffer: its pieces read back. -/
def out0_5 (c : Dev nD) (i : grid0.Coords) (arg1 : Memref sig .tc .vmem S512x2048 .f32) (harg1 : arg1.IsWhole) (arg2 : Memref sig .tc .vmem S2048x3584 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S1536x2048 .bf16) (harg5 : arg5.IsWhole) (arg6 : Memref sig .tc .vmem S512x2048 .f32) (harg6 : arg6.IsWhole) (arg7 : Memref sig .tc .vmem S512x1536 .bf16) (harg7 : arg7.IsWhole)
    (x0 : Vec F S512x2048 .f32) (x1 : Vec F S2048x3584 .bf16) (x2 : Vec F S512x512 .bf16) (x3 : Vec F S1024x512 .bf16) (x4 : Vec F S1536x2048 .bf16) : Vec F S512x2048 .f32 :=
  VO0_5.read (Elt F) (VO0_5.writes (Elt F) VO0_5.junk (kernelRun c i arg1 harg1 arg2 harg2 arg3 harg3 arg4 harg4 arg5 harg5 arg6 harg6 arg7 harg7 x0 x1 x2 x3 x4).1)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, PhiA0_eq]
  unfold out0_5
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%f5, H5⟩, ⟨%es0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with every array of the pipeline at what the proof data
    gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Hand

end
-- ==== Proof.KI.Kit.lean ====
/-
  The launch side of KernelIdeal's one pallas_call, written by hand because the program's host prefix holds a
  several-operand concatenate: what the region finds in every TensorCore buffer (the host operations' results),
  that @main is those operations followed by the region, that no host operation writes an argument array, each
  window's block at a grid point, and the frame claim's post read off a frame run's post.
-/
import proofs.«409427_j11175504904589_3_alg».proof.Proof.Gen.KernelIdeal.Launch
import proofs.«409427_j11175504904589_3_alg».proof.Proof.Gen.KernelIdeal.Skeleton
import proofs.«409427_j11175504904589_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal Cert.KernelIdeal.Gen

/-! ## @main up to the region -/

/-- Core `c`'s TensorCore buffers when the region is entered: after the host operations that densify the four
    sparse weights, slice them, put the slices side by side and round them to bf16. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not, for any proof data whose
    array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not, for any proof data whose
    array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not, for any proof data whose
    array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not, for any proof data whose
    array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post — the staged
    input array at its entry contents, every array no window stages as the region found it — is the frame claim's
    post: every argument array ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

end Cert.KernelIdeal.Hand

end
-- ==== Proof.KI.Run.lean ====
/-
  The kernel body run once, on any whole staging memrefs: the five inputs at given contents, the output block's
  buffer and the scratch at anything.  It ends with the inputs as they were and with the output buffer and the
  scratch written by the pieces the run meets — one store of the whole output block, three stores of 512 columns
  each into the scratch; a load of the scratch after a store reads what was stored.
-/
import proofs.«409427_j11175504904589_3_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal Cert.KernelIdeal.Gen

set_option maxHeartbeats 4000000 in
/-- The pieces the body's stores leave in the output block's buffer (`L5`) and in the scratch (`LS0`), last first,
    with the proof that the body runs to a continuation that holds the inputs unchanged and the two buffers written
    by those pieces. -/
noncomputable def kernelRun (c : Dev nD) (i : grid0.Coords) (arg1 : Memref sig .tc .vmem S512x2048 .f32) (harg1 : arg1.IsWhole) (arg2 : Memref sig .tc .vmem S2048x3584 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S1536x2048 .bf16) (harg5 : arg5.IsWhole) (arg6 : Memref sig .tc .vmem S512x2048 .f32) (harg6 : arg6.IsWhole) (arg7 : Memref sig .tc .vmem S512x1536 .bf16) (harg7 : arg7.IsWhole)
    (x0 : Vec F S512x2048 .f32) (x1 : Vec F S2048x3584 .bf16) (x2 : Vec F S512x512 .bf16) (x3 : Vec F S1024x512 .bf16) (x4 : Vec F S1536x2048 .bf16) :
    Σ' (L5 : List (View.Piece (Elt F) S512x2048 .f32)), { LS0 : List (View.Piece (Elt F) S512x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Hand

end
-- ==== Proof.KI.Frame.lean ====
/-
  The frame of KernelIdeal's one pallas_call: the proof data (every input window's buffer holds its block, the output
  window's the body's block function of the five input blocks, the scratch anything), the body obligation at a
  generic grid point from the body's run, the launch, and the frame claim.  The scratch needs no invariant of its
  own: every one of its columns is stored at each point before it is read.
-/
import proofs.«409427_j11175504904589_3_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal Cert.KernelIdeal.Gen

/-! ## The memrefs the pipeline calls the body with -/

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)
/-- The scratch operand: a whole scoped buffer of the kernel's own. -/
abbrev scM0_0 : Memref sig .tc .vmem S512x1536 .bf16 := Memref.whole cc0_scratch0
/-- One staging buffer of the output window, through which its contents are stated. -/
abbrev VO0_5 : View sig .tc .vmem S512x2048 .f32 := (Memref.whole cc0_stg5_0 : Memref sig .tc .vmem S512x2048 .f32).view

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the body leaves in the output window's buffer -/

/-- The run's pieces for the output block tile it (one store of the whole block). -/
theorem cover0_5 (c : Dev nD) (i : grid0.Coords) (arg1 : Memref sig .tc .vmem S512x2048 .f32) (harg1 : arg1.IsWhole) (arg2 : Memref sig .tc .vmem S2048x3584 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S1536x2048 .bf16) (harg5 : arg5.IsWhole) (arg6 : Memref sig .tc .vmem S512x2048 .f32) (harg6 : arg6.IsWhole) (arg7 : Memref sig .tc .vmem S512x1536 .bf16) (harg7 : arg7.IsWhole)
    (x0 : Vec F S512x2048 .f32) (x1 : Vec F S2048x3584 .bf16) (x2 : Vec F S512x512 .bf16) (x3 : Vec F S1024x512 .bf16) (x4 : Vec F S1536x2048 .bf16) (y : S512x2048.Idx) :
    ∃ pc ∈ (kernelRun c i arg1 harg1 arg2 harg2 arg3 harg3 arg4 harg4 arg5 harg5 arg6 harg6 arg7 harg7 x0 x1 x2 x3 x4).1, y ∈ pc.1.set :=
  View.cover_of_tiledL (kernelRun c i arg1 harg1 arg2 harg2 arg3 harg3 arg4 harg4 arg5 harg5 arg6 harg6 arg7 harg7 x0 x1 x2 x3 x4).1 S512x2048.size (by sl_kernel_rfl) y

/-- What the body leaves in the output window's buffer: its pieces read back. -/
def out0_5 (c : Dev nD) (i : grid0.Coords) (arg1 : Memref sig .tc .vmem S512x2048 .f32) (harg1 : arg1.IsWhole) (arg2 : Memref sig .tc .vmem S2048x3584 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S1536x2048 .bf16) (harg5 : arg5.IsWhole) (arg6 : Memref sig .tc .vmem S512x2048 .f32) (harg6 : arg6.IsWhole) (arg7 : Memref sig .tc .vmem S512x1536 .bf16) (harg7 : arg7.IsWhole)
    (x0 : Vec F S512x2048 .f32) (x1 : Vec F S2048x3584 .bf16) (x2 : Vec F S512x512 .bf16) (x3 : Vec F S1024x512 .bf16) (x4 : Vec F S1536x2048 .bf16) : Vec F S512x2048 .f32 :=
  VO0_5.read (Elt F) (VO0_5.writes (Elt F) VO0_5.junk (kernelRun c i arg1 harg1 arg2 harg2 arg3 harg3 arg4 harg4 arg5 harg5 arg6 harg6 arg7 harg7 x0 x1 x2 x3 x4).1)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, PhiA0_eq]
  unfold out0_5
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%f5, H5⟩, ⟨%es0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with every array of the pipeline at what the proof data
    gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Hand

end
-- ==== Proof.KI.Block.lean ====
/-
  One grid point's arithmetic as a function of the five input blocks.

  The body keeps the three levels in one scratch of 1536 columns: columns [0, 512) hold the first level, a
  slice of the wide product; columns [512, 1024) the second, its slice plus the first level times the second
  weight's later rows; columns [1024, 1536) the third, its slice plus the first two levels times the third
  weight's later rows.  Each level is stored before the next reads it, so what a later load of the scratch
  returns is this one function of the index, and the output block is the last slice of the wide product plus
  all three levels times the last weight's later rows.
-/
import proofs.«409427_j11175504904589_3_alg».proof.Proof.Gen.KernelIdeal.Skeleton
import Idealize.ShloMosaic.Lib.ValueIdx

noncomputable section

namespace Cert.KernelIdeal.Hand

open Idealize.ShloMosaic Idealize.ShloMosaic.ValueIdx
open Cert.KernelIdeal Cert.KernelIdeal.Gen

variable {F : FTy → Type} [FloatOps F]

/-- The first two levels side by side: what the scratch's columns [0, 1024) hold when the third level reads them. -/
def eh01 (x0 : Vec F S512x2048 .f32) (x1 : Vec F S2048x3584 .bf16) (x2 : Vec F S512x512 .bf16) : Vec F S512x1024 .bf16 :=
  fun y =>
    if h : (y 1).val < 512 then k0_pay4 x0 x1 (ix2 (show Fin 512 from y 0) ⟨(y 1).val, h⟩)
    else k0_pay5 x0 x1 x2 (ix2 (show Fin 512 from y 0) ⟨(y 1).val - 512, by have h2 : (y 1).val < 1024 := (y 1).isLt; omega⟩)

/-- All three levels side by side: what the whole scratch holds when the output reads it. -/
def eh (x0 : Vec F S512x2048 .f32) (x1 : Vec F S2048x3584 .bf16) (x2 : Vec F S512x512 .bf16) (x3 : Vec F S1024x512 .bf16) : Vec F S512x1536 .bf16 :=
  fun y =>
    if h : (y 1).val < 1024 then eh01 x0 x1 x2 (ix2 (show Fin 512 from y 0) ⟨(y 1).val, h⟩)
    else k0_pay6 x0 x1 (eh01 x0 x1 x2) x3 (ix2 (show Fin 512 from y 0) ⟨(y 1).val - 1024, by have h2 : (y 1).val < 1536 := (y 1).isLt; omega⟩)

/-- The output block of one grid point from its five input blocks. -/
def blockFn (x0 : Vec F S512x2048 .f32) (x1 : Vec F S2048x3584 .bf16) (x2 : Vec F S512x512 .bf16) (x3 : Vec F S1024x512 .bf16)
    (x4 : Vec F S1536x2048 .bf16) : Vec F S512x2048 .f32 :=
  k0_pay1 (k0_pay7 x0 x1) (eh x0 x1 x2 x3) x4

end Cert.KernelIdeal.Hand

end
-- ==== Proof.KI.Piece.lean ====
/-
  What the run's pieces for the output block are: the block function of the five input blocks.  The body stores
  the whole output block once, and the value stored is the last payload over the scratch read back after its
  three stores, which is the three levels side by side.
-/
import proofs.«409427_j11175504904589_3_alg».proof.Proof.KI.Frame
import proofs.«409427_j11175504904589_3_alg».proof.Proof.KI.Block
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal Cert.KernelIdeal.Gen

/-- The zero offsets of a rank-two rectangle, as a constant function. -/
theorem hz : (![0, 0] : Fin 2 → Nat) = fun _ => 0 := funext fun a => by fin_cases a <;> rfl

section Scratch

variable (x0 : Vec F S512x2048 .f32) (x1 : Vec F S2048x3584 .bf16) (x2 : Vec F S512x512 .bf16) (x3 : Vec F S1024x512 .bf16)

/-- The three rectangles of 512 columns the scratch is stored through. -/
abbrev rc0 : Rect S512x1536 := Rect.unit (s := S512x1536) ![0, 0] S512x512.size inb_S512x1536_S512x512_0_0
abbrev rc1 : Rect S512x1536 := Rect.unit (s := S512x1536) ![0, 512] S512x512.size inb_S512x1536_S512x512_0_512
abbrev rc2 : Rect S512x1536 := Rect.unit (s := S512x1536) ![0, 1024] S512x512.size inb_S512x1536_S512x512_0_1024

theorem ix2_congr {n0 n1 : ℕ} {a a' : Fin n0} {b b' : Fin n1} (ha : a.val = a'.val) (hb : b.val = b'.val) :
    ValueIdx.ix2 a b = ValueIdx.ix2 a' b' := by
  rw [Fin.ext ha, Fin.ext hb]

/-- The three levels side by side, read at a column of the first level, -/
theorem eh_lo (y : S512x1536.Idx) (h : (y 1).val < 512) :
    eh x0 x1 x2 x3 y = k0_pay4 x0 x1 (ValueIdx.ix2 (show Fin 512 from y 0) ⟨(y 1).val, h⟩) := by
  unfold eh
  rw [dif_pos (show (y 1).val < 1024 by omega)]
  unfold eh01
  exact dif_pos h

/-- of the second, -/
theorem eh_mid (y : S512x1536.Idx) (h1 : 512 ≤ (y 1).val) (h2 : (y 1).val < 1024) :
    eh x0 x1 x2 x3 y = k0_pay5 x0 x1 x2 (ValueIdx.ix2 (show Fin 512 from y 0) ⟨(y 1).val - 512, by omega⟩) := by
  unfold eh
  rw [dif_pos h2]
  unfold eh01
  exact dif_neg (show ¬ (y 1).val < 512 by omega)

/-- of the third. -/
theorem eh_hi (y : S512x1536.Idx) (h : 1024 ≤ (y 1).val) :
    eh x0 x1 x2 x3 y = k0_pay6 x0 x1 (eh01 x0 x1 x2) x3
      (ValueIdx.ix2 (show Fin 512 from y 0) ⟨(y 1).val - 1024, by have := (y 1).isLt; have e : S512x1536.size 1 = 1536 := rfl; omega⟩) := by
  unfold eh
  exact dif_neg (show ¬ (y 1).val < 1024 by omega)

/-- Each stored piece is the block of the three levels side by side that its rectangle names. -/
theorem eh_rc0 (x : (rc0).shape.Idx) : eh x0 x1 x2 x3 (rc0.emb x) = k0_pay4 x0 x1 x := by
  have hx1 : (x 1).val < 512 := (x 1).isLt
  have h : ((rc0.emb x) 1).val < 512 := by show 0 + 1 * (x 1).val < 512; omega
  refine (eh_lo x0 x1 x2 x3 (rc0.emb x) h).trans (congrArg (k0_pay4 x0 x1) ?_)
  refine (ix2_congr ?_ ?_).trans (ValueIdx.eq_ix2 x).symm
  · show 0 + 1 * (x 0).val = (x 0).val; omega
  · show 0 + 1 * (x 1).val = (x 1).val; omega

theorem eh_rc1 (x : (rc1).shape.Idx) : eh x0 x1 x2 x3 (rc1.emb x) = k0_pay5 x0 x1 x2 x := by
  have hx1 : (x 1).val < 512 := (x 1).isLt
  have e : ((rc1.emb x) 1).val = 512 + 1 * (x 1).val := rfl
  refine (eh_mid x0 x1 x2 x3 (rc1.emb x) (by omega) (by omega)).trans (congrArg (k0_pay5 x0 x1 x2) ?_)
  refine (ix2_congr ?_ ?_).trans (ValueIdx.eq_ix2 x).symm
  · show 0 + 1 * (x 0).val = (x 0).val; omega
  · show 512 + 1 * (x 1).val - 512 = (x 1).val; omega

theorem eh_rc2 (x : (rc2).shape.Idx) :
    eh x0 x1 x2 x3 (rc2.emb x) = k0_pay6 x0 x1 (eh01 x0 x1 x2) x3 x := by
  have hx1 : (x 1).val < 512 := (x 1).isLt
  have e : ((rc2.emb x) 1).val = 1024 + 1 * (x 1).val := rfl
  refine (eh_hi x0 x1 x2 x3 (rc2.emb x) (by omega)).trans (congrArg (k0_pay6 x0 x1 (eh01 x0 x1 x2) x3) ?_)
  refine (ix2_congr ?_ ?_).trans (ValueIdx.eq_ix2 x).symm
  · show 0 + 1 * (x 0).val = (x 0).val; omega
  · show 1024 + 1 * (x 1).val - 1024 = (x 1).val; omega

/-- The pieces the first two stores leave in the scratch, last first, and all three. -/
abbrev pcs2 : List (View.Piece (Elt F) S512x1536 .bf16) :=
  [⟨rc1, k0_pay5 x0 x1 x2⟩, ⟨rc0, k0_pay4 x0 x1⟩]
abbrev pcs3 : List (View.Piece (Elt F) S512x1536 .bf16) :=
  ⟨rc2, k0_pay6 x0 x1 (eh01 x0 x1 x2) x3⟩ :: pcs2 x0 x1 x2

theorem pieces_eh : ∀ p ∈ pcs3 x0 x1 x2 x3, ∀ x : p.1.shape.Idx, p.2 x = eh x0 x1 x2 x3 (p.1.emb x) := by
  intro p hp
  simp only [List.mem_cons, List.not_mem_nil, or_false] at hp
  rcases hp with rfl | rfl | rfl
  · exact fun x => (eh_rc2 x0 x1 x2 x3 x).symm
  · exact fun x => (eh_rc1 x0 x1 x2 x3 x).symm
  · exact fun x => (eh_rc0 x0 x1 x2 x3 x).symm

/-- The whole scratch read back after its three stores is the three levels side by side. -/
theorem scratch_all (v : View sig .tc .vmem S512x1536 .bf16) :
    v.readCov (pcs3 x0 x1 x2 x3)
      (Rect.unit (s := S512x1536) ![0, 0] S512x1536.size inb_S512x1536_S512x1536_0_0).toLoadRect = eh x0 x1 x2 x3 := by
  rw [View.readCov_eq_canon']
  have hc : View.canon (pcs3 x0 x1 x2 x3) = eh x0 x1 x2 x3 := funext fun y =>
    View.canon_apply_of_pieces (eh x0 x1 x2 x3) _ (pieces_eh x0 x1 x2 x3) y
      (View.cover_of_tiledL (s := S512x1536) (pcs3 x0 x1 x2 x3) ![512, 512] (by sl_kernel_rfl) y)
  rw [hc]
  exact View.ld_unit_zero (S := S512x1536) hz inb_S512x1536_S512x1536_0_0 (eh x0 x1 x2 x3)

include x3 in
/-- The scratch's columns [0, 1024) read back after its first two stores are the first two levels side by side. -/
theorem scratch_01 (v : View sig .tc .vmem S512x1536 .bf16) :
    v.readCov (pcs2 x0 x1 x2)
      (Rect.unit (s := S512x1536) ![0, 0] S512x1024.size inb_S512x1536_S512x1024_0_0).toLoadRect = eh01 x0 x1 x2 := by
  rw [View.readCov_eq_canon']
  funext j
  have hj0 : (j 0).val < 512 := (j 0).isLt
  have hj1 : (j 1).val < 1024 := (j 1).isLt
  have e0 : (((Rect.unit (s := S512x1536) ![0, 0] S512x1024.size inb_S512x1536_S512x1024_0_0).toLoadRect.idx j) 0).val = (j 0).val := by
    show 0 + 1 * (j 0).val = _; omega
  have e1 : (((Rect.unit (s := S512x1536) ![0, 0] S512x1024.size inb_S512x1536_S512x1024_0_0).toLoadRect.idx j) 1).val = (j 1).val := by
    show 0 + 1 * (j 1).val = _; omega
  have hcov : ∃ p ∈ pcs2 x0 x1 x2, (Rect.unit (s := S512x1536) ![0, 0] S512x1024.size inb_S512x1536_S512x1024_0_0).toLoadRect.idx j ∈ p.1.set := by
    by_cases c : (j 1).val < 512
    · refine ⟨⟨rc0, k0_pay4 x0 x1⟩, by simp, ?_⟩
      show _ ∈ (Rect.unit (s := S512x1536) ![0, 0] S512x512.size inb_S512x1536_S512x512_0_0).set
      rw [Rect.mem_set_unit]
      refine Fin.forall_fin_two.mpr ⟨⟨?_, ?_⟩, ⟨?_, ?_⟩⟩
      · show 0 ≤ _; omega
      · show _ < 0 + 512; omega
      · show 0 ≤ _; omega
      · show _ < 0 + 512; omega
    · refine ⟨⟨rc1, k0_pay5 x0 x1 x2⟩, by simp, ?_⟩
      show _ ∈ (Rect.unit (s := S512x1536) ![0, 512] S512x512.size inb_S512x1536_S512x512_0_512).set
      rw [Rect.mem_set_unit]
      refine Fin.forall_fin_two.mpr ⟨⟨?_, ?_⟩, ⟨?_, ?_⟩⟩
      · show 0 ≤ _; omega
      · show _ < 0 + 512; omega
      · show 512 ≤ _; omega
      · show _ < 512 + 512; omega
  rw [View.canon_apply_of_pieces (eh x0 x1 x2 x3) _
    (fun p hp => pieces_eh x0 x1 x2 x3 p (List.mem_cons_of_mem _ hp)) _ hcov]
  unfold eh
  rw [dif_pos (show (((Rect.unit (s := S512x1536) ![0, 0] S512x1024.size inb_S512x1536_S512x1024_0_0).toLoadRect.idx j) 1).val < 1024 by omega)]
  refine congrArg (eh01 x0 x1 x2) ((ix2_congr ?_ ?_).trans (ValueIdx.eq_ix2 j).symm)
  · exact e0
  · exact e1

end Scratch

/-- The output window's buffer after the body holds the block function of the input blocks. -/
theorem out0_5_eq (c : Dev nD) (i : grid0.Coords) (arg1 : Memref sig .tc .vmem S512x2048 .f32) (harg1 : arg1.IsWhole) (arg2 : Memref sig .tc .vmem S2048x3584 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S1536x2048 .bf16) (harg5 : arg5.IsWhole) (arg6 : Memref sig .tc .vmem S512x2048 .f32) (harg6 : arg6.IsWhole) (arg7 : Memref sig .tc .vmem S512x1536 .bf16) (harg7 : arg7.IsWhole)
    (x0 : Vec F S512x2048 .f32) (x1 : Vec F S2048x3584 .bf16) (x2 : Vec F S512x512 .bf16) (x3 : Vec F S1024x512 .bf16) (x4 : Vec F S1536x2048 .bf16) :
    out0_5 c i arg1 harg1 arg2 harg2 arg3 harg3 arg4 harg4 arg5 harg5 arg6 harg6 arg7 harg7 x0 x1 x2 x3 x4 = blockFn x0 x1 x2 x3 x4 := by
  unfold out0_5
  rw [View.read_writes_eq_canon _ _ _ (cover0_5 c i arg1 harg1 arg2 harg2 arg3 harg3 arg4 harg4 arg5 harg5 arg6 harg6 arg7 harg7 x0 x1 x2 x3 x4)]
  unfold kernelRun
  dsimp only
  sl_unfold_words
  rw [View.canon_unit_zero hz]
  simp only [View.readAt_eq_ld, harg1.read_unread, harg2.read_unread, harg3.read_unread, harg4.read_unread, harg5.read_unread,
    View.ld_unit_zero (S := S512x2048) hz, View.ld_unit_zero (S := S2048x3584) hz, View.ld_unit_zero (S := S512x512) hz,
    View.ld_unit_zero (S := S1024x512) hz, View.ld_unit_zero (S := S1536x2048) hz]
  rw [scratch_01 x0 x1 x2 x3 arg7.view, scratch_all x0 x1 x2 x3 arg7.view]
  rfl

end Cert.KernelIdeal.Hand

end
-- ==== Proof.Spec.lean ====
/-
  What both programs compute, written over natural-number coordinates.

  A sparse weight is a list of triples (row, column, value).  The reference multiplies a running
  feature matrix `h` by such a weight one triple at a time: `(h · Wᵀ)[b, r]` is the sum over the triples
  with row `r` of `h[b, column] · value`; each level's result is appended to `h` as new columns, three
  times, and the last weight gives the output.  The kernel first adds the triples up into a dense
  transposed matrix `Wᵀ[f, r]` (the sum of the values of the triples at column `f` and row `r`) and then
  takes ordinary matrix products, with the product against the appended columns split off from the product
  against the original ones.  The two agree whenever every entry is a real number and every column
  index lies inside the matrix it indexes: exchanging the two finite sums needs distributivity, which the
  extended reals have only on the reals.
-/
import Idealize.ShloMosaic.PureOps.Ideal
import Idealize.ShloMosaic.Lib.ValueIdx

noncomputable section

namespace Cert.Spec

open Idealize.ShloMosaic Idealize.ShloMosaic.ValueIdx
open scoped BigOperators

/-- A matrix read at natural-number coordinates. -/
abbrev NMat := ℕ → ℕ → EReal

/-- An array of a literal rank-2 shape read at natural-number coordinates; zero outside the shape. -/
def ofArr {A B : Nat} (a : (⟨2, ![A, B]⟩ : Shape).Idx → EReal) : NMat :=
  fun p q => if h : p < A ∧ q < B then a (ix2 ⟨p, h.1⟩ ⟨q, h.2⟩) else 0

/-- A matrix over natural-number coordinates as an array of a literal rank-2 shape. -/
def toArr (A B : Nat) (f : NMat) : (⟨2, ![A, B]⟩ : Shape).Idx → EReal :=
  fun j => f (j 0).val (j 1).val

/-- A vector of 32-bit words read signed at a natural-number position; zero outside. -/
def ofInts {K : Nat} (v : (⟨1, ![K]⟩ : Shape).Idx → BitVec 32) : ℕ → ℤ :=
  fun k => if h : k < K then (v (ix1 ⟨k, h⟩)).toInt else 0

/-- A vector of extended reals read at a natural-number position; zero outside. -/
def ofVals {K : Nat} (v : (⟨1, ![K]⟩ : Shape).Idx → EReal) : ℕ → EReal :=
  fun k => if h : k < K then v (ix1 ⟨k, h⟩) else 0

/-- A sparse matrix in coordinate form: `K` triples (row, column, value). -/
structure Coo where
  K : ℕ
  rows : ℕ → ℤ
  cols : ℕ → ℤ
  vals : ℕ → EReal

/-- The coordinate form read off three argument arrays. -/
def Coo.of {K : Nat} (rows cols : (⟨1, ![K]⟩ : Shape).Idx → BitVec 32)
    (vals : (⟨1, ![K]⟩ : Shape).Idx → EReal) : Coo :=
  ⟨K, ofInts rows, ofInts cols, ofVals vals⟩

/-- What the proof needs of a sparse weight whose columns index a matrix of `C` columns: real values,
    no negative row, every column inside `[0, C)`. -/
structure Coo.Dom (w : Coo) (C : ℕ) : Prop where
  vals_real : ∀ k, k < w.K → ∃ r : ℝ, w.vals k = (r : EReal)
  rows_nonneg : ∀ k, k < w.K → 0 ≤ w.rows k
  cols_range : ∀ k, k < w.K → 0 ≤ w.cols k ∧ w.cols k < (C : ℤ)

/-- The dense transpose: entry `(f, r)` is the sum of the values of the triples at column `f`, row `r`. -/
def Coo.dense (w : Coo) : NMat :=
  fun f r => ∑ k ∈ Finset.range w.K, if w.cols k = (f : ℤ) ∧ w.rows k = (r : ℤ) then w.vals k else 0

/-- One sparse product of the reference: `(h · Wᵀ)[b, r]`, triple by triple. -/
def Coo.spmm (w : Coo) (h : NMat) : NMat :=
  fun b r => ∑ k ∈ Finset.range w.K, if w.rows k = (r : ℤ) then h b (w.cols k).toNat * w.vals k else 0

/-- Columns `[0, A)` from `h`, the columns after them from `e`. -/
def hcat (A : ℕ) (h e : NMat) : NMat :=
  fun b f => if f < A then h b f else e b (f - A)

/-- The reference: three levels, each appending its sparse product, then the last weight. -/
def refOut (x : NMat) (w0 w1 w2 wm : Coo) : NMat :=
  let h1 := hcat 2048 x (w0.spmm x)
  let h2 := hcat 2560 h1 (w1.spmm h1)
  let h3 := hcat 3072 h2 (w2.spmm h2)
  wm.spmm h3

/-- An ordinary matrix product over `n` contracted coordinates. -/
def mm (n : ℕ) (a b : NMat) : NMat :=
  fun p q => ∑ f ∈ Finset.range n, a p f * b f q

/-- The kernel, row by row: one wide product of `x` with the prefix weights `P` (columns
    `[0, 512)`, `[512, 1024)`, `[1024, 1536)` and `[1536, 3584)` serve the three levels and the output),
    then each level's correction from the levels before it through `Q1`, `Q2`, `Q3`. -/
def kernelOut (x P Q1 Q2 Q3 : NMat) : NMat :=
  let big := mm 2048 x P
  let e0 : NMat := fun b r => big b r
  let e1 : NMat := fun b r => big b (512 + r) + mm 512 e0 Q1 b r
  let eh01 := hcat 512 e0 e1
  let e2 : NMat := fun b r => big b (1024 + r) + mm 1024 eh01 Q2 b r
  let eh := hcat 1024 eh01 e2
  fun b r => big b (1536 + r) + mm 1536 eh Q3 b r

/-- The prefix weights: the first 2048 rows of the four dense transposes, side by side. -/
def Pof (w0 w1 w2 wm : Coo) : NMat :=
  fun f n => if n < 512 then w0.dense f n else if n < 1024 then w1.dense f (n - 512)
    else if n < 1536 then w2.dense f (n - 1024) else wm.dense f (n - 1536)

/-- The rows of a dense transpose from row 2048 on: what multiplies the appended columns. -/
def Qof (w : Coo) : NMat := fun i r => w.dense (2048 + i) r

end Cert.Spec

end
-- ==== Proof.KI.BlockVal.lean ====
/-
  One grid point's output block, entry by entry, at Ideal: the kernel's row-by-row function of the five blocks.
  A matrix-unit product into a zero accumulator is the plain sum over the contracted coordinate; a rounding to
  bf16 or a widening back is the identity; a slice reads its operand at the shifted column.
-/
import proofs.«409427_j11175504904589_3_alg».proof.Proof.KI.Block
import proofs.«409427_j11175504904589_3_alg».proof.Proof.Spec
import Idealize.ShloMosaic.PureOps.Ideal.Laws
import Idealize.ShloMosaic.Lib.ValueLayout
import Idealize.ShloMosaic.Lib.StackMember
import Idealize.ShloMosaic.Lib.KernelVsHost

noncomputable section

namespace Cert.KernelIdeal.Hand

open Idealize.ShloMosaic Idealize.ShloMosaic.ValueIdx
open Cert.KernelIdeal Cert.KernelIdeal.Gen
open scoped BigOperators

/-! ## A product into the zero accumulator, and each value of the body, at an entry -/

/-- A plain matrix product into the zero accumulator, read at an entry, is the sum over the contracted coordinate. -/
theorem matmul_zero_apply {M K N : Nat} {φ₁ φ₂ : FTy}
    (D : DotDims ⟨2, ![M, K]⟩ ⟨2, ![K, N]⟩ ⟨2, ![M, N]⟩) (hD : D = DotDims.plain M K N)
    (A : FVec Ideal ⟨2, ![M, K]⟩ φ₁) (B : FVec Ideal ⟨2, ![K, N]⟩ φ₂) (a : Fin M) (b : Fin N) :
    matmul (F := Ideal) D none A B (constant (F := Ideal) ⟨2, ![M, N]⟩ .f32 0x00000000#32) (ix2 a b)
      = ∑ c : Fin K, A (ix2 a c) * B (ix2 c b) := by
  subst hD
  exact (congrFun (matmul_zero_eq_dotGeneral (DotDims.plain M K N) none A B) (ix2 a b)).trans
    (StackMember.dotGeneral_plain_apply none A B a b)

/-- The wide product at row `p`, column `j`: the sum over the 2048 features. -/
theorem pay2_apply (x0 : Vec Ideal S512x2048 .f32) (x1 : Vec Ideal S2048x3584 .bf16) (p : Fin 512) (j : Fin 3584) :
    k0_pay2 (F := Ideal) x0 x1 (ix2 p j) = ∑ f : Fin 2048, x0 (ix2 p f) * x1 (ix2 f j) := by
  unfold k0_pay2
  refine (truncf_apply (φ := .f32) (ψ := .bf16) _ bitsLt_bf16_f32 (ix2 p j)).trans ?_
  rw [shapeCast_self]
  exact matmul_zero_apply dot_S512x2048_S2048x3584_S512x3584_1_0_0_1_n_n rfl _ x1 p j

/-- The first level is the wide product's columns [0, 512). -/
theorem pay3_apply (x0 : Vec Ideal S512x2048 .f32) (x1 : Vec Ideal S2048x3584 .bf16) (p : Fin 512) (r : Fin 512) :
    k0_pay3 (F := Ideal) x0 x1 (ix2 p r) = k0_pay2 (F := Ideal) x0 x1 (ix2 p ⟨r.val, by have := r.isLt; omega⟩) := by
  unfold k0_pay3
  exact slice2_axis1_apply 0 _ _ p r _ (by simp)

/-- The first level as it is stored is the first level. -/
theorem pay4_apply (x0 : Vec Ideal S512x2048 .f32) (x1 : Vec Ideal S2048x3584 .bf16) (p : Fin 512) (r : Fin 512) :
    k0_pay4 (F := Ideal) x0 x1 (ix2 p r) = k0_pay3 (F := Ideal) x0 x1 (ix2 p r) := by
  unfold k0_pay4
  rw [shapeCast_self]

/-- The output's own slice of the wide product: its columns [1536, 3584). -/
theorem pay7_apply (x0 : Vec Ideal S512x2048 .f32) (x1 : Vec Ideal S2048x3584 .bf16) (p : Fin 512) (q : Fin 2048) :
    k0_pay7 (F := Ideal) x0 x1 (ix2 p q) = k0_pay2 (F := Ideal) x0 x1 (ix2 p ⟨1536 + q.val, by have := q.isLt; omega⟩) := by
  unfold k0_pay7
  refine (extf_apply (φ := .bf16) (ψ := .f32) _ bitsLt_bf16_f32 (ix2 p q)).trans ?_
  exact slice2_axis1_apply 1536 _ _ p q _ rfl

/-- The second level: the wide product's columns [512, 1024) plus the first level times the second weight's later rows. -/
theorem pay5_apply (x0 : Vec Ideal S512x2048 .f32) (x1 : Vec Ideal S2048x3584 .bf16) (x2 : Vec Ideal S512x512 .bf16)
    (p : Fin 512) (r : Fin 512) :
    k0_pay5 (F := Ideal) x0 x1 x2 (ix2 p r)
      = k0_pay2 (F := Ideal) x0 x1 (ix2 p ⟨512 + r.val, by have := r.isLt; omega⟩)
        + ∑ f : Fin 512, k0_pay3 (F := Ideal) x0 x1 (ix2 p f) * x2 (ix2 f r) := by
  unfold k0_pay5
  rw [shapeCast_self, shapeCast_self]
  refine (truncf_apply (φ := .f32) (ψ := .bf16) _ bitsLt_bf16_f32 (ix2 p r)).trans ?_
  rw [addf_apply]
  refine congrArg₂ (· + ·) ?_ ?_
  · refine (extf_apply (φ := .bf16) (ψ := .f32) _ bitsLt_bf16_f32 (ix2 p r)).trans ?_
    exact slice2_axis1_apply 512 _ _ p r _ rfl
  · exact matmul_zero_apply dot_S512x512_S512x512_S512x512_1_0_0_1_n_n rfl _ x2 p r

/-- The third level over whatever the first two levels' columns hold: the wide product's columns [1024, 1536) plus
    those columns times the third weight's later rows. -/
theorem pay6_apply (x0 : Vec Ideal S512x2048 .f32) (x1 : Vec Ideal S2048x3584 .bf16) (v22 : Vec Ideal S512x1024 .bf16)
    (x3 : Vec Ideal S1024x512 .bf16) (p : Fin 512) (r : Fin 512) :
    k0_pay6 (F := Ideal) x0 x1 v22 x3 (ix2 p r)
      = k0_pay2 (F := Ideal) x0 x1 (ix2 p ⟨1024 + r.val, by have := r.isLt; omega⟩)
        + ∑ f : Fin 1024, v22 (ix2 p f) * x3 (ix2 f r) := by
  unfold k0_pay6
  rw [shapeCast_self, shapeCast_self]
  refine (truncf_apply (φ := .f32) (ψ := .bf16) _ bitsLt_bf16_f32 (ix2 p r)).trans ?_
  rw [addf_apply]
  refine congrArg₂ (· + ·) ?_ ?_
  · refine (extf_apply (φ := .bf16) (ψ := .f32) _ bitsLt_bf16_f32 (ix2 p r)).trans ?_
    exact slice2_axis1_apply 1024 _ _ p r _ rfl
  · exact matmul_zero_apply dot_S512x1024_S1024x512_S512x512_1_0_0_1_n_n rfl v22 x3 p r

/-- The output: its slice of the wide product plus the three levels' columns times the last weight's later rows. -/
theorem pay1_apply (v32 : FVec Ideal S512x2048 .f32) (v33 : Vec Ideal S512x1536 .bf16) (x4 : Vec Ideal S1536x2048 .bf16)
    (p : Fin 512) (q : Fin 2048) :
    k0_pay1 (F := Ideal) v32 v33 x4 (ix2 p q) = v32 (ix2 p q) + ∑ f : Fin 1536, v33 (ix2 p f) * x4 (ix2 f q) := by
  unfold k0_pay1
  rw [shapeCast_self, addf_apply]
  exact congrArg (v32 (ix2 p q) + ·) (matmul_zero_apply dot_S512x1536_S1536x2048_S512x2048_1_0_0_1_n_n rfl v33 x4 p q)

/-! ## The specification's levels, named -/

/-- The wide product. -/
def sBig (X P : Spec.NMat) : Spec.NMat := Spec.mm 2048 X P
/-- The first level: the wide product's first 512 columns. -/
def sE0 (X P : Spec.NMat) : Spec.NMat := fun b r => sBig X P b r
/-- The second level. -/
def sE1 (X P Q1 : Spec.NMat) : Spec.NMat := fun b r => sBig X P b (512 + r) + Spec.mm 512 (sE0 X P) Q1 b r
/-- The first two levels side by side. -/
def sEh01 (X P Q1 : Spec.NMat) : Spec.NMat := Spec.hcat 512 (sE0 X P) (sE1 X P Q1)
/-- The third level. -/
def sE2 (X P Q1 Q2 : Spec.NMat) : Spec.NMat := fun b r => sBig X P b (1024 + r) + Spec.mm 1024 (sEh01 X P Q1) Q2 b r
/-- All three levels side by side. -/
def sEh (X P Q1 Q2 : Spec.NMat) : Spec.NMat := Spec.hcat 1024 (sEh01 X P Q1) (sE2 X P Q1 Q2)

/-- The kernel's row function is the wide product's last slice plus the three levels times the last weight. -/
theorem kernelOut_eq (X P Q1 Q2 Q3 : Spec.NMat) :
    Spec.kernelOut X P Q1 Q2 Q3 = fun b r => sBig X P b (1536 + r) + Spec.mm 1536 (sEh X P Q1 Q2) Q3 b r := rfl

/-- Inside its shape an array read at natural coordinates is the array there. -/
theorem ofArr_apply {A B : Nat} (a : (⟨2, ![A, B]⟩ : Shape).Idx → EReal) (p : Fin A) (q : Fin B) :
    Spec.ofArr a p.val q.val = a (ix2 p q) := by
  unfold Spec.ofArr
  rw [dif_pos ⟨p.isLt, q.isLt⟩]

/-- A sum over the contracted coordinate of two arrays that agree with two matrices there is the matrices' product. -/
theorem sum_fin_eq_mm {M K N : Nat} (a : (⟨2, ![M, K]⟩ : Shape).Idx → EReal) (b : (⟨2, ![K, N]⟩ : Shape).Idx → EReal)
    (A B : Spec.NMat) (p : Fin M) (q : Fin N)
    (ha : ∀ f : Fin K, a (ix2 p f) = A p.val f.val) (hb : ∀ f : Fin K, b (ix2 f q) = B f.val q.val) :
    ∑ f : Fin K, a (ix2 p f) * b (ix2 f q) = Spec.mm K A B p.val q.val := by
  unfold Spec.mm
  rw [← Fin.sum_univ_eq_sum_range (fun f => A p.val f * B f q.val) K]
  exact Finset.sum_congr rfl fun f _ => by rw [ha f, hb f]

section Levels
variable (x0 : Vec Ideal S512x2048 .f32) (x1 : Vec Ideal S2048x3584 .bf16) (x2 : Vec Ideal S512x512 .bf16)
  (x3 : Vec Ideal S1024x512 .bf16) (x4 : Vec Ideal S1536x2048 .bf16)

local notation "X" => Spec.ofArr (A := 512) (B := 2048) x0
local notation "P" => Spec.ofArr (A := 2048) (B := 3584) x1
local notation "Q1" => Spec.ofArr (A := 512) (B := 512) x2
local notation "Q2" => Spec.ofArr (A := 1024) (B := 512) x3
local notation "Q3" => Spec.ofArr (A := 1536) (B := 2048) x4

theorem big_apply (p : Fin 512) (j : Fin 3584) :
    k0_pay2 (F := Ideal) x0 x1 (ix2 p j) = sBig X P p.val j.val :=
  (pay2_apply x0 x1 p j).trans
    (sum_fin_eq_mm x0 x1 X P p j (fun f => (ofArr_apply x0 p f).symm) (fun f => (ofArr_apply x1 f j).symm))

theorem e0_apply (p : Fin 512) (r : Fin 512) :
    k0_pay3 (F := Ideal) x0 x1 (ix2 p r) = sE0 X P p.val r.val :=
  (pay3_apply x0 x1 p r).trans (big_apply x0 x1 p ⟨r.val, by have := r.isLt; omega⟩)

theorem e1_apply (p : Fin 512) (r : Fin 512) :
    k0_pay5 (F := Ideal) x0 x1 x2 (ix2 p r) = sE1 X P Q1 p.val r.val := by
  rw [pay5_apply, big_apply]
  exact congrArg (sBig X P p.val (512 + r.val) + ·)
    (sum_fin_eq_mm (k0_pay3 (F := Ideal) x0 x1) x2 (sE0 X P) Q1 p r (fun f => e0_apply x0 x1 p f)
      (fun f => (ofArr_apply x2 f r).symm))

theorem eh01_apply (p : Fin 512) (j : Fin 1024) :
    eh01 (F := Ideal) x0 x1 x2 (ix2 p j) = sEh01 X P Q1 p.val j.val := by
  unfold eh01 sEh01 Spec.hcat
  by_cases h : j.val < 512
  · rw [dif_pos (show ((ix2 p j) 1).val < 512 from h), if_pos h]
    exact (pay4_apply x0 x1 p ⟨j.val, h⟩).trans (e0_apply x0 x1 p ⟨j.val, h⟩)
  · rw [dif_neg (show ¬ ((ix2 p j) 1).val < 512 from h), if_neg h]
    exact e1_apply x0 x1 x2 p ⟨j.val - 512, by have := j.isLt; omega⟩

theorem e2_apply (p : Fin 512) (r : Fin 512) :
    k0_pay6 (F := Ideal) x0 x1 (eh01 (F := Ideal) x0 x1 x2) x3 (ix2 p r) = sE2 X P Q1 Q2 p.val r.val := by
  rw [pay6_apply, big_apply]
  exact congrArg (sBig X P p.val (1024 + r.val) + ·)
    (sum_fin_eq_mm (eh01 (F := Ideal) x0 x1 x2) x3 (sEh01 X P Q1) Q2 p r (fun f => eh01_apply x0 x1 x2 p f)
      (fun f => (ofArr_apply x3 f r).symm))

theorem eh_apply (p : Fin 512) (j : Fin 1536) :
    eh (F := Ideal) x0 x1 x2 x3 (ix2 p j) = sEh X P Q1 Q2 p.val j.val := by
  unfold eh sEh Spec.hcat
  by_cases h : j.val < 1024
  · rw [dif_pos (show ((ix2 p j) 1).val < 1024 from h), if_pos h]
    exact eh01_apply x0 x1 x2 p ⟨j.val, h⟩
  · rw [dif_neg (show ¬ ((ix2 p j) 1).val < 1024 from h), if_neg h]
    exact e2_apply x0 x1 x2 x3 p ⟨j.val - 1024, by have := j.isLt; omega⟩

end Levels

/-- The output block at row `p`, column `q` is the kernel's row function of the blocks read at natural coordinates. -/
theorem blockFn_apply (x0 : Vec Ideal S512x2048 .f32) (x1 : Vec Ideal S2048x3584 .bf16) (x2 : Vec Ideal S512x512 .bf16)
    (x3 : Vec Ideal S1024x512 .bf16) (x4 : Vec Ideal S1536x2048 .bf16) (p : Fin 512) (q : Fin 2048) :
    blockFn (F := Ideal) x0 x1 x2 x3 x4 (ix2 p q)
      = Spec.kernelOut (Spec.ofArr (A := 512) (B := 2048) x0) (Spec.ofArr (A := 2048) (B := 3584) x1)
          (Spec.ofArr (A := 512) (B := 512) x2) (Spec.ofArr (A := 1024) (B := 512) x3) (Spec.ofArr (A := 1536) (B := 2048) x4) p.val q.val := by
  rw [kernelOut_eq]
  unfold blockFn
  rw [pay1_apply, pay7_apply, big_apply]
  exact congrArg (sBig _ _ p.val (1536 + q.val) + ·)
    (sum_fin_eq_mm (eh (F := Ideal) x0 x1 x2 x3) x4 _ _ p q (fun f => eh_apply x0 x1 x2 x3 p f)
      (fun f => (ofArr_apply x4 f q).symm))

end Cert.KernelIdeal.Hand

end
-- ==== Proof.KI.ArrVal.lean ====
/-
  From blocks to the array, at Ideal: grid point `t` writes the block function of its five input blocks into rows
  [512 t, 512 t + 512) of the output; the sixteen blocks tile the 8192 rows; the first input block is rows
  [512 t, 512 t + 512) of `x` and the four weight blocks are the whole weight arrays at every point; and the
  kernel's row function reads only row `b` of `x`.  So the output array is the kernel's row function of the
  arrays the region finds.
-/
import proofs.«409427_j11175504904589_3_alg».proof.Proof.KI.Piece
import proofs.«409427_j11175504904589_3_alg».proof.Proof.KI.BlockVal
import proofs.«409427_j11175504904589_3_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The kernel's row function reads one row of `x` -/

/-- Row `b` of the kernel's result depends on `x` only through row `b` of `x`. -/
theorem kernelOut_row (x x' P Q1 Q2 Q3 : Spec.NMat) (b p r : ℕ) (h : ∀ f, x b f = x' p f) :
    Spec.kernelOut x P Q1 Q2 Q3 b r = Spec.kernelOut x' P Q1 Q2 Q3 p r := by
  simp only [Spec.kernelOut, Spec.mm, Spec.hcat, h]

/-! ## Where the blocks sit in their arrays -/

/-- The printed index maps over the sixteen grid points: the output's and `x`'s block at point `t` is block row `t`,
    and every weight's block is the one block of its array. -/
theorem idx_facts : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Entry `y` of `x`'s block at point `t` is entry `(512 t + y₀, y₁)` of `x`. -/
theorem xblock_apply (c : Dev nD) (t : Fin cfg0.N) (y : S512x2048.Idx) (k : S8192x2048.Idx)
    (hk0 : (k 0).val = 512 * t.val + (y 0).val) (hk1 : (k 1).val = (y 1).val) :
    (iblk m c 0 t : Vec Ideal S512x2048 .f32) y = (V m c main_arg0 : S8192x2048.Idx → Elt Ideal .f32) k := by
  obtain ⟨-, -, e0, e1, -⟩ := idx_facts t
  unfold iblk
  rw [View.read_apply]
  show V m c main_arg0 _ = V m c main_arg0 _
  congr 1
  funext a
  apply Fin.ext
  match a with
  | ⟨0, _⟩ => show win0_0.index t (0 : Fin 2) * 512 + 1 * (y 0).val = (k 0).val; rw [e0, hk0]; omega
  | ⟨1, _⟩ => show win0_0.index t (1 : Fin 2) * 2048 + 1 * (y 1).val = (k 1).val; rw [e1, hk1]; omega

/-- The prefix weights' block at every point is the whole array. -/
theorem pblock_eq (c : Dev nD) (t : Fin cfg0.N) :
    (iblk m c 1 t : Vec Ideal S2048x3584 .bf16) = (V m c main_v70 : S2048x3584.Idx → Elt Ideal .bf16) := by
  obtain ⟨-, -, -, -, e0, e1, -⟩ := idx_facts t
  funext y
  unfold iblk
  rw [View.read_apply]
  show V m c main_v70 _ = V m c main_v70 _
  congr 1
  funext a
  apply Fin.ext
  match a with
  | ⟨0, _⟩ => show win0_1.index t (0 : Fin 2) * 2048 + 1 * (y 0).val = (y 0).val; rw [e0]; omega
  | ⟨1, _⟩ => show win0_1.index t (1 : Fin 2) * 3584 + 1 * (y 1).val = (y 1).val; rw [e1]; omega

/-- The second level's later rows' block at every point is the whole array. -/
theorem q1block_eq (c : Dev nD) (t : Fin cfg0.N) :
    (iblk m c 2 t : Vec Ideal S512x512 .bf16) = (V m c main_v71 : S512x512.Idx → Elt Ideal .bf16) := by
  obtain ⟨-, -, -, -, -, -, e0, e1, -⟩ := idx_facts t
  funext y
  unfold iblk
  rw [View.read_apply]
  show V m c main_v71 _ = V m c main_v71 _
  congr 1
  funext a
  apply Fin.ext
  match a with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega

/-- The third level's later rows' block at every point is the whole array. -/
theorem q2block_eq (c : Dev nD) (t : Fin cfg0.N) :
    (iblk m c 3 t : Vec Ideal S1024x512 .bf16) = (V m c main_v73 : S1024x512.Idx → Elt Ideal .bf16) := by
  obtain ⟨-, -, -, -, -, -, -, -, e0, e1, -⟩ := idx_facts t
  funext y
  unfold iblk
  rw [View.read_apply]
  show V m c main_v73 _ = V m c main_v73 _
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 512 + 1 * (y 1).val = (y 1).val; rw [e1]; omega

/-- The output weight's later rows' block at every point is the whole array. -/
theorem q3block_eq (c : Dev nD) (t : Fin cfg0.N) :
    (iblk m c 4 t : Vec Ideal S1536x2048 .bf16) = (V m c main_v75 : S1536x2048.Idx → Elt Ideal .bf16) := by
  obtain ⟨-, -, -, -, -, -, -, -, -, -, e0, e1⟩ := idx_facts t
  funext y
  unfold iblk
  rw [View.read_apply]
  show V m c main_v75 _ = V m c main_v75 _
  congr 1
  funext a
  apply Fin.ext
  match a with
  | ⟨0, _⟩ => show win0_4.index t (0 : Fin 2) * 1536 + 1 * (y 0).val = (y 0).val; rw [e0]; omega
  | ⟨1, _⟩ => show win0_4.index t (1 : Fin 2) * 2048 + 1 * (y 1).val = (y 1).val; rw [e1]; omega

/-! ## The output array as one function of the arrays the region finds -/

/-- The kernel's row function of the five arrays, as an array of the output's shape. -/
abbrev outArr (c : Dev nD) : S8192x2048.Idx → Elt Ideal .f32 :=
  Spec.toArr 8192 2048 (Spec.kernelOut (Spec.ofArr (A := 8192) (B := 2048) (V m c main_arg0))
    (Spec.ofArr (A := 2048) (B := 3584) (V m c main_v70)) (Spec.ofArr (A := 512) (B := 512) (V m c main_v71))
    (Spec.ofArr (A := 1024) (B := 512) (V m c main_v73)) (Spec.ofArr (A := 1536) (B := 2048) (V m c main_v75)))

/-- Row `p` of `x`'s block at point `t`, read at natural coordinates, is row `512 t + p` of `x`. -/
theorem xblock_row (c : Dev nD) (t : Fin cfg0.N) (p : Fin 512) (f : ℕ) :
    Spec.ofArr (A := 512) (B := 2048) (iblk m c 0 t) p.val f
      = Spec.ofArr (A := 8192) (B := 2048) (V m c main_arg0) (512 * t.val + p.val) f := by
  have ht : t.val < 16 := lt_of_lt_of_eq t.isLt N_0
  have hp : p.val < 512 := p.isLt
  unfold Spec.ofArr
  by_cases hf : f < 2048
  · rw [dif_pos ⟨hp, hf⟩, dif_pos ⟨(by omega : 512 * t.val + p.val < 8192), hf⟩]
    exact xblock_apply m c t _ _ rfl rfl
  · rw [dif_neg (fun h => hf h.2), dif_neg (fun h => hf h.2)]

/-- Entry `(p, q)` of what point `t` computes is entry `(512 t + p, q)` of the output array's function. -/
theorem block_entry (c : Dev nD) (t : Fin cfg0.N) (p : Fin 512) (q : Fin 2048) (k : S8192x2048.Idx)
    (hk0 : (k 0).val = 512 * t.val + p.val) (hk1 : (k 1).val = q.val) :
    blockFn (F := Ideal) (iblk m c 0 t) (iblk m c 1 t) (iblk m c 2 t) (iblk m c 3 t) (iblk m c 4 t) (ix2 p q) = outArr m c k := by
  rw [blockFn_apply, pblock_eq, q1block_eq, q2block_eq, q3block_eq]
  show _ = Spec.kernelOut _ _ _ _ _ (k 0).val (k 1).val
  rw [hk0, hk1]
  exact kernelOut_row _ _ _ _ _ _ _ _ _ (xblock_row m c t p)

/-- What point `t` writes back is block `t` of the output array's function. -/
theorem flushed_eq (c : Dev nD) (t : Fin cfg0.N) :
    (dats m 0 c).flushed 5 t = ((cfg0.win 5).blk t).view.read (Elt Ideal) (outArr m c) := by
  obtain ⟨e0, e1, -⟩ := idx_facts t
  show (cfg0.win 5).cut (grid0.coords t) ((dats m 0 c).after 5 t) = _
  rw [after0_5, out0_5_eq]
  funext y
  show blockFn (F := Ideal) (iblk m c 0 t) (iblk m c 1 t) (iblk m c 2 t) (iblk m c 3 t) (iblk m c 4 t) y
    = outArr m c (((cfg0.win 5).blk t).view.emb y)
  have hy : (y : S512x2048.Idx) = ix2 (y 0) (y 1) := eq_ix2 (n0 := 512) (n1 := 2048) y
  refine (congrArg (blockFn (F := Ideal) (iblk m c 0 t) (iblk m c 1 t) (iblk m c 2 t) (iblk m c 3 t) (iblk m c 4 t)) hy).trans ?_
  refine block_entry m c t (y 0) (y 1) _ ?_ ?_
  · show win0_5.index t (0 : Fin 2) * 512 + 1 * (y 0).val = 512 * t.val + (y 0).val
    rw [e0]; omega
  · show win0_5.index t (1 : Fin 2) * 2048 + 1 * (y 1).val = (y 1).val
    rw [e1]; omega

/-- Every row of the output lies in the block of the point `row / 512`. -/
theorem cover (i : S8192x2048.Idx) :
    ∃ t : Fin cfg0.N, (cfg0.win 5).flush t = true ∧ i ∈ ((cfg0.win 5).blk t).view.set := by
  have hi0 : (i 0).val < 8192 := (i 0).isLt
  have hi1 : (i 1).val < 2048 := (i 1).isLt
  let t : Fin cfg0.N := ⟨(i 0).val / 512, by rw [show cfg0.N = 16 from N_0]; omega⟩
  have htv : t.val = (i 0).val / 512 := rfl
  obtain ⟨e0, e1, -⟩ := idx_facts t
  refine ⟨t, flush0_5 t, ?_⟩
  show i ∈ ((View.whole main_v76).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    rw [e0, htv]; omega
  | ⟨1, _⟩ =>
    show win0_5.index t (1 : Fin 2) * 2048 ≤ (i 1).val ∧ (i 1).val < win0_5.index t (1 : Fin 2) * 2048 + 2048
    rw [e1]; omega

/-- The output array after the last write-back is the kernel's row function of the arrays the region finds. -/
theorem final (c : Dev nD) : (dats m 0 c).arrAt 5 cfg0.N = outArr m c :=
  (dats m 0 c).arrAt_eq_of_cover 5 (outArr m c) (fun t _ => flushed_eq m c t) cover

/-- Every weakly fair execution of the kernel's @main ends with its result at the kernel's row function of the
    arrays the region finds, and the argument arrays unchanged. -/
theorem kernel_value :
    θ_run (defs (F := Ideal)) (onTc (τ := τ) (main (F := Ideal))) ⟨m, fun _ => 0, ρ⟩ (fun r => ∀ c : Dev nD,
        r.2.mem ((c.tc : Thread nD τ).loc main_v76)
          = Spec.toArr 8192 2048 (Spec.kernelOut (Spec.ofArr (A := 8192) (B := 2048) (V m c main_arg0))
              (Spec.ofArr (A := 2048) (B := 3584) (V m c main_v70)) (Spec.ofArr (A := 512) (B := 512) (V m c main_v71))
              (Spec.ofArr (A := 1024) (B := 512) (V m c main_v73)) (Spec.ofArr (A := 1536) (B := 2048) (V m c main_v75)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) :=
  (θ_run defs _ _).mono (fun _ h c => ⟨((h c).1 5).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩)
    (run_main (F := Ideal) m ρ)

end Cert.KernelIdeal.Hand

end
-- ==== Proof.KI.HostTerms2.lean ====
/-
  The four weight arrays the region reads, as terms of the argument arrays: each sparse weight's values are
  scatter-added into a zero matrix at (column, row), every index wrapped around when it is negative; the first
  2048 rows of the four matrices are put side by side, the later rows of the second, third and fourth are kept
  (in 512-row pieces laid end to end), and everything is rounded to bf16.  The host operations fall into four
  stretches of twenty, one per weight, each reading only its own three argument arrays, and a tail of sixteen that
  slices and joins the four results; each stretch is read on its own, the buffers it does not write carried over.
-/
import proofs.«409427_j11175504904589_3_alg».proof.Proof.KI.Kit
import Idealize.ShloMosaic.PureOps.Ideal

set_option maxRecDepth 16384

noncomputable section

namespace Cert.KernelIdeal.Hand

open Idealize.ShloMosaic Idealize.SL.Sem
open Cert.KernelIdeal Cert.KernelIdeal.Gen

variable (m : (ℓ : Loc nD τ sig) → Buf (Elt Ideal) ℓ)

/-- A three-operand operation's result with each operand's contents at its own reference. -/
theorem nary3_result {τ' : Topo} {sig' : RefSig} {Val : EltTy → Type} {x a b y : Ref sig' .tc}
    (f : ((k : Fin 3) → ((![x, a, b] : Fin 3 → Ref sig' .tc) k).ty.Contents Val) → y.ty.Contents Val) (hxs hy)
    (F : Valuation τ' sig' Val) :
    (StableHlo.nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- Rewrites every operation's result at its own buffer to its function's value and at any other buffer to what was
    there, a three-operand operation's included. -/
macro "host_results" : tactic =>
  `(tactic| (simp only [StableHlo.after_cons, StableHlo.after_nil]
             repeat (first
               | rw [StableHlo.nullary_result] | rw [StableHlo.unary_result] | rw [StableHlo.binary_result] | rw [StableHlo.ternary_result]
               | rw [StableHlo.nary4_result] | rw [nary3_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.nary_result_ne]; rotate_left; decide))))

/-- The dense transpose of sparse weight 0 as the host operations compute it: the scatter-add of its values into a zero
    matrix at (column, row), each index wrapped when negative. -/
def D0 (c : Dev nD) : FVec Ideal S2048x512 .f32 :=
  Host.scatterAdd scatter_S2048x512_S8192x2_S8192_n_01_01_1
  (broadcastInDim S2048x512 ![] bcast_S_S2048x512 (constant (F := Ideal) S_ .f32 0x00000000#32))
  (concatenate S8192x2 1
    [⟨S8192x1, broadcastInDim S8192x1 ![0] bcast_S8192_S8192x1_0 (select (cmpi .slt ((m ((c.tc : Thread nD τ).loc main_arg2)) : IVec S8192 32) (broadcastInDim S8192 ![] bcast_S_S8192 (constantI S_ 32 0#32))) (addi ((m ((c.tc : Thread nD τ).loc main_arg2)) : IVec S8192 32) (broadcastInDim S8192 ![] bcast_S_S8192 (constantI S_ 32 2048#32))) ((m ((c.tc : Thread nD τ).loc main_arg2)) : IVec S8192 32))⟩,
     ⟨S8192x1, broadcastInDim S8192x1 ![0] bcast_S8192_S8192x1_0 (select (cmpi .slt ((m ((c.tc : Thread nD τ).loc main_arg1)) : IVec S8192 32) (broadcastInDim S8192 ![] bcast_S_S8192 (constantI S_ 32 0#32))) (addi ((m ((c.tc : Thread nD τ).loc main_arg1)) : IVec S8192 32) (broadcastInDim S8192 ![] bcast_S_S8192 (constantI S_ 32 512#32))) ((m ((c.tc : Thread nD τ).loc main_arg1)) : IVec S8192 32))⟩]
    concatenates_S8192x1_S8192x1_S8192x2_d1 : IVec S8192x2 32)
  ((m ((c.tc : Thread nD τ).loc main_arg3)) : FVec Ideal S8192 .f32)

/-- The dense transpose of sparse weight 1 as the host operations compute it: the scatter-add of its values into a zero
    matrix at (column, row), each index wrapped when negative. -/
def D1 (c : Dev nD) : FVec Ideal S2560x512 .f32 :=
  Host.scatterAdd scatter_S2560x512_S8192x2_S8192_n_01_01_1
  (broadcastInDim S2560x512 ![] bcast_S_S2560x512 (constant (F := Ideal) S_ .f32 0x00000000#32))
  (concatenate S8192x2 1
    [⟨S8192x1, broadcastInDim S8192x1 ![0] bcast_S8192_S8192x1_0 (select (cmpi .slt ((m ((c.tc : Thread nD τ).loc main_arg5)) : IVec S8192 32) (broadcastInDim S8192 ![] bcast_S_S8192 (constantI S_ 32 0#32))) (addi ((m ((c.tc : Thread nD τ).loc main_arg5)) : IVec S8192 32) (broadcastInDim S8192 ![] bcast_S_S8192 (constantI S_ 32 2560#32))) ((m ((c.tc : Thread nD τ).loc main_arg5)) : IVec S8192 32))⟩,
     ⟨S8192x1, broadcastInDim S8192x1 ![0] bcast_S8192_S8192x1_0 (select (cmpi .slt ((m ((c.tc : Thread nD τ).loc main_arg4)) : IVec S8192 32) (broadcastInDim S8192 ![] bcast_S_S8192 (constantI S_ 32 0#32))) (addi ((m ((c.tc : Thread nD τ).loc main_arg4)) : IVec S8192 32) (broadcastInDim S8192 ![] bcast_S_S8192 (constantI S_ 32 512#32))) ((m ((c.tc : Thread nD τ).loc main_arg4)) : IVec S8192 32))⟩]
    concatenates_S8192x1_S8192x1_S8192x2_d1 : IVec S8192x2 32)
  ((m ((c.tc : Thread nD τ).loc main_arg6)) : FVec Ideal S8192 .f32)

/-- The dense transpose of sparse weight 2 as the host operations compute it: the scatter-add of its values into a zero
    matrix at (column, row), each index wrapped when negative. -/
def D2 (c : Dev nD) : FVec Ideal S3072x512 .f32 :=
  Host.scatterAdd scatter_S3072x512_S8192x2_S8192_n_01_01_1
  (broadcastInDim S3072x512 ![] bcast_S_S3072x512 (constant (F := Ideal) S_ .f32 0x00000000#32))
  (concatenate S8192x2 1
    [⟨S8192x1, broadcastInDim S8192x1 ![0] bcast_S8192_S8192x1_0 (select (cmpi .slt ((m ((c.tc : Thread nD τ).loc main_arg8)) : IVec S8192 32) (broadcastInDim S8192 ![] bcast_S_S8192 (constantI S_ 32 0#32))) (addi ((m ((c.tc : Thread nD τ).loc main_arg8)) : IVec S8192 32) (broadcastInDim S8192 ![] bcast_S_S8192 (constantI S_ 32 3072#32))) ((m ((c.tc : Thread nD τ).loc main_arg8)) : IVec S8192 32))⟩,
     ⟨S8192x1, broadcastInDim S8192x1 ![0] bcast_S8192_S8192x1_0 (select (cmpi .slt ((m ((c.tc : Thread nD τ).loc main_arg7)) : IVec S8192 32) (broadcastInDim S8192 ![] bcast_S_S8192 (constantI S_ 32 0#32))) (addi ((m ((c.tc : Thread nD τ).loc main_arg7)) : IVec S8192 32) (broadcastInDim S8192 ![] bcast_S_S8192 (constantI S_ 32 512#32))) ((m ((c.tc : Thread nD τ).loc main_arg7)) : IVec S8192 32))⟩]
    concatenates_S8192x1_S8192x1_S8192x2_d1 : IVec S8192x2 32)
  ((m ((c.tc : Thread nD τ).loc main_arg9)) : FVec Ideal S8192 .f32)

/-- The dense transpose of sparse weight 3 as the host operations compute it: the scatter-add of its values into a zero
    matrix at (column, row), each index wrapped when negative. -/
def D3 (c : Dev nD) : FVec Ideal S3584x2048 .f32 :=
  Host.scatterAdd scatter_S3584x2048_S16384x2_S16384_n_01_01_1
  (broadcastInDim S3584x2048 ![] bcast_S_S3584x2048 (constant (F := Ideal) S_ .f32 0x00000000#32))
  (concatenate S16384x2 1
    [⟨S16384x1, broadcastInDim S16384x1 ![0] bcast_S16384_S16384x1_0 (select (cmpi .slt ((m ((c.tc : Thread nD τ).loc main_arg11)) : IVec S16384 32) (broadcastInDim S16384 ![] bcast_S_S16384 (constantI S_ 32 0#32))) (addi ((m ((c.tc : Thread nD τ).loc main_arg11)) : IVec S16384 32) (broadcastInDim S16384 ![] bcast_S_S16384 (constantI S_ 32 3584#32))) ((m ((c.tc : Thread nD τ).loc main_arg11)) : IVec S16384 32))⟩,
     ⟨S16384x1, broadcastInDim S16384x1 ![0] bcast_S16384_S16384x1_0 (select (cmpi .slt ((m ((c.tc : Thread nD τ).loc main_arg10)) : IVec S16384 32) (broadcastInDim S16384 ![] bcast_S_S16384 (constantI S_ 32 0#32))) (addi ((m ((c.tc : Thread nD τ).loc main_arg10)) : IVec S16384 32) (broadcastInDim S16384 ![] bcast_S_S16384 (constantI S_ 32 2048#32))) ((m ((c.tc : Thread nD τ).loc main_arg10)) : IVec S16384 32))⟩]
    concatenates_S16384x1_S16384x1_S16384x2_d1 : IVec S16384x2 32)
  ((m ((c.tc : Thread nD τ).loc main_arg12)) : FVec Ideal S16384 .f32)

/-! ## Cutting the line of host operations -/

/-- What a line of operations leaves is what its part from position `n` on leaves after its first `n` operations. -/
theorem after_split {τ' : Topo} {sig' : RefSig} {Val : EltTy → Type} (n : ℕ) (ops : List (HloOp τ' sig' Val))
    (V0 : Valuation τ' sig' Val) :
    StableHlo.after ops V0 = StableHlo.after (ops.drop n) (StableHlo.after (ops.take n) V0) := by
  rw [← StableHlo.after_append, List.take_append_drop]

/-- No operation of a stretch of the host operations writes a given buffer: read off the stretch operation by operation. -/
macro "not_written" : tactic =>
  `(tactic| (refine List.forall_iff_forall_mem.mp ?_
             simp only [hostOps0, List.drop_succ_cons, List.drop_zero, List.take_succ_cons, List.take_zero, List.Forall,
               StableHlo.nullary_writes, StableHlo.unary_writes, StableHlo.binary_writes, StableHlo.ternary_writes,
               StableHlo.nary_writes, Finset.mem_singleton]
             repeat' apply And.intro
             all_goals exact StableHlo.devRef_ne_of_ne (by decide)))

set_option maxHeartbeats 4000000 in
/-- The first weight's dense transpose as the host operations leave it. -/
theorem V_v14 (c : Dev nD) : (V m c main_v14 : FVec Ideal S2048x512 .f32) = D0 m c := by
  dsimp only [V]
  rw [after_split 20,
    StableHlo.after_of_forall_not_mem (b := Proc.devRef .tc main_v14) (List.drop 20 hostOps0) _ (by not_written)]
  simp only [hostOps0, List.take_succ_cons, List.take_zero]
  after_results
  rfl

set_option maxHeartbeats 4000000 in
/-- The second weight's dense transpose as the host operations leave it. -/
theorem V_v29 (c : Dev nD) : (V m c main_v29 : FVec Ideal S2560x512 .f32) = D1 m c := by
  dsimp only [V]
  rw [after_split 20, after_split 20 (List.drop 20 _),
    StableHlo.after_of_forall_not_mem (b := Proc.devRef .tc main_v29) (List.drop 20 (List.drop 20 hostOps0)) _ (by not_written)]
  have a4 : StableHlo.after (List.take 20 hostOps0) (fun b => m (c, b)) (Proc.devRef .tc main_arg4) = m (c, Proc.devRef .tc main_arg4) :=
    StableHlo.after_of_forall_not_mem _ _ (by not_written)
  have a5 : StableHlo.after (List.take 20 hostOps0) (fun b => m (c, b)) (Proc.devRef .tc main_arg5) = m (c, Proc.devRef .tc main_arg5) :=
    StableHlo.after_of_forall_not_mem _ _ (by not_written)
  have a6 : StableHlo.after (List.take 20 hostOps0) (fun b => m (c, b)) (Proc.devRef .tc main_arg6) = m (c, Proc.devRef .tc main_arg6) :=
    StableHlo.after_of_forall_not_mem _ _ (by not_written)
  generalize StableHlo.after (List.take 20 hostOps0) (fun b => m (c, b)) = W at a4 a5 a6 ⊢
  simp only [hostOps0, List.drop_succ_cons, List.drop_zero, List.take_succ_cons, List.take_zero]
  after_results
  rw [a4, a5, a6]
  rfl

set_option maxHeartbeats 4000000 in
/-- The third weight's dense transpose as the host operations leave it. -/
theorem V_v44 (c : Dev nD) : (V m c main_v44 : FVec Ideal S3072x512 .f32) = D2 m c := by
  dsimp only [V]
  rw [after_split 40, after_split 20 (List.drop 40 _),
    StableHlo.after_of_forall_not_mem (b := Proc.devRef .tc main_v44) (List.drop 20 (List.drop 40 hostOps0)) _ (by not_written)]
  have a7 : StableHlo.after (List.take 40 hostOps0) (fun b => m (c, b)) (Proc.devRef .tc main_arg7) = m (c, Proc.devRef .tc main_arg7) :=
    StableHlo.after_of_forall_not_mem _ _ (by not_written)
  have a8 : StableHlo.after (List.take 40 hostOps0) (fun b => m (c, b)) (Proc.devRef .tc main_arg8) = m (c, Proc.devRef .tc main_arg8) :=
    StableHlo.after_of_forall_not_mem _ _ (by not_written)
  have a9 : StableHlo.after (List.take 40 hostOps0) (fun b => m (c, b)) (Proc.devRef .tc main_arg9) = m (c, Proc.devRef .tc main_arg9) :=
    StableHlo.after_of_forall_not_mem _ _ (by not_written)
  generalize StableHlo.after (List.take 40 hostOps0) (fun b => m (c, b)) = W at a7 a8 a9 ⊢
  simp only [hostOps0, List.drop_succ_cons, List.drop_zero, List.take_succ_cons, List.take_zero]
  after_results
  rw [a7, a8, a9]
  rfl

set_option maxHeartbeats 4000000 in
/-- The last weight's dense transpose as the host operations leave it. -/
theorem V_v59 (c : Dev nD) : (V m c main_v59 : FVec Ideal S3584x2048 .f32) = D3 m c := by
  dsimp only [V]
  rw [after_split 60, after_split 20 (List.drop 60 _),
    StableHlo.after_of_forall_not_mem (b := Proc.devRef .tc main_v59) (List.drop 20 (List.drop 60 hostOps0)) _ (by not_written)]
  have a10 : StableHlo.after (List.take 60 hostOps0) (fun b => m (c, b)) (Proc.devRef .tc main_arg10) = m (c, Proc.devRef .tc main_arg10) :=
    StableHlo.after_of_forall_not_mem _ _ (by not_written)
  have a11 : StableHlo.after (List.take 60 hostOps0) (fun b => m (c, b)) (Proc.devRef .tc main_arg11) = m (c, Proc.devRef .tc main_arg11) :=
    StableHlo.after_of_forall_not_mem _ _ (by not_written)
  have a12 : StableHlo.after (List.take 60 hostOps0) (fun b => m (c, b)) (Proc.devRef .tc main_arg12) = m (c, Proc.devRef .tc main_arg12) :=
    StableHlo.after_of_forall_not_mem _ _ (by not_written)
  generalize StableHlo.after (List.take 60 hostOps0) (fun b => m (c, b)) = W at a10 a11 a12 ⊢
  simp only [hostOps0, List.drop_succ_cons, List.drop_zero, List.take_succ_cons, List.take_zero]
  after_results
  rw [a10, a11, a12]
  rfl

/-- The same before the slices and concatenations. -/
theorem T14 (c : Dev nD) :
    StableHlo.after (List.take 80 hostOps0) (fun b => m (c, b)) (Proc.devRef .tc main_v14) = D0 m c := by
  have h := V_v14 m c
  dsimp only [V] at h
  rw [after_split 80,
    StableHlo.after_of_forall_not_mem (b := Proc.devRef .tc main_v14) (List.drop 80 hostOps0) _ (by not_written)] at h
  exact h

/-- The same before the slices and concatenations. -/
theorem T29 (c : Dev nD) :
    StableHlo.after (List.take 80 hostOps0) (fun b => m (c, b)) (Proc.devRef .tc main_v29) = D1 m c := by
  have h := V_v29 m c
  dsimp only [V] at h
  rw [after_split 80,
    StableHlo.after_of_forall_not_mem (b := Proc.devRef .tc main_v29) (List.drop 80 hostOps0) _ (by not_written)] at h
  exact h

/-- The same before the slices and concatenations. -/
theorem T44 (c : Dev nD) :
    StableHlo.after (List.take 80 hostOps0) (fun b => m (c, b)) (Proc.devRef .tc main_v44) = D2 m c := by
  have h := V_v44 m c
  dsimp only [V] at h
  rw [after_split 80,
    StableHlo.after_of_forall_not_mem (b := Proc.devRef .tc main_v44) (List.drop 80 hostOps0) _ (by not_written)] at h
  exact h

/-- The same before the slices and concatenations. -/
theorem T59 (c : Dev nD) :
    StableHlo.after (List.take 80 hostOps0) (fun b => m (c, b)) (Proc.devRef .tc main_v59) = D3 m c := by
  have h := V_v59 m c
  dsimp only [V] at h
  rw [after_split 80,
    StableHlo.after_of_forall_not_mem (b := Proc.devRef .tc main_v59) (List.drop 80 hostOps0) _ (by not_written)] at h
  exact h

set_option maxHeartbeats 4000000 in
/-- The second weight's rows from 2048 on, as the region finds them. -/
theorem V_v71 (c : Dev nD) : (V m c main_v71 : FVec Ideal S512x512 .bf16) = truncf .bf16 (extractStridedSlice S512x512 ![2048, 0] (D1 m c) slices_S2560x512_S512x512_2048_0) bitsLt_bf16_f32 := by
  have h29 := T29 m c
  dsimp only [V]
  rw [after_split 80]
  generalize StableHlo.after (List.take 80 hostOps0) (fun b => m (c, b)) = W at h29 ⊢
  simp only [hostOps0, List.drop_succ_cons, List.drop_zero]
  host_results
  rw [h29]
  all_goals rfl

set_option maxHeartbeats 4000000 in
/-- The third weight's rows from 2048 on, as the region finds them. -/
theorem V_v73 (c : Dev nD) : (V m c main_v73 : FVec Ideal S1024x512 .bf16) = truncf .bf16 (concatenate S1024x512 0 [⟨S512x512, (extractStridedSlice S512x512 ![2048, 0] (D2 m c) slices_S3072x512_S512x512_2048_0)⟩, ⟨S512x512, (extractStridedSlice S512x512 ![2560, 0] (D2 m c) slices_S3072x512_S512x512_2560_0)⟩] concatenates_S512x512_S512x512_S1024x512_d0) bitsLt_bf16_f32 := by
  have h44 := T44 m c
  dsimp only [V]
  rw [after_split 80]
  generalize StableHlo.after (List.take 80 hostOps0) (fun b => m (c, b)) = W at h44 ⊢
  simp only [hostOps0, List.drop_succ_cons, List.drop_zero]
  host_results
  rw [h44]
  all_goals rfl

set_option maxHeartbeats 4000000 in
/-- The last weight's rows from 2048 on, as the region finds them. -/
theorem V_v75 (c : Dev nD) : (V m c main_v75 : FVec Ideal S1536x2048 .bf16) = truncf .bf16 (concatenate S1536x2048 0 [⟨S512x2048, (extractStridedSlice S512x2048 ![2048, 0] (D3 m c) slices_S3584x2048_S512x2048_2048_0)⟩, ⟨S512x2048, (extractStridedSlice S512x2048 ![2560, 0] (D3 m c) slices_S3584x2048_S512x2048_2560_0)⟩, ⟨S512x2048, (extractStridedSlice S512x2048 ![3072, 0] (D3 m c) slices_S3584x2048_S512x2048_3072_0)⟩] concatenates_S512x2048_S512x2048_S512x2048_S1536x2048_d0) bitsLt_bf16_f32 := by
  have h59 := T59 m c
  dsimp only [V]
  rw [after_split 80]
  generalize StableHlo.after (List.take 80 hostOps0) (fun b => m (c, b)) = W at h59 ⊢
  simp only [hostOps0, List.drop_succ_cons, List.drop_zero]
  host_results
  rw [h59]
  all_goals rfl

set_option maxHeartbeats 4000000 in
/-- The prefix weights as the region finds them: the first 2048 rows of the four dense transposes side by side. -/
theorem V_v70 (c : Dev nD) : (V m c main_v70 : FVec Ideal S2048x3584 .bf16) = truncf .bf16 (concatenate S2048x3584 1 [⟨S2048x512, D0 m c⟩, ⟨S2048x512, (extractStridedSlice S2048x512 ![0, 0] (D1 m c) slices_S2560x512_S2048x512_0_0)⟩, ⟨S2048x512, (extractStridedSlice S2048x512 ![0, 0] (D2 m c) slices_S3072x512_S2048x512_0_0)⟩, ⟨S2048x2048, (extractStridedSlice S2048x2048 ![0, 0] (D3 m c) slices_S3584x2048_S2048x2048_0_0)⟩] concatenates_S2048x512_S2048x512_S2048x512_S2048x2048_S2048x3584_d1) bitsLt_bf16_f32 := by
  have h14 := T14 m c
  have h29 := T29 m c
  have h44 := T44 m c
  have h59 := T59 m c
  dsimp only [V]
  rw [after_split 80]
  generalize StableHlo.after (List.take 80 hostOps0) (fun b => m (c, b)) = W at h14 h29 h44 h59 ⊢
  simp only [hostOps0, List.drop_succ_cons, List.drop_zero]
  host_results
  rw [h14, h29, h44, h59]
  all_goals rfl

end Cert.KernelIdeal.Hand

end
-- ==== Proof.KI.ScatterDense.lean ====
/-
  A sparse weight scattered into a zero matrix is its dense transpose.  Each triple (row, column, value) adds its
  value at entry (column, row); a triple whose column or row, read signed, lies outside the matrix adds nothing.
  So entry (f, r) of the result is the sum of the values of the triples at column f and row r.
-/
import proofs.«409427_j11175504904589_3_alg».proof.Proof.Spec
import Idealize.ShloMosaic.PureOps.Ideal
import Idealize.ShloMosaic.Lib.ValueIdx
import Idealize.ShloMosaic.Lib.ValueIdxRank1

noncomputable section

namespace Cert.KernelIdeal.Hand

open Idealize.ShloMosaic Idealize.ShloMosaic.ValueIdx
open scoped BigOperators

/-- The scatter's dimension numbers: no window axis, both operand axes inserted, index component `c` to operand axis `c`. -/
abbrev cooDims {C R K : ℕ} (wf : ScatterDims.WF ⟨2, ![C, R]⟩ ⟨2, ![K, 2]⟩ ⟨1, ![K]⟩ [] [0, 1] [0, 1] 1) :
    ScatterDims ⟨2, ![C, R]⟩ ⟨2, ![K, 2]⟩ ⟨1, ![K]⟩ := ⟨[], [0, 1], [0, 1], 1, wf⟩

section
variable {C R K : ℕ} (wf : ScatterDims.WF ⟨2, ![C, R]⟩ ⟨2, ![K, 2]⟩ ⟨1, ![K]⟩ [] [0, 1] [0, 1] 1)

theorem coo_sKept : (cooDims wf).sKept = [] := rfl

theorem coo_window (j : (⟨1, ![K]⟩ : Shape).Idx) (a : Fin 2) : (cooDims wf).window j a = 0 := by
  unfold ScatterDims.window
  rw [dif_neg]
  rw [coo_sKept]
  exact List.not_mem_nil

theorem coo_start0 (j : (⟨1, ![K]⟩ : Shape).Idx) (idx : IVec ⟨2, ![K, 2]⟩ 32) :
    (cooDims wf).start j idx 0 = (idx (ix2 (j 0) 0)).toInt := by
  unfold ScatterDims.start
  rw [dif_pos (show (0 : Fin 2) ∈ [(0 : Fin 2), 1] from List.mem_cons_self)]
  congr 2
  funext b; refine Fin.ext ?_
  match b with
  | ⟨0, _⟩ => rfl
  | ⟨1, _⟩ => rfl

theorem coo_start1 (j : (⟨1, ![K]⟩ : Shape).Idx) (idx : IVec ⟨2, ![K, 2]⟩ 32) :
    (cooDims wf).start j idx 1 = (idx (ix2 (j 0) 1)).toInt := by
  unfold ScatterDims.start
  rw [dif_pos (show (1 : Fin 2) ∈ [(0 : Fin 2), 1] from List.mem_cons_of_mem _ List.mem_cons_self)]
  congr 2
  funext b; refine Fin.ext ?_
  match b with
  | ⟨0, _⟩ => rfl
  | ⟨1, _⟩ => rfl
/-- Triple `j` lands on entry `i` exactly when its column word, read signed, is `i`'s first coordinate and its row
    word `i`'s second: there is no window, and a start outside the matrix is dropped. -/
theorem coo_resultIdx_iff (idx : IVec ⟨2, ![K, 2]⟩ 32) (j : (⟨1, ![K]⟩ : Shape).Idx) (i : (⟨2, ![C, R]⟩ : Shape).Idx) :
    (cooDims wf).resultIdx? j idx = some i ↔
      (idx (ix2 (j 0) 0)).toInt = ((i 0).val : ℤ) ∧ (idx (ix2 (j 0) 1)).toInt = ((i 1).val : ℤ) := by
  have hs0 := coo_start0 wf j idx
  have hs1 := coo_start1 wf j idx
  have hw0 := coo_window wf j 0
  have hw1 := coo_window wf j 1
  have hi0 : (i 0).val < C := idx2_lt0 i
  have hi1 : (i 1).val < R := idx2_lt1 i
  unfold ScatterDims.resultIdx?
  constructor
  · intro h
    split at h
    · rename_i hall
      have hi := Option.some.inj h
      have e0 : ((cooDims wf).start j idx 0 + ((cooDims wf).window j 0 : ℕ)).toNat = (i 0).val :=
        congrArg (fun g => (g 0).val) hi
      have e1 : ((cooDims wf).start j idx 1 + ((cooDims wf).window j 1 : ℕ)).toNat = (i 1).val :=
        congrArg (fun g => (g 1).val) hi
      have g0 := (hall 0).1
      have g1 := (hall 1).1
      rw [hs0, hw0] at e0 g0
      rw [hs1, hw1] at e1 g1
      constructor <;> omega
    · cases h
  · rintro ⟨e0, e1⟩
    split
    · rename_i hall
      refine congrArg some (funext fun a => Fin.ext ?_)
      match a with
      | ⟨0, _⟩ =>
        show ((cooDims wf).start j idx 0 + ((cooDims wf).window j 0 : ℕ)).toNat = (i 0).val
        rw [hs0, hw0, e0]; omega
      | ⟨1, _⟩ =>
        show ((cooDims wf).start j idx 1 + ((cooDims wf).window j 1 : ℕ)).toNat = (i 1).val
        rw [hs1, hw1, e1]; omega
    · rename_i hn
      refine absurd (fun a => ?_) hn
      match a with
      | ⟨0, _⟩ =>
        show 0 ≤ (cooDims wf).start j idx 0 + ((cooDims wf).window j 0 : ℕ)
          ∧ (cooDims wf).start j idx 0 + ((cooDims wf).window j 0 : ℕ) < ((C : ℕ) : ℤ)
        rw [hs0, hw0, e0]; omega
      | ⟨1, _⟩ =>
        show 0 ≤ (cooDims wf).start j idx 1 + ((cooDims wf).window j 1 : ℕ)
          ∧ (cooDims wf).start j idx 1 + ((cooDims wf).window j 1 : ℕ) < ((R : ℕ) : ℤ)
        rw [hs1, hw1, e1]; omega
end

/-- Scattering the triples' values, added, into a zero matrix at (column, row) gives the dense transpose: entry
    `(f, r)` is the sum of the values of the triples whose column is `f` and whose row is `r`. -/
theorem scatter_dense {C R K : ℕ} (wf : ScatterDims.WF ⟨2, ![C, R]⟩ ⟨2, ![K, 2]⟩ ⟨1, ![K]⟩ [] [0, 1] [0, 1] 1)
    (x : (⟨2, ![C, R]⟩ : Shape).Idx → EReal) (hx : ∀ i, x i = 0) (idx : IVec ⟨2, ![K, 2]⟩ 32)
    (rows cols : IVec ⟨1, ![K]⟩ 32) (vals : (⟨1, ![K]⟩ : Shape).Idx → EReal)
    (h0 : ∀ k : Fin K, idx (ix2 k 0) = cols (ix1 k)) (h1 : ∀ k : Fin K, idx (ix2 k 1) = rows (ix1 k))
    (f : Fin C) (r : Fin R) :
    Ideal.hostScatterAdd (⟨[], [0, 1], [0, 1], 1, wf⟩ : ScatterDims ⟨2, ![C, R]⟩ ⟨2, ![K, 2]⟩ ⟨1, ![K]⟩) x idx vals (ix2 f r)
      = (Spec.Coo.of rows cols vals).dense f.val r.val := by
  unfold Ideal.hostScatterAdd
  rw [hx, zero_add, Finset.sum_filter, ← Equiv.sum_comp (idxEquiv1 (n := K)).symm]
  show _ = ∑ k ∈ Finset.range K,
    if Spec.ofInts cols k = (f.val : ℤ) ∧ Spec.ofInts rows k = (r.val : ℤ) then Spec.ofVals vals k else 0
  rw [← Fin.sum_univ_eq_sum_range
    (fun k => if Spec.ofInts cols k = (f.val : ℤ) ∧ Spec.ofInts rows k = (r.val : ℤ) then Spec.ofVals vals k else 0) K]
  refine Finset.sum_congr rfl fun k _ => ?_
  have hc : Spec.ofInts cols k.val = (cols (ix1 k)).toInt := by unfold Spec.ofInts; rw [dif_pos k.isLt]
  have hr : Spec.ofInts rows k.val = (rows (ix1 k)).toInt := by unfold Spec.ofInts; rw [dif_pos k.isLt]
  have hv : Spec.ofVals vals k.val = vals (ix1 k) := by unfold Spec.ofVals; rw [dif_pos k.isLt]
  rw [hc, hr, hv]
  refine if_congr ?_ rfl rfl
  refine (coo_resultIdx_iff wf idx (ix1 k) (ix2 f r)).trans ?_
  show (idx (ix2 k 0)).toInt = (f.val : ℤ) ∧ (idx (ix2 k 1)).toInt = (r.val : ℤ) ↔ _
  rw [h0 k, h1 k]

end Cert.KernelIdeal.Hand

end
-- ==== Proof.LibIdealFinite.lean ====
/-
  Finiteness of host computations over the extended reals.

  At the ideal reading of floats every value is an extended real, an element of [-∞, +∞]. This module
  is about arrays whose every entry is an honest REAL number (neither infinity), and about the two
  sharper properties "every entry is a real number ≥ 0" and "every entry is a real number > 0". It
  proves that the elementary array operations preserve these properties:

  • sums, differences, products and negations of real entries are real; the exponential of a real is a
    positive real; a lane-by-lane choice between two arrays of reals is an array of reals;
  • an operation that only RE-INDEXES its operand (a broadcast along new axes, a permutation of the
    axes, a gather of slices at integer positions) has each output entry equal to some input entry, so
    it preserves all three properties;
  • a contraction (a matrix product: a finite sum of products) and a sum along axes added to an initial
    value are finite sums of reals, hence real — the coercion ℝ → [-∞, +∞] commutes with finite sums;
    such a sum of entries ≥ 0 is ≥ 0;
  • a quotient whose divisor is a positive real is the real quotient; the square root of a real > 0
    (≥ 0) is a real > 0 (≥ 0); a square is ≥ 0; a sum of a real ≥ 0 and a real > 0 is > 0;
  • the binary32 bit patterns listed at the end denote the real numbers stated there (and the pattern
    0x7F800000 denotes +∞), so a constant array of one of them has the corresponding property;
  • an integer converted to a float, signed or unsigned, is that integer as a real number.
-/
import Idealize.ShloMosaic.PureOps.Ideal
import Idealize.ShloMosaic.PureOps.Ideal.Laws
import Mathlib.Data.EReal.Operations
import Mathlib.Data.EReal.Inv
import Mathlib.Analysis.SpecialFunctions.Exp
import Mathlib.Analysis.SpecialFunctions.Sqrt
import Mathlib.Algebra.BigOperators.Group.Finset.Basic

noncomputable section

namespace IdealFinite

open Idealize.ShloMosaic
open scoped BigOperators

/-! ### The three properties -/

/-- An extended real that is a real number. -/
def IsFin (x : EReal) : Prop := ∃ r : ℝ, x = (r : EReal)

/-- Every entry of the array is a real number. -/
def AllFin {S : Shape} (v : S.Idx → EReal) : Prop := ∀ i, IsFin (v i)

/-- Every entry of the array is a real number that is not negative. -/
def AllNonneg {S : Shape} (v : S.Idx → EReal) : Prop := ∀ i, ∃ r : ℝ, 0 ≤ r ∧ v i = (r : EReal)

/-- Every entry of the array is a positive real number. -/
def AllPos {S : Shape} (v : S.Idx → EReal) : Prop := ∀ i, ∃ r : ℝ, 0 < r ∧ v i = (r : EReal)

theorem AllPos.allNonneg {S : Shape} {v : S.Idx → EReal} (h : AllPos v) : AllNonneg v := fun i => by
  obtain ⟨r, hr, e⟩ := h i
  exact ⟨r, hr.le, e⟩

theorem AllNonneg.allFin {S : Shape} {v : S.Idx → EReal} (h : AllNonneg v) : AllFin v := fun i => by
  obtain ⟨r, _, e⟩ := h i
  exact ⟨r, e⟩

theorem AllPos.allFin {S : Shape} {v : S.Idx → EReal} (h : AllPos v) : AllFin v := h.allNonneg.allFin

/-! ### Finite sums of reals -/

/-- The coercion of the reals into the extended reals commutes with finite sums. -/
theorem coe_finset_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is a real number. -/
theorem isFin_sum {ι : Type} (s : Finset ι) (f : ι → EReal) (h : ∀ i ∈ s, IsFin (f i)) :
    IsFin (∑ i ∈ s, f i) := by
  classical
  induction s using Finset.induction_on with
  | empty => exact ⟨0, by simp⟩
  | insert a s ha ih =>
    obtain ⟨r, hr⟩ := h a (Finset.mem_insert_self a s)
    obtain ⟨t, ht⟩ := ih fun i hi => h i (Finset.mem_insert_of_mem hi)
    exact ⟨r + t, by rw [Finset.sum_insert ha, hr, ht, EReal.coe_add]⟩

/-- A finite sum of real numbers that are not negative is a real number that is not negative. -/
theorem nonneg_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl _, by simp⟩
  | insert a s ha ih =>
    obtain ⟨r, hr0, hr⟩ := h a (Finset.mem_insert_self a s)
    obtain ⟨t, ht0, ht⟩ := ih fun i hi => h i (Finset.mem_insert_of_mem hi)
    exact ⟨r + t, add_nonneg hr0 ht0, by rw [Finset.sum_insert ha, hr, ht, EReal.coe_add]⟩

/-! ### Pointwise operations -/

theorem AllFin.addf {S : Shape} {φ : FTy} {x y : FVec Ideal S φ} (hx : AllFin x) (hy : AllFin y) :
    AllFin (Idealize.ShloMosaic.addf (F := Ideal) x y) := fun i => by
  obtain ⟨a, ha⟩ := hx i
  obtain ⟨b, hb⟩ := hy i
  exact ⟨a + b, by show x i + y i = _; rw [ha, hb, EReal.coe_add]⟩

theorem AllFin.subf {S : Shape} {φ : FTy} {x y : FVec Ideal S φ} (hx : AllFin x) (hy : AllFin y) :
    AllFin (Idealize.ShloMosaic.subf (F := Ideal) x y) := fun i => by
  obtain ⟨a, ha⟩ := hx i
  obtain ⟨b, hb⟩ := hy i
  exact ⟨a - b, by show x i - y i = _; rw [ha, hb, EReal.coe_sub]⟩

theorem AllFin.mulf {S : Shape} {φ : FTy} {x y : FVec Ideal S φ} (hx : AllFin x) (hy : AllFin y) :
    AllFin (Idealize.ShloMosaic.mulf (F := Ideal) x y) := fun i => by
  obtain ⟨a, ha⟩ := hx i
  obtain ⟨b, hb⟩ := hy i
  exact ⟨a * b, by show x i * y i = _; rw [ha, hb, EReal.coe_mul]⟩

theorem AllFin.negf {S : Shape} {φ : FTy} {x : FVec Ideal S φ} (hx : AllFin x) :
    AllFin (Idealize.ShloMosaic.Host.negf (F := Ideal) x) := fun i => by
  obtain ⟨a, ha⟩ := hx i
  exact ⟨-a, by show -(x i) = _; rw [ha, EReal.coe_neg]⟩

/-- The exponential of a real number is a positive real number. -/
theorem AllPos.exp {S : Shape} {φ : FTy} {x : FVec Ideal S φ} (hx : AllFin x) :
    AllPos (Idealize.ShloMosaic.Host.exp (F := Ideal) x) := fun i => by
  obtain ⟨a, ha⟩ := hx i
  exact ⟨Real.exp a, Real.exp_pos a, by show Ideal.exp (x i) = _; rw [ha, Ideal.exp_coe]⟩

theorem AllFin.exp {S : Shape} {φ : FTy} {x : FVec Ideal S φ} (hx : AllFin x) :
    AllFin (Idealize.ShloMosaic.Host.exp (F := Ideal) x) := (AllPos.exp hx).allFin

/-- A lane-by-lane choice between two arrays of reals, whatever the mask. -/
theorem AllFin.select {S : Shape} {p : IVec S 1} {a b : S.Idx → EReal} (ha : AllFin a) (hb : AllFin b) :
    AllFin (Idealize.ShloMosaic.select p a b) := fun i => by
  show IsFin (Scalar.select (p i) (a i) (b i))
  unfold Scalar.select
  split
  · exact ha i
  · exact hb i

theorem AllNonneg.select {S : Shape} {p : IVec S 1} {a b : S.Idx → EReal} (ha : AllNonneg a) (hb : AllNonneg b) :
    AllNonneg (Idealize.ShloMosaic.select p a b) := fun i => by
  show ∃ r : ℝ, 0 ≤ r ∧ Scalar.select (p i) (a i) (b i) = (r : EReal)
  unfold Scalar.select
  split
  · exact ha i
  · exact hb i

theorem AllPos.select {S : Shape} {p : IVec S 1} {a b : S.Idx → EReal} (ha : AllPos a) (hb : AllPos b) :
    AllPos (Idealize.ShloMosaic.select p a b) := fun i => by
  show ∃ r : ℝ, 0 < r ∧ Scalar.select (p i) (a i) (b i) = (r : EReal)
  unfold Scalar.select
  split
  · exact ha i
  · exact hb i

/-! ### Re-indexing operations: every output entry is an input entry -/

theorem AllFin.broadcastInDim {S T : Shape} {dims : Fin S.rank → Fin T.rank} {h : S.BroadcastsInDim T dims}
    {x : S.Idx → EReal} (hx : AllFin x) : AllFin (Idealize.ShloMosaic.broadcastInDim T dims h x) :=
  fun _ => hx _

theorem AllNonneg.broadcastInDim {S T : Shape} {dims : Fin S.rank → Fin T.rank} {h : S.BroadcastsInDim T dims}
    {x : S.Idx → EReal} (hx : AllNonneg x) : AllNonneg (Idealize.ShloMosaic.broadcastInDim T dims h x) :=
  fun _ => hx _

theorem AllPos.broadcastInDim {S T : Shape} {dims : Fin S.rank → Fin T.rank} {h : S.BroadcastsInDim T dims}
    {x : S.Idx → EReal} (hx : AllPos x) : AllPos (Idealize.ShloMosaic.broadcastInDim T dims h x) :=
  fun _ => hx _

theorem AllFin.transpose {S T : Shape} {perm : List (Fin S.rank)} {x : S.Idx → EReal} {h : S.Transposes perm T}
    (hx : AllFin x) : AllFin (Idealize.ShloMosaic.transpose T perm x h) :=
  fun _ => hx _

theorem AllNonneg.transpose {S T : Shape} {perm : List (Fin S.rank)} {x : S.Idx → EReal} {h : S.Transposes perm T}
    (hx : AllNonneg x) : AllNonneg (Idealize.ShloMosaic.transpose T perm x h) :=
  fun _ => hx _

theorem AllPos.transpose {S T : Shape} {perm : List (Fin S.rank)} {x : S.Idx → EReal} {h : S.Transposes perm T}
    (hx : AllPos x) : AllPos (Idealize.ShloMosaic.transpose T perm x h) :=
  fun _ => hx _

theorem AllFin.gather {S SI T : Shape} {w : Nat} {d : GatherDims S SI T} {x : S.Idx → EReal} {idx : IVec SI w}
    (hx : AllFin x) : AllFin (Idealize.ShloMosaic.Host.gather d x idx) :=
  fun _ => hx _

theorem AllNonneg.gather {S SI T : Shape} {w : Nat} {d : GatherDims S SI T} {x : S.Idx → EReal} {idx : IVec SI w}
    (hx : AllNonneg x) : AllNonneg (Idealize.ShloMosaic.Host.gather d x idx) :=
  fun _ => hx _

theorem AllPos.gather {S SI T : Shape} {w : Nat} {d : GatherDims S SI T} {x : S.Idx → EReal} {idx : IVec SI w}
    (hx : AllPos x) : AllPos (Idealize.ShloMosaic.Host.gather d x idx) :=
  fun _ => hx _

/-! ### Contractions and sums -/

/-- A matrix product of arrays of reals: each entry is a finite sum of products of reals. -/
theorem AllFin.dotGeneral {sl sr so : Shape} {φ₁ φ₂ : FTy} {d : DotDims sl sr so} {prec : Option ContractPrecision}
    {l : FVec Ideal sl φ₁} {r : FVec Ideal sr φ₂} (hl : AllFin l) (hr : AllFin r) :
    AllFin (Idealize.ShloMosaic.Host.dotGeneral (F := Ideal) d prec l r) := fun j => by
  show IsFin (FloatOps.dotGeneral d prec .single l r j)
  rw [Ideal.dotGeneral_apply]
  refine isFin_sum _ _ fun k _ => ?_
  obtain ⟨a, ha⟩ := hl (d.lhsIdx j k)
  obtain ⟨b, hb⟩ := hr (d.rhsIdx j k)
  exact ⟨a * b, by rw [ha, hb, EReal.coe_mul]⟩

/-- The sum of an array of reals along axes, added to a real initial value. -/
theorem AllFin.reduceAdd {S T U : Shape} {φ : FTy} {axes : List (Fin S.rank)} {x : FVec Ideal S φ}
    {v : U.Idx → Ideal φ} {red : S.ReducesTo axes T} {hu : 0 < U.numel} (hx : AllFin x) (hv : AllFin (S := U) v) :
    AllFin (Idealize.ShloMosaic.Host.reduceAdd (F := Ideal) x v red hu) := fun j => by
  show IsFin (Ideal.hostReduceAdd red x (v (Shape.Idx.first hu)) j)
  unfold Ideal.hostReduceAdd
  obtain ⟨a, ha⟩ := hv (Shape.Idx.first hu)
  obtain ⟨b, hb⟩ := isFin_sum (Finset.univ.filter fun i => red.drop i = j) x fun i _ => hx i
  exact ⟨a + b, by rw [ha, hb, EReal.coe_add]⟩

theorem AllNonneg.reduceAdd {S T U : Shape} {φ : FTy} {axes : List (Fin S.rank)} {x : FVec Ideal S φ}
    {v : U.Idx → Ideal φ} {red : S.ReducesTo axes T} {hu : 0 < U.numel} (hx : AllNonneg x)
    (hv : AllNonneg (S := U) v) :
    AllNonneg (Idealize.ShloMosaic.Host.reduceAdd (F := Ideal) x v red hu) := fun j => by
  show ∃ r : ℝ, 0 ≤ r ∧ Ideal.hostReduceAdd red x (v (Shape.Idx.first hu)) j = (r : EReal)
  unfold Ideal.hostReduceAdd
  obtain ⟨a, ha0, ha⟩ := hv (Shape.Idx.first hu)
  obtain ⟨b, hb0, hb⟩ := nonneg_sum (Finset.univ.filter fun i => red.drop i = j) x fun i _ => hx i
  exact ⟨a + b, add_nonneg ha0 hb0, by rw [ha, hb, EReal.coe_add]⟩

/-! ### Division by a positive real -/

/-- A real divided by a positive real, as extended reals, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem AllFin.divf {S : Shape} {φ : FTy} {x y : FVec Ideal S φ} (hx : AllFin x) (hy : AllPos y) :
    AllFin (Idealize.ShloMosaic.Host.divf (F := Ideal) x y) := fun i => by
  obtain ⟨a, ha⟩ := hx i
  obtain ⟨b, hb0, hb⟩ := hy i
  exact ⟨a / b, by show Ideal.div (x i) (y i) = _; rw [ha, hb, div_coe_coe a hb0.ne']⟩

theorem AllNonneg.divf {S : Shape} {φ : FTy} {x y : FVec Ideal S φ} (hx : AllNonneg x) (hy : AllPos y) :
    AllNonneg (Idealize.ShloMosaic.Host.divf (F := Ideal) x y) := fun i => by
  obtain ⟨a, ha0, ha⟩ := hx i
  obtain ⟨b, hb0, hb⟩ := hy i
  exact ⟨a / b, div_nonneg ha0 hb0.le, by show Ideal.div (x i) (y i) = _; rw [ha, hb, div_coe_coe a hb0.ne']⟩

theorem AllPos.divf {S : Shape} {φ : FTy} {x y : FVec Ideal S φ} (hx : AllPos x) (hy : AllPos y) :
    AllPos (Idealize.ShloMosaic.Host.divf (F := Ideal) x y) := fun i => by
  obtain ⟨a, ha0, ha⟩ := hx i
  obtain ⟨b, hb0, hb⟩ := hy i
  exact ⟨a / b, div_pos ha0 hb0, by show Ideal.div (x i) (y i) = _; rw [ha, hb, div_coe_coe a hb0.ne']⟩

/-! ### Square roots -/

/-- The square root of a positive real is a positive real. -/
theorem AllPos.sqrt {S : Shape} {φ : FTy} {x : FVec Ideal S φ} (hx : AllPos x) :
    AllPos (Idealize.ShloMosaic.Host.sqrt (F := Ideal) x) := fun i => by
  obtain ⟨a, ha0, ha⟩ := hx i
  exact ⟨Real.sqrt a, Real.sqrt_pos.mpr ha0, by
    show Ideal.sqrt (x i) = _
    rw [ha, Ideal.sqrt_coe, if_neg (not_lt.mpr ha0.le)]⟩

/-- The square root of a real that is not negative is a real that is not negative. -/
theorem AllNonneg.sqrt {S : Shape} {φ : FTy} {x : FVec Ideal S φ} (hx : AllNonneg x) :
    AllNonneg (Idealize.ShloMosaic.Host.sqrt (F := Ideal) x) := fun i => by
  obtain ⟨a, ha0, ha⟩ := hx i
  exact ⟨Real.sqrt a, Real.sqrt_nonneg a, by
    show Ideal.sqrt (x i) = _
    rw [ha, Ideal.sqrt_coe, if_neg (not_lt.mpr ha0)]⟩

/-! ### Signs of sums and products -/

/-- A square of a real is not negative. -/
theorem AllNonneg.mulf_self {S : Shape} {φ : FTy} {x : FVec Ideal S φ} (hx : AllFin x) :
    AllNonneg (Idealize.ShloMosaic.mulf (F := Ideal) x x) := fun i => by
  obtain ⟨a, ha⟩ := hx i
  exact ⟨a * a, mul_self_nonneg a, by show x i * x i = _; rw [ha, EReal.coe_mul]⟩

theorem AllNonneg.mulf {S : Shape} {φ : FTy} {x y : FVec Ideal S φ} (hx : AllNonneg x) (hy : AllNonneg y) :
    AllNonneg (Idealize.ShloMosaic.mulf (F := Ideal) x y) := fun i => by
  obtain ⟨a, ha0, ha⟩ := hx i
  obtain ⟨b, hb0, hb⟩ := hy i
  exact ⟨a * b, mul_nonneg ha0 hb0, by show x i * y i = _; rw [ha, hb, EReal.coe_mul]⟩

theorem AllPos.mulf {S : Shape} {φ : FTy} {x y : FVec Ideal S φ} (hx : AllPos x) (hy : AllPos y) :
    AllPos (Idealize.ShloMosaic.mulf (F := Ideal) x y) := fun i => by
  obtain ⟨a, ha0, ha⟩ := hx i
  obtain ⟨b, hb0, hb⟩ := hy i
  exact ⟨a * b, mul_pos ha0 hb0, by show x i * y i = _; rw [ha, hb, EReal.coe_mul]⟩

theorem AllNonneg.addf {S : Shape} {φ : FTy} {x y : FVec Ideal S φ} (hx : AllNonneg x) (hy : AllNonneg y) :
    AllNonneg (Idealize.ShloMosaic.addf (F := Ideal) x y) := fun i => by
  obtain ⟨a, ha0, ha⟩ := hx i
  obtain ⟨b, hb0, hb⟩ := hy i
  exact ⟨a + b, add_nonneg ha0 hb0, by show x i + y i = _; rw [ha, hb, EReal.coe_add]⟩

theorem AllPos.addf_nonneg_pos {S : Shape} {φ : FTy} {x y : FVec Ideal S φ} (hx : AllNonneg x) (hy : AllPos y) :
    AllPos (Idealize.ShloMosaic.addf (F := Ideal) x y) := fun i => by
  obtain ⟨a, ha0, ha⟩ := hx i
  obtain ⟨b, hb0, hb⟩ := hy i
  exact ⟨a + b, add_pos_of_nonneg_of_pos ha0 hb0, by show x i + y i = _; rw [ha, hb, EReal.coe_add]⟩

theorem AllPos.addf_pos_nonneg {S : Shape} {φ : FTy} {x y : FVec Ideal S φ} (hx : AllPos x) (hy : AllNonneg y) :
    AllPos (Idealize.ShloMosaic.addf (F := Ideal) x y) := fun i => by
  obtain ⟨a, ha0, ha⟩ := hx i
  obtain ⟨b, hb0, hb⟩ := hy i
  exact ⟨a + b, add_pos_of_pos_of_nonneg ha0 hb0, by show x i + y i = _; rw [ha, hb, EReal.coe_add]⟩

theorem AllPos.addf {S : Shape} {φ : FTy} {x y : FVec Ideal S φ} (hx : AllPos x) (hy : AllPos y) :
    AllPos (Idealize.ShloMosaic.addf (F := Ideal) x y) := AllPos.addf_pos_nonneg hx hy.allNonneg

/-! ### Constants: binary32 bit patterns as real numbers

Each pattern is read as sign, eight exponent bits and twenty-three fraction bits; a normal number is
(2^23 + fraction) · 2^(exponent − 150). -/

/-- The pattern of +0.0 denotes 0. -/
theorem ofBits_00000000 : Ideal.ofBits .f32 0x00000000#32 = ((0 : ℝ) : EReal) := by
  simp [Ideal.ofBits, Ideal.ieee]

/-- The pattern of 1.0 denotes 1. -/
theorem ofBits_3F800000 : Ideal.ofBits .f32 0x3F800000#32 = ((1 : ℝ) : EReal) := by
  simp [Ideal.ofBits, Ideal.ieee, -EReal.coe_mul]; norm_num

/-- The binary32 number nearest 0.01: 10737418 · 2^(-30). -/
theorem ofBits_3C23D70A : Ideal.ofBits .f32 0x3C23D70A#32 = ((10737418 / 1073741824 : ℝ) : EReal) := by
  simp [Ideal.ofBits, Ideal.ieee, -EReal.coe_mul]; norm_num

/-- The binary32 number nearest 1e-5: 10995116 · 2^(-40). -/
theorem ofBits_3727C5AC : Ideal.ofBits .f32 0x3727C5AC#32 = ((10995116 / 1099511627776 : ℝ) : EReal) := by
  simp [Ideal.ofBits, Ideal.ieee, -EReal.coe_mul]; norm_num

/-- The pattern of 16384.0 = 2^14. -/
theorem ofBits_46800000 : Ideal.ofBits .f32 0x46800000#32 = ((16384 : ℝ) : EReal) := by
  simp [Ideal.ofBits, Ideal.ieee, -EReal.coe_mul]; norm_num

/-- The pattern of 8192.0 = 2^13. -/
theorem ofBits_46000000 : Ideal.ofBits .f32 0x46000000#32 = ((8192 : ℝ) : EReal) := by
  simp [Ideal.ofBits, Ideal.ieee, -EReal.coe_mul]; norm_num

/-- The pattern of 2048.0 = 2^11. -/
theorem ofBits_45000000 : Ideal.ofBits .f32 0x45000000#32 = ((2048 : ℝ) : EReal) := by
  simp [Ideal.ofBits, Ideal.ieee, -EReal.coe_mul]; norm_num

/-- The pattern of 128.0 = 2^7. -/
theorem ofBits_43000000 : Ideal.ofBits .f32 0x43000000#32 = ((128 : ℝ) : EReal) := by
  simp [Ideal.ofBits, Ideal.ieee, -EReal.coe_mul]; norm_num

/-- The pattern of 2.0. -/
theorem ofBits_40000000 : Ideal.ofBits .f32 0x40000000#32 = ((2 : ℝ) : EReal) := by
  simp [Ideal.ofBits, Ideal.ieee, -EReal.coe_mul]; norm_num

/-- The pattern of 62.0 = 31 · 2. -/
theorem ofBits_42780000 : Ideal.ofBits .f32 0x42780000#32 = ((62 : ℝ) : EReal) := by
  simp [Ideal.ofBits, Ideal.ieee, -EReal.coe_mul]; norm_num

/-- The pattern with all exponent bits set and no fraction bit denotes +∞. -/
theorem ofBits_7F800000 : Ideal.ofBits .f32 0x7F800000#32 = ⊤ := by
  simp [Ideal.ofBits, Ideal.ieee]

/-- An extended real equal to a real is a real; equal to a real ≥ 0 (> 0), it is such a real. -/
theorem isFin_of_eq {x : EReal} {r : ℝ} (h : x = (r : EReal)) : IsFin x := ⟨r, h⟩
theorem nonneg_of_eq {x : EReal} {r : ℝ} (h : x = (r : EReal)) (hr : 0 ≤ r) : ∃ r : ℝ, 0 ≤ r ∧ x = (r : EReal) :=
  ⟨r, hr, h⟩
theorem pos_of_eq {x : EReal} {r : ℝ} (h : x = (r : EReal)) (hr : 0 < r) : ∃ r : ℝ, 0 < r ∧ x = (r : EReal) :=
  ⟨r, hr, h⟩

theorem ofBits_00000000_nonneg : ∃ r : ℝ, 0 ≤ r ∧ Ideal.ofBits .f32 0x00000000#32 = (r : EReal) :=
  nonneg_of_eq ofBits_00000000 (le_refl _)
theorem ofBits_3F800000_pos : ∃ r : ℝ, 0 < r ∧ Ideal.ofBits .f32 0x3F800000#32 = (r : EReal) :=
  pos_of_eq ofBits_3F800000 (by norm_num)
theorem ofBits_3C23D70A_pos : ∃ r : ℝ, 0 < r ∧ Ideal.ofBits .f32 0x3C23D70A#32 = (r : EReal) :=
  pos_of_eq ofBits_3C23D70A (by norm_num)
theorem ofBits_3727C5AC_pos : ∃ r : ℝ, 0 < r ∧ Ideal.ofBits .f32 0x3727C5AC#32 = (r : EReal) :=
  pos_of_eq ofBits_3727C5AC (by norm_num)
theorem ofBits_46800000_pos : ∃ r : ℝ, 0 < r ∧ Ideal.ofBits .f32 0x46800000#32 = (r : EReal) :=
  pos_of_eq ofBits_46800000 (by norm_num)
theorem ofBits_46000000_pos : ∃ r : ℝ, 0 < r ∧ Ideal.ofBits .f32 0x46000000#32 = (r : EReal) :=
  pos_of_eq ofBits_46000000 (by norm_num)
theorem ofBits_45000000_pos : ∃ r : ℝ, 0 < r ∧ Ideal.ofBits .f32 0x45000000#32 = (r : EReal) :=
  pos_of_eq ofBits_45000000 (by norm_num)
theorem ofBits_43000000_pos : ∃ r : ℝ, 0 < r ∧ Ideal.ofBits .f32 0x43000000#32 = (r : EReal) :=
  pos_of_eq ofBits_43000000 (by norm_num)
theorem ofBits_40000000_pos : ∃ r : ℝ, 0 < r ∧ Ideal.ofBits .f32 0x40000000#32 = (r : EReal) :=
  pos_of_eq ofBits_40000000 (by norm_num)
theorem ofBits_42780000_pos : ∃ r : ℝ, 0 < r ∧ Ideal.ofBits .f32 0x42780000#32 = (r : EReal) :=
  pos_of_eq ofBits_42780000 (by norm_num)

/-- A constant array has the property its one value has. -/
theorem AllFin.constant {S : Shape} {φ : FTy} {b : BitVec φ.bits} (h : IsFin (Ideal.ofBits φ b)) :
    AllFin (Idealize.ShloMosaic.constant (F := Ideal) S φ b) := fun _ => h

theorem AllNonneg.constant {S : Shape} {φ : FTy} {b : BitVec φ.bits}
    (h : ∃ r : ℝ, 0 ≤ r ∧ Ideal.ofBits φ b = (r : EReal)) :
    AllNonneg (Idealize.ShloMosaic.constant (F := Ideal) S φ b) := fun _ => h

theorem AllPos.constant {S : Shape} {φ : FTy} {b : BitVec φ.bits}
    (h : ∃ r : ℝ, 0 < r ∧ Ideal.ofBits φ b = (r : EReal)) :
    AllPos (Idealize.ShloMosaic.constant (F := Ideal) S φ b) := fun _ => h

/-! ### Integers converted to floats -/

/-- An unsigned integer as a float is that natural number, a real that is not negative. -/
theorem AllNonneg.uitofp {S : Shape} {w : Nat} {φ : FTy} {x : IVec S w} :
    AllNonneg (Idealize.ShloMosaic.uitofp (F := Ideal) φ x) :=
  fun i => ⟨((x i).toNat : ℝ), Nat.cast_nonneg _, rfl⟩

theorem AllFin.uitofp {S : Shape} {w : Nat} {φ : FTy} {x : IVec S w} :
    AllFin (Idealize.ShloMosaic.uitofp (F := Ideal) φ x) :=
  fun i => ⟨((x i).toNat : ℝ), rfl⟩

/-- A signed integer as a float is that integer, a real. -/
theorem AllFin.sitofp {S : Shape} {w : Nat} {φ : FTy} {x : IVec S w} :
    AllFin (Idealize.ShloMosaic.sitofp (F := Ideal) φ x) :=
  fun i => ⟨((x i).toInt : ℝ), rfl⟩

/-! ### Each closure lemma applies to the operation's own term, with nothing unfolded by hand -/

section Examples
variable {S T : Shape} (x y : FVec Ideal S .f32) (hx : AllFin x) (hy : AllFin y) (hp : AllPos y) (hn : AllNonneg x)

example : AllFin (addf (F := Ideal) x y) := AllFin.addf hx hy
example : AllFin (subf (F := Ideal) x y) := AllFin.subf hx hy
example : AllFin (mulf (F := Ideal) x y) := AllFin.mulf hx hy
example : AllFin (Host.negf (F := Ideal) x) := AllFin.negf hx
example : AllFin (Host.exp (F := Ideal) x) := AllFin.exp hx
example : AllPos (Host.exp (F := Ideal) x) := AllPos.exp hx
example : AllFin (Host.divf (F := Ideal) x y) := AllFin.divf hx hp
example : AllNonneg (Host.divf (F := Ideal) x y) := AllNonneg.divf hn hp
example : AllPos (Host.sqrt (F := Ideal) y) := AllPos.sqrt hp
example : AllNonneg (mulf (F := Ideal) x x) := AllNonneg.mulf_self hx
example : AllPos (addf (F := Ideal) x y) := AllPos.addf_nonneg_pos hn hp
example (p : IVec S 1) : AllFin (select p x y) := AllFin.select hx hy
example : AllFin (select (cmpf (F := Ideal) .oge x (constant S .f32 0x00000000#32)) x
    (mulf x (constant S .f32 0x3C23D70A#32))) :=
  AllFin.select hx (AllFin.mulf hx (AllFin.constant (isFin_of_eq ofBits_3C23D70A)))
example : AllPos (constant (F := Ideal) S .f32 0x3727C5AC#32) := AllPos.constant ofBits_3727C5AC_pos
example (dims : Fin S.rank → Fin T.rank) (h : S.BroadcastsInDim T dims) : AllFin (broadcastInDim T dims h x) :=
  AllFin.broadcastInDim hx
example (perm : List (Fin S.rank)) (h : S.Transposes perm T) : AllFin (transpose T perm x h) :=
  AllFin.transpose hx
example {SI : Shape} (d : GatherDims S SI T) (idx : IVec SI 32) : AllFin (Host.gather d x idx) :=
  AllFin.gather hx
example {sr so : Shape} (d : DotDims S sr so) (r : FVec Ideal sr .f32) (hr : AllFin r) :
    AllFin (Host.dotGeneral (F := Ideal) d none x r) := AllFin.dotGeneral hx hr
example {axes : List (Fin S.rank)} {U : Shape} (v : FVec Ideal U .f32) (hv : AllFin v) (red : S.ReducesTo axes T)
    (hu : 0 < U.numel) : AllFin (Host.reduceAdd (F := Ideal) x v red hu) := AllFin.reduceAdd hx hv
example {axes : List (Fin S.rank)} {U : Shape} (v : FVec Ideal U .f32) (hv : AllNonneg v) (red : S.ReducesTo axes T)
    (hu : 0 < U.numel) : AllNonneg (Host.reduceAdd (F := Ideal) x v red hu) := AllNonneg.reduceAdd hn hv
example (n : IVec S 32) : AllFin (uitofp (F := Ideal) .f32 n) := AllFin.uitofp
example (n : IVec S 32) : AllFin (sitofp (F := Ideal) .f32 n) := AllFin.sitofp
-- at a concrete shape: x / √(y + ε) is real when x is real, y > 0 and ε > 0
example (a : FVec Ideal ⟨2, ![8, 16]⟩ .f32) (b : FVec Ideal ⟨2, ![8, 16]⟩ .f32) (ha : AllFin a) (hb : AllPos b) :
    AllFin (Host.divf a (Host.sqrt (addf b (constant ⟨2, ![8, 16]⟩ .f32 0x3727C5AC#32)))) :=
  AllFin.divf ha (AllPos.sqrt (AllPos.addf hb (AllPos.constant ofBits_3727C5AC_pos)))

end Examples

end IdealFinite

end
-- ==== Proof.KI.HostVal.lean ====
/-
  What the region finds in the four weight arrays, at Ideal: the host operations scatter-add each sparse weight's
  values into a zero matrix at (column, row) — a dense transpose —, cut the transposes at row 2048, put the first
  2048 rows of all four side by side (the prefix weights) and the later rows of the second, third and fourth on
  their own, and round to bf16, which at Ideal changes nothing.  With no negative index the wrap-around of
  negative indices is the identity, and a triple whose row is too large is dropped by the scatter and matches no
  row of the dense transpose either.
-/
import proofs.«409427_j11175504904589_3_alg».proof.Proof.KI.Kit
import proofs.«409427_j11175504904589_3_alg».proof.Proof.Spec
import proofs.«409427_j11175504904589_3_alg».proof.Proof.KI.HostTerms2
import proofs.«409427_j11175504904589_3_alg».proof.Proof.KI.ScatterDense
import proofs.«409427_j11175504904589_3_alg».proof.Proof.LibIdealFinite
import Idealize.ShloMosaic.Lib.ValueLayout

set_option maxRecDepth 16384

noncomputable section

namespace Cert.KernelIdeal.Hand

open Idealize.ShloMosaic Idealize.SL.Sem Idealize.ShloMosaic.ValueIdx
open Cert.KernelIdeal Cert.KernelIdeal.Gen
open scoped BigOperators

variable (m : (ℓ : Loc nD τ sig) → Buf (Elt Ideal) ℓ)

/-- The four sparse weights in coordinate form, read off core `c`'s argument arrays. -/
def w0 (c : Dev nD) : Spec.Coo := Spec.Coo.of (K := 8192) (m ((c.tc : Thread nD τ).loc main_arg1)) (m ((c.tc : Thread nD τ).loc main_arg2)) (m ((c.tc : Thread nD τ).loc main_arg3))
def w1 (c : Dev nD) : Spec.Coo := Spec.Coo.of (K := 8192) (m ((c.tc : Thread nD τ).loc main_arg4)) (m ((c.tc : Thread nD τ).loc main_arg5)) (m ((c.tc : Thread nD τ).loc main_arg6))
def w2 (c : Dev nD) : Spec.Coo := Spec.Coo.of (K := 8192) (m ((c.tc : Thread nD τ).loc main_arg7)) (m ((c.tc : Thread nD τ).loc main_arg8)) (m ((c.tc : Thread nD τ).loc main_arg9))
def wm (c : Dev nD) : Spec.Coo := Spec.Coo.of (K := 16384) (m ((c.tc : Thread nD τ).loc main_arg10)) (m ((c.tc : Thread nD τ).loc main_arg11)) (m ((c.tc : Thread nD τ).loc main_arg12))

/-! ## The operations read at an index, for any sizes -/

section Generic

/-- The index matrix whose two columns are two index vectors, read in its first column. -/
theorem idxcat_fst {α : Type} {K : ℕ}
    (hb : (⟨1, ![K]⟩ : Shape).BroadcastsInDim ⟨2, ![K, 1]⟩ (![0] : Fin (⟨1, ![K]⟩ : Shape).rank → Fin (⟨2, ![K, 1]⟩ : Shape).rank))
    (hc : Shape.Concatenates [(⟨2, ![K, 1]⟩ : Shape), ⟨2, ![K, 1]⟩] ⟨2, ![K, 2]⟩ 1)
    (a b : (⟨1, ![K]⟩ : Shape).Idx → α) (k : Fin K) :
    concatenate ⟨2, ![K, 2]⟩ 1 [⟨⟨2, ![K, 1]⟩, broadcastInDim ⟨2, ![K, 1]⟩ ![0] hb a⟩,
      ⟨⟨2, ![K, 1]⟩, broadcastInDim ⟨2, ![K, 1]⟩ ![0] hb b⟩] hc (ix2 k 0) = a (ix1 k) := by
  refine (concatenate_pair_apply_left _ _ _ hc (ix2 k 0) rfl (ix2 k 0) (fun d => ?_)).trans ?_
  · match d with
    | ⟨0, _⟩ => rfl
    | ⟨1, _⟩ => rfl
  · refine broadcastInDim_apply _ hb a _ (ix1 k) (fun d => ?_)
    match d with
    | ⟨0, _⟩ =>
      show k.val = if K = 1 then 0 else k.val
      split
      · have := k.isLt; omega
      · rfl

/-- The index matrix whose two columns are two index vectors, read in its second column. -/
theorem idxcat_snd {α : Type} {K : ℕ}
    (hb : (⟨1, ![K]⟩ : Shape).BroadcastsInDim ⟨2, ![K, 1]⟩ (![0] : Fin (⟨1, ![K]⟩ : Shape).rank → Fin (⟨2, ![K, 1]⟩ : Shape).rank))
    (hc : Shape.Concatenates [(⟨2, ![K, 1]⟩ : Shape), ⟨2, ![K, 1]⟩] ⟨2, ![K, 2]⟩ 1)
    (a b : (⟨1, ![K]⟩ : Shape).Idx → α) (k : Fin K) :
    concatenate ⟨2, ![K, 2]⟩ 1 [⟨⟨2, ![K, 1]⟩, broadcastInDim ⟨2, ![K, 1]⟩ ![0] hb a⟩,
      ⟨⟨2, ![K, 1]⟩, broadcastInDim ⟨2, ![K, 1]⟩ ![0] hb b⟩] hc (ix2 k 1) = b (ix1 k) := by
  refine (concatenate_pair_apply_right _ _ _ hc (ix2 k 1) rfl rfl (ix2 k 0) (fun d hd => ?_) rfl).trans ?_
  · match d with
    | ⟨0, _⟩ => rfl
    | ⟨1, _⟩ => exact absurd rfl hd
  · refine broadcastInDim_apply _ hb b _ (ix1 k) (fun d => ?_)
    match d with
    | ⟨0, _⟩ =>
      show k.val = if K = 1 then 0 else k.val
      split
      · have := k.isLt; omega
      · rfl

/-- An index that is not negative is left alone by the wrap-around of negative indices. -/
theorem wrap_apply {s : Shape} (hb : (⟨0, ![]⟩ : Shape).BroadcastsInDim s (![] : Fin (⟨0, ![]⟩ : Shape).rank → Fin s.rank))
    (n : BitVec 32) (v : IVec s 32) (i : s.Idx) (h : 0 ≤ (v i).toInt) :
    select (cmpi .slt v (broadcastInDim s ![] hb (constantI ⟨0, ![]⟩ 32 0#32)))
      (addi v (broadcastInDim s ![] hb (constantI ⟨0, ![]⟩ 32 n))) v i = v i := by
  show Scalar.select (IntOp.cmpi .slt (v i) 0#32) _ (v i) = v i
  have hlt : (v i).slt 0#32 = false := by
    unfold BitVec.slt
    rw [BitVec.toInt_zero]
    exact decide_eq_false (by omega)
  have hz : IntOp.cmpi .slt (v i) 0#32 = 0#1 := by
    show BitVec.ofBool ((v i).slt 0#32) = 0#1
    rw [hlt]; rfl
  rw [hz]
  exact select_zero _ _

/-- The matrix of the +0.0 word is the zero matrix. -/
theorem zeros_apply {s : Shape} (hb : (⟨0, ![]⟩ : Shape).BroadcastsInDim s (![] : Fin (⟨0, ![]⟩ : Shape).rank → Fin s.rank)) (i : s.Idx) :
    broadcastInDim s ![] hb (constant (F := Ideal) ⟨0, ![]⟩ .f32 0x00000000#32) i = 0 := by
  show Ideal.ofBits .f32 0x00000000#32 = 0
  rw [IdealFinite.ofBits_00000000]; rfl

end Generic

/-! ## The scatter-add of a sparse weight is its dense transpose -/

/-- A vector of words read signed at a position inside it. -/
theorem ofInts_fin {K : ℕ} (v : (⟨1, ![K]⟩ : Shape).Idx → BitVec 32) (k : Fin K) : Spec.ofInts v k.val = (v (ix1 k)).toInt := by
  unfold Spec.ofInts
  rw [dif_pos k.isLt]

/-- The values of a sparse weight scatter-added into a zero matrix at its (column, row) pairs, each index wrapped
    around when negative, give the weight's dense transpose when no index is negative. -/
theorem dense_apply {C R K : ℕ}
    (wf : ScatterDims.WF ⟨2, ![C, R]⟩ ⟨2, ![K, 2]⟩ ⟨1, ![K]⟩ [] [0, 1] [0, 1] 1)
    (hz : (⟨0, ![]⟩ : Shape).BroadcastsInDim ⟨2, ![C, R]⟩ (![] : Fin (⟨0, ![]⟩ : Shape).rank → Fin (⟨2, ![C, R]⟩ : Shape).rank))
    (h0 : (⟨0, ![]⟩ : Shape).BroadcastsInDim ⟨1, ![K]⟩ (![] : Fin (⟨0, ![]⟩ : Shape).rank → Fin (⟨1, ![K]⟩ : Shape).rank))
    (hb : (⟨1, ![K]⟩ : Shape).BroadcastsInDim ⟨2, ![K, 1]⟩ (![0] : Fin (⟨1, ![K]⟩ : Shape).rank → Fin (⟨2, ![K, 1]⟩ : Shape).rank))
    (hc : Shape.Concatenates [(⟨2, ![K, 1]⟩ : Shape), ⟨2, ![K, 1]⟩] ⟨2, ![K, 2]⟩ 1)
    (nc nr : BitVec 32) (rows cols : IVec ⟨1, ![K]⟩ 32) (vals : FVec Ideal ⟨1, ![K]⟩ .f32)
    (hrows : ∀ k : Fin K, 0 ≤ (rows (ix1 k)).toInt) (hcols : ∀ k : Fin K, 0 ≤ (cols (ix1 k)).toInt)
    (f : Fin C) (r : Fin R) :
    Host.scatterAdd (⟨[], [0, 1], [0, 1], 1, wf⟩ : ScatterDims ⟨2, ![C, R]⟩ ⟨2, ![K, 2]⟩ ⟨1, ![K]⟩)
      (broadcastInDim ⟨2, ![C, R]⟩ ![] hz (constant (F := Ideal) ⟨0, ![]⟩ .f32 0x00000000#32))
      (concatenate ⟨2, ![K, 2]⟩ 1
        [⟨⟨2, ![K, 1]⟩, broadcastInDim ⟨2, ![K, 1]⟩ ![0] hb
            (select (cmpi .slt cols (broadcastInDim ⟨1, ![K]⟩ ![] h0 (constantI ⟨0, ![]⟩ 32 0#32)))
              (addi cols (broadcastInDim ⟨1, ![K]⟩ ![] h0 (constantI ⟨0, ![]⟩ 32 nc))) cols)⟩,
         ⟨⟨2, ![K, 1]⟩, broadcastInDim ⟨2, ![K, 1]⟩ ![0] hb
            (select (cmpi .slt rows (broadcastInDim ⟨1, ![K]⟩ ![] h0 (constantI ⟨0, ![]⟩ 32 0#32)))
              (addi rows (broadcastInDim ⟨1, ![K]⟩ ![] h0 (constantI ⟨0, ![]⟩ 32 nr))) rows)⟩] hc)
      vals (ix2 f r) = (Spec.Coo.of rows cols vals).dense f.val r.val :=
  scatter_dense wf _ (zeros_apply hz) _ rows cols vals
    (fun k => (idxcat_fst hb hc _ _ k).trans (wrap_apply h0 nc cols (ix1 k) (hcols k)))
    (fun k => (idxcat_snd hb hc _ _ k).trans (wrap_apply h0 nr rows (ix1 k) (hrows k))) f r

/-- The host operations' dense transpose of the first weight is the weight's, entry by entry. -/
theorem D0_apply (c : Dev nD) (h : (w0 m c).Dom 2048) (f r : ℕ) (hf : f < 2048) (hr : r < 512) :
    D0 m c (ix2 ⟨f, hf⟩ ⟨r, hr⟩) = (w0 m c).dense f r :=
  dense_apply _ _ _ _ _ _ _ (m ((c.tc : Thread nD τ).loc main_arg1)) (m ((c.tc : Thread nD τ).loc main_arg2)) (m ((c.tc : Thread nD τ).loc main_arg3))
    (fun k => (h.rows_nonneg k.val k.isLt).trans_eq (ofInts_fin _ k))
    (fun k => ((h.cols_range k.val k.isLt).1).trans_eq (ofInts_fin _ k)) ⟨f, hf⟩ ⟨r, hr⟩

/-- The host operations' dense transpose of the second weight is the weight's, entry by entry. -/
theorem D1_apply (c : Dev nD) (h : (w1 m c).Dom 2560) (f r : ℕ) (hf : f < 2560) (hr : r < 512) :
    D1 m c (ix2 ⟨f, hf⟩ ⟨r, hr⟩) = (w1 m c).dense f r :=
  dense_apply _ _ _ _ _ _ _ (m ((c.tc : Thread nD τ).loc main_arg4)) (m ((c.tc : Thread nD τ).loc main_arg5)) (m ((c.tc : Thread nD τ).loc main_arg6))
    (fun k => (h.rows_nonneg k.val k.isLt).trans_eq (ofInts_fin _ k))
    (fun k => ((h.cols_range k.val k.isLt).1).trans_eq (ofInts_fin _ k)) ⟨f, hf⟩ ⟨r, hr⟩

/-- The host operations' dense transpose of the third weight is the weight's, entry by entry. -/
theorem D2_apply (c : Dev nD) (h : (w2 m c).Dom 3072) (f r : ℕ) (hf : f < 3072) (hr : r < 512) :
    D2 m c (ix2 ⟨f, hf⟩ ⟨r, hr⟩) = (w2 m c).dense f r :=
  dense_apply _ _ _ _ _ _ _ (m ((c.tc : Thread nD τ).loc main_arg7)) (m ((c.tc : Thread nD τ).loc main_arg8)) (m ((c.tc : Thread nD τ).loc main_arg9))
    (fun k => (h.rows_nonneg k.val k.isLt).trans_eq (ofInts_fin _ k))
    (fun k => ((h.cols_range k.val k.isLt).1).trans_eq (ofInts_fin _ k)) ⟨f, hf⟩ ⟨r, hr⟩

/-- The host operations' dense transpose of the last weight is the weight's, entry by entry. -/
theorem D3_apply (c : Dev nD) (h : (wm m c).Dom 3584) (f r : ℕ) (hf : f < 3584) (hr : r < 2048) :
    D3 m c (ix2 ⟨f, hf⟩ ⟨r, hr⟩) = (wm m c).dense f r :=
  dense_apply _ _ _ _ _ _ _ (m ((c.tc : Thread nD τ).loc main_arg10)) (m ((c.tc : Thread nD τ).loc main_arg11)) (m ((c.tc : Thread nD τ).loc main_arg12))
    (fun k => (h.rows_nonneg k.val k.isLt).trans_eq (ofInts_fin _ k))
    (fun k => ((h.cols_range k.val k.isLt).1).trans_eq (ofInts_fin _ k)) ⟨f, hf⟩ ⟨r, hr⟩

/-! ## The four arrays the region reads -/

/-- The prefix weights the region finds are the first 2048 rows of the four dense transposes, side by side. -/
theorem V_prefix (c : Dev nD) (h0 : (w0 m c).Dom 2048) (h1 : (w1 m c).Dom 2560) (h2 : (w2 m c).Dom 3072) (hm : (wm m c).Dom 3584) :
    ∀ f n, f < 2048 → n < 3584 →
      Spec.ofArr (A := 2048) (B := 3584) (V m c main_v70) f n = Spec.Pof (w0 m c) (w1 m c) (w2 m c) (wm m c) f n := by
  intro f n hf hn
  unfold Spec.ofArr Spec.Pof
  rw [dif_pos ⟨hf, hn⟩, V_v70, truncf_apply]
  by_cases c0 : n < 512
  · rw [if_pos c0]
    refine (concatenate_apply_piece 1 _ _ (ix2 ⟨f, hf⟩ ⟨n, hn⟩) 0 (by simp) S2048x512 _ rfl rfl 0 rfl
      (ix2 ⟨f, hf⟩ ⟨n, c0⟩) (fun b hb => ?_) (by show 0 + n = n; omega)).trans ?_
    · match b with
      | ⟨0, _⟩ => rfl
      | ⟨1, _⟩ => exact absurd rfl hb
    · exact D0_apply m c h0 _ _ _ _
  · rw [if_neg c0]
    by_cases c1 : n < 1024
    · rw [if_pos c1]
      refine (concatenate_apply_piece 1 _ _ (ix2 ⟨f, hf⟩ ⟨n, hn⟩) 1 (by simp) S2048x512 _ rfl rfl 512 rfl
        (ix2 ⟨f, hf⟩ ⟨n - 512, by omega⟩) (fun b hb => ?_) (by show 512 + (n - 512) = n; omega)).trans ?_
      · match b with
        | ⟨0, _⟩ => rfl
        | ⟨1, _⟩ => exact absurd rfl hb
      · rw [slice2_axis0_eq 0 (D1 m c) slices_S2560x512_S2048x512_0_0 ⟨f, hf⟩ ⟨n - 512, by omega⟩, D1_apply m c h1]
        show (w1 m c).dense (0 + f) (n - 512) = _
        rw [Nat.zero_add]
    · rw [if_neg c1]
      by_cases c2 : n < 1536
      · rw [if_pos c2]
        refine (concatenate_apply_piece 1 _ _ (ix2 ⟨f, hf⟩ ⟨n, hn⟩) 2 (by simp) S2048x512 _ rfl rfl 1024 rfl
          (ix2 ⟨f, hf⟩ ⟨n - 1024, by omega⟩) (fun b hb => ?_) (by show 1024 + (n - 1024) = n; omega)).trans ?_
        · match b with
          | ⟨0, _⟩ => rfl
          | ⟨1, _⟩ => exact absurd rfl hb
        · rw [slice2_axis0_eq 0 (D2 m c) slices_S3072x512_S2048x512_0_0 ⟨f, hf⟩ ⟨n - 1024, by omega⟩, D2_apply m c h2]
          show (w2 m c).dense (0 + f) (n - 1024) = _
          rw [Nat.zero_add]
      · rw [if_neg c2]
        refine (concatenate_apply_piece 1 _ _ (ix2 ⟨f, hf⟩ ⟨n, hn⟩) 3 (by simp) S2048x2048 _ rfl rfl 1536 rfl
          (ix2 ⟨f, hf⟩ ⟨n - 1536, by omega⟩) (fun b hb => ?_) (by show 1536 + (n - 1536) = n; omega)).trans ?_
        · match b with
          | ⟨0, _⟩ => rfl
          | ⟨1, _⟩ => exact absurd rfl hb
        · rw [slice2_axis0_eq 0 (D3 m c) slices_S3584x2048_S2048x2048_0_0 ⟨f, hf⟩ ⟨n - 1536, by omega⟩, D3_apply m c hm]
          show (wm m c).dense (0 + f) (n - 1536) = _
          rw [Nat.zero_add]

/-- The second weight's rows from 2048 on. -/
theorem V_q1 (c : Dev nD) (h1 : (w1 m c).Dom 2560) :
    ∀ i r, i < 512 → r < 512 → Spec.ofArr (A := 512) (B := 512) (V m c main_v71) i r = Spec.Qof (w1 m c) i r := by
  intro i r hi hr
  unfold Spec.ofArr Spec.Qof
  rw [dif_pos ⟨hi, hr⟩, V_v71, truncf_apply,
    slice2_axis0_eq 2048 (D1 m c) slices_S2560x512_S512x512_2048_0 ⟨i, hi⟩ ⟨r, hr⟩]
  exact D1_apply m c h1 _ _ _ _

/-- The third weight's rows from 2048 on. -/
theorem V_q2 (c : Dev nD) (h2 : (w2 m c).Dom 3072) :
    ∀ i r, i < 1024 → r < 512 → Spec.ofArr (A := 1024) (B := 512) (V m c main_v73) i r = Spec.Qof (w2 m c) i r := by
  intro i r hi hr
  unfold Spec.ofArr Spec.Qof
  rw [dif_pos ⟨hi, hr⟩, V_v73, truncf_apply]
  by_cases c0 : i < 512
  · refine (concatenate_apply_piece 0 _ _ (ix2 ⟨i, hi⟩ ⟨r, hr⟩) 0 (by simp) S512x512 _ rfl rfl 0 rfl
      (ix2 ⟨i, c0⟩ ⟨r, hr⟩) (fun b hb => ?_) (by show 0 + i = i; omega)).trans ?_
    · match b with
      | ⟨0, _⟩ => exact absurd rfl hb
      | ⟨1, _⟩ => rfl
    · rw [slice2_axis0_eq 2048 (D2 m c) slices_S3072x512_S512x512_2048_0 ⟨i, c0⟩ ⟨r, hr⟩]
      exact D2_apply m c h2 _ _ _ _
  · refine (concatenate_apply_piece 0 _ _ (ix2 ⟨i, hi⟩ ⟨r, hr⟩) 1 (by simp) S512x512 _ rfl rfl 512 rfl
      (ix2 ⟨i - 512, by omega⟩ ⟨r, hr⟩) (fun b hb => ?_) (by show 512 + (i - 512) = i; omega)).trans ?_
    · match b with
      | ⟨0, _⟩ => exact absurd rfl hb
      | ⟨1, _⟩ => rfl
    · rw [slice2_axis0_eq 2560 (D2 m c) slices_S3072x512_S512x512_2560_0 ⟨i - 512, by omega⟩ ⟨r, hr⟩, D2_apply m c h2]
      show (w2 m c).dense (2560 + (i - 512)) r = _
      rw [show 2560 + (i - 512) = 2048 + i by omega]

/-- The last weight's rows from 2048 on. -/
theorem V_q3 (c : Dev nD) (hm : (wm m c).Dom 3584) :
    ∀ i r, i < 1536 → r < 2048 → Spec.ofArr (A := 1536) (B := 2048) (V m c main_v75) i r = Spec.Qof (wm m c) i r := by
  intro i r hi hr
  unfold Spec.ofArr Spec.Qof
  rw [dif_pos ⟨hi, hr⟩, V_v75, truncf_apply]
  by_cases c0 : i < 512
  · refine (concatenate_apply_piece 0 _ _ (ix2 ⟨i, hi⟩ ⟨r, hr⟩) 0 (by simp) S512x2048 _ rfl rfl 0 rfl
      (ix2 ⟨i, c0⟩ ⟨r, hr⟩) (fun b hb => ?_) (by show 0 + i = i; omega)).trans ?_
    · match b with
      | ⟨0, _⟩ => exact absurd rfl hb
      | ⟨1, _⟩ => rfl
    · rw [slice2_axis0_eq 2048 (D3 m c) slices_S3584x2048_S512x2048_2048_0 ⟨i, c0⟩ ⟨r, hr⟩]
      exact D3_apply m c hm _ _ _ _
  · by_cases c1 : i < 1024
    · refine (concatenate_apply_piece 0 _ _ (ix2 ⟨i, hi⟩ ⟨r, hr⟩) 1 (by simp) S512x2048 _ rfl rfl 512 rfl
        (ix2 ⟨i - 512, by omega⟩ ⟨r, hr⟩) (fun b hb => ?_) (by show 512 + (i - 512) = i; omega)).trans ?_
      · match b with
        | ⟨0, _⟩ => exact absurd rfl hb
        | ⟨1, _⟩ => rfl
      · rw [slice2_axis0_eq 2560 (D3 m c) slices_S3584x2048_S512x2048_2560_0 ⟨i - 512, by omega⟩ ⟨r, hr⟩, D3_apply m c hm]
        show (wm m c).dense (2560 + (i - 512)) r = _
        rw [show 2560 + (i - 512) = 2048 + i by omega]
    · refine (concatenate_apply_piece 0 _ _ (ix2 ⟨i, hi⟩ ⟨r, hr⟩) 2 (by simp) S512x2048 _ rfl rfl 1024 rfl
        (ix2 ⟨i - 1024, by omega⟩ ⟨r, hr⟩) (fun b hb => ?_) (by show 1024 + (i - 1024) = i; omega)).trans ?_
      · match b with
        | ⟨0, _⟩ => exact absurd rfl hb
        | ⟨1, _⟩ => rfl
      · rw [slice2_axis0_eq 3072 (D3 m c) slices_S3584x2048_S512x2048_3072_0 ⟨i - 1024, by omega⟩ ⟨r, hr⟩, D3_apply m c hm]
        show (wm m c).dense (3072 + (i - 1024)) r = _
        rw [show 3072 + (i - 1024) = 2048 + i by omega]

end Cert.KernelIdeal.Hand

end
-- ==== Proof.PreDom.lean ====
/-
  What the precondition says of the thirteen argument arrays, in the words the value proofs use: every entry of
  `x` and of the four value vectors is a real number (its absolute value is below +∞), no row index is negative,
  and every column index lies inside the matrix it indexes (2048, 2560, 3072 and 3584 columns).  The printed
  predicate is a conjunction of seventeen whole-array tests, each an all-reduction of an elementwise compare.
-/
import proofs.«409427_j11175504904589_3_alg».proof.Pre_finite_inputs
import proofs.«409427_j11175504904589_3_alg».proof.Proof.Spec
import proofs.«409427_j11175504904589_3_alg».proof.Proof.LibIdealFinite
import Idealize.ShloMosaic.Lib.ReduceAll
import Idealize.ShloMosaic.Lib.StableHlo.Predicate

noncomputable section

namespace Cert.PreDom

open Idealize.ShloMosaic Cert.Spec
open Cert.Pre_finite_inputs (S8192x2048 S8192 S16384)

/-- The domain facts the value proofs use, of thirteen argument arrays. -/
structure Dom (a0 : FVec Ideal S8192x2048 .f32) (a1 a2 : IVec S8192 32) (a3 : FVec Ideal S8192 .f32) (a4 a5 : IVec S8192 32) (a6 : FVec Ideal S8192 .f32) (a7 a8 : IVec S8192 32) (a9 : FVec Ideal S8192 .f32) (a10 a11 : IVec S16384 32) (a12 : FVec Ideal S16384 .f32) : Prop where
  x_real : ∀ b f, b < 8192 → f < 2048 → ∃ r : ℝ, ofArr a0 b f = (r : EReal)
  d0 : (Coo.of a1 a2 a3).Dom 2048
  d1 : (Coo.of a4 a5 a6).Dom 2560
  d2 : (Coo.of a7 a8 a9).Dom 3072
  dm : (Coo.of a10 a11 a12).Dom 3584

/-! ### One whole-array test of each kind, read back at every element -/

/-- The shape with no axes has one index. -/
instance : Subsingleton (⟨0, ![]⟩ : Shape).Idx := ⟨fun a b => funext fun d => d.elim0⟩

/-- An extended real whose absolute value is below +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The float test: if "|a| < +∞ everywhere" came out true, every entry of `a` is a real number. -/
theorem all_real_of {s : Shape} {axes : List (Fin s.rank)} (a : FVec Ideal s .f32)
    (b : (⟨0, ![]⟩ : Shape).BroadcastsInDim s (![] : Fin 0 → Fin s.rank)) (red : s.ReducesTo axes ⟨0, ![]⟩)
    (hS : 0 < (⟨0, ![]⟩ : Shape).numel)
    (h : Host.reduce IntOp.andi
        (cmpf .olt (Host.absf a) (broadcastInDim s ![] b (constant (F := Ideal) ⟨0, ![]⟩ .f32 0x7F800000#32)))
        (constantI ⟨0, ![]⟩ 1 1#1) red hS ValueIdx.ix0 = 1#1) :
    ∀ i, ∃ r : ℝ, a i = (r : EReal) := by
  intro i
  have e := Host.reduce_andi_all _ _ red hS ValueIdx.ix0 h i
  change Ideal.cmp .olt (max (a i) (-(a i))) (Ideal.ofBits .f32 0x7F800000#32) = 1#1 at e
  rw [IdealFinite.ofBits_7F800000] at e
  unfold Ideal.cmp at e
  rw [StableHlo.Predicate.ofBool_eq_one_iff, decide_eq_true_eq] at e
  exact real_of_abs_lt_top _ e

/-- The sign test: if "a ≥ 0 everywhere" (signed) came out true, no entry of `a` is negative. -/
theorem all_sge_zero_of {s : Shape} {axes : List (Fin s.rank)} (a : IVec s 32)
    (b : (⟨0, ![]⟩ : Shape).BroadcastsInDim s (![] : Fin 0 → Fin s.rank)) (red : s.ReducesTo axes ⟨0, ![]⟩)
    (hS : 0 < (⟨0, ![]⟩ : Shape).numel)
    (h : Host.reduce IntOp.andi
        (cmpi .sge a (broadcastInDim s ![] b (constantI ⟨0, ![]⟩ 32 0#32)))
        (constantI ⟨0, ![]⟩ 1 1#1) red hS ValueIdx.ix0 = 1#1) :
    ∀ i, 0 ≤ (a i).toInt := by
  intro i
  have e := Host.reduce_andi_all _ _ red hS ValueIdx.ix0 h i
  change IntOp.cmpi .sge (a i) 0#32 = 1#1 at e
  unfold IntOp.cmpi at e
  rw [StableHlo.Predicate.ofBool_eq_one_iff] at e
  simp only [BitVec.sle, decide_eq_true_eq] at e
  have h0 : (0#32 : BitVec 32).toInt = 0 := by decide
  rw [h0] at e
  exact e

/-- The range test: if "a < c everywhere" (signed, `c` a small literal) came out true, every entry is below `c`. -/
theorem all_slt_of {s : Shape} {axes : List (Fin s.rank)} (a : IVec s 32) (c : ℕ) (hc : c < 2 ^ 31)
    (b : (⟨0, ![]⟩ : Shape).BroadcastsInDim s (![] : Fin 0 → Fin s.rank)) (red : s.ReducesTo axes ⟨0, ![]⟩)
    (hS : 0 < (⟨0, ![]⟩ : Shape).numel)
    (h : Host.reduce IntOp.andi
        (cmpi .slt a (broadcastInDim s ![] b (constantI ⟨0, ![]⟩ 32 (BitVec.ofNat 32 c))))
        (constantI ⟨0, ![]⟩ 1 1#1) red hS ValueIdx.ix0 = 1#1) :
    ∀ i, (a i).toInt < (c : ℤ) := by
  intro i
  have e := Host.reduce_andi_all _ _ red hS ValueIdx.ix0 h i
  change IntOp.cmpi .slt (a i) (BitVec.ofNat 32 c) = 1#1 at e
  unfold IntOp.cmpi at e
  rw [StableHlo.Predicate.ofBool_eq_one_iff] at e
  simp only [BitVec.slt, decide_eq_true_eq] at e
  rw [StableHlo.Predicate.toInt_ofNat_small c hc] at e
  exact e

/-! ### The element facts in the words of the specification -/

/-- A coordinate-form weight read off three arrays has the domain facts when its values are real, its rows are
    not negative and its columns lie in `[0, C)`. -/
theorem coo_dom {K : ℕ} (rows cols : IVec ⟨1, ![K]⟩ 32) (vals : FVec Ideal ⟨1, ![K]⟩ .f32) (C : ℕ)
    (hv : ∀ i, ∃ r : ℝ, vals i = (r : EReal)) (hr : ∀ i, 0 ≤ (rows i).toInt)
    (hc0 : ∀ i, 0 ≤ (cols i).toInt) (hc : ∀ i, (cols i).toInt < (C : ℤ)) :
    (Coo.of rows cols vals).Dom C where
  vals_real := fun k hk => by
    have hk' : k < K := hk
    show ∃ r : ℝ, ofVals vals k = (r : EReal)
    unfold ofVals
    rw [dif_pos hk']
    exact hv _
  rows_nonneg := fun k hk => by
    have hk' : k < K := hk
    show 0 ≤ ofInts rows k
    unfold ofInts
    rw [dif_pos hk']
    exact hr _
  cols_range := fun k hk => by
    have hk' : k < K := hk
    show 0 ≤ ofInts cols k ∧ ofInts cols k < (C : ℤ)
    unfold ofInts
    rw [dif_pos hk']
    exact ⟨hc0 _, hc _⟩

variable [Cert.Pre_finite_inputs.Facts]

/-- The printed precondition, all ones, gives the domain facts. -/
theorem dom_of_pre (a0 : FVec Ideal S8192x2048 .f32) (a1 a2 : IVec S8192 32) (a3 : FVec Ideal S8192 .f32) (a4 a5 : IVec S8192 32) (a6 : FVec Ideal S8192 .f32) (a7 a8 : IVec S8192 32) (a9 : FVec Ideal S8192 .f32) (a10 a11 : IVec S16384 32) (a12 : FVec Ideal S16384 .f32)
    (h : Cert.Pre_finite_inputs.fn (F := Ideal) a0 a1 a2 a3 a4 a5 a6 a7 a8 a9 a10 a11 a12 = (fun _ => 1#1)) :
    Dom a0 a1 a2 a3 a4 a5 a6 a7 a8 a9 a10 a11 a12 := by
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at e
  simp only [IntOp.andi_eq_one] at e
  obtain ⟨⟨⟨⟨⟨⟨⟨⟨⟨⟨⟨⟨⟨⟨⟨⟨t0, t3⟩, t6⟩, t9⟩, t12⟩, r1⟩, c2⟩, u2⟩, r4⟩, c5⟩, u5⟩, r7⟩, c8⟩, u8⟩, r10⟩, c11⟩, u11⟩ := e
  refine ⟨fun b f hb hf => ?_, ?_, ?_, ?_, ?_⟩
  · unfold ofArr
    rw [dif_pos ⟨hb, hf⟩]
    exact all_real_of a0 _ _ _ t0 _
  · exact coo_dom a1 a2 a3 2048 (all_real_of a3 _ _ _ t3) (all_sge_zero_of a1 _ _ _ r1) (all_sge_zero_of a2 _ _ _ c2)
      (all_slt_of a2 2048 (by norm_num) _ _ _ u2)
  · exact coo_dom a4 a5 a6 2560 (all_real_of a6 _ _ _ t6) (all_sge_zero_of a4 _ _ _ r4) (all_sge_zero_of a5 _ _ _ c5)
      (all_slt_of a5 2560 (by norm_num) _ _ _ u5)
  · exact coo_dom a7 a8 a9 3072 (all_real_of a9 _ _ _ t9) (all_sge_zero_of a7 _ _ _ r7) (all_sge_zero_of a8 _ _ _ c8)
      (all_slt_of a8 3072 (by norm_num) _ _ _ u8)
  · exact coo_dom a10 a11 a12 3584 (all_real_of a12 _ _ _ t12) (all_sge_zero_of a10 _ _ _ r10) (all_sge_zero_of a11 _ _ _ c11)
      (all_slt_of a11 3584 (by norm_num) _ _ _ u11)

end Cert.PreDom

end
-- ==== Proof.Ref.Level.lean ====
/-
  One level of the reference, read entry by entry, for any sizes.

  A level gathers whole columns of a matrix `h : [B, C]` (the start indices name the columns; a start index is read
  signed and clamped to `[0, C − 1]`, and inside that range the clamp is the identity), multiplies column `k` by the
  `k`-th value, and adds the products up by row with an accumulating scatter into a zero matrix `[R, B]`: update
  `(k, b)` lands at `(rows k, b)` when `0 ≤ rows k < R` and nowhere otherwise, so entry `(r, b)` of the result is
  the sum over the `k` with `rows k = r` of `h[b, cols k] · vals k`.  Read transposed, that is the sparse product
  `Spec.Coo.spmm`.  The result is appended to `h` as new columns (`Spec.hcat`), and a sparse product reads its matrix
  only below the width its columns are bounded by, so a chain of levels can be read on the coordinates inside.
-/
import Idealize.ShloMosaic.PureOps.Ideal
import Idealize.ShloMosaic.Lib.ValueIdx
import Idealize.ShloMosaic.Lib.Pipeline.Value
import proofs.«409427_j11175504904589_3_alg».proof.Proof.Spec

noncomputable section

namespace Cert.ReferenceIdeal.Hand

open Idealize.ShloMosaic Idealize.ShloMosaic.ValueIdx
open scoped BigOperators

variable {α : Type}
/-- The dimension numbers of a column gather: operand `[B, C]`, start indices `[K, 1]`, result `[B, K]`; whole
    columns (slice sizes `[B, 1]`), the column axis collapsed, the start index naming the column. -/
abbrev colDims (B C K : Nat)
    (wf : GatherDims.WF ⟨2, ![B, C]⟩ ⟨2, ![K, 1]⟩ ⟨2, ![B, K]⟩ [0] [1] [] [1] [] 1 ![B, 1]) :
    GatherDims ⟨2, ![B, C]⟩ ⟨2, ![K, 1]⟩ ⟨2, ![B, K]⟩ where
  offsetDims := [0]
  collapsedSliceDims := [1]
  operandBatchingDims := []
  startIndicesBatchingDims := []
  startIndexMap := [1]
  indexVectorDim := 1
  sliceSizes := ![B, 1]
  wf := wf

/-- The column gather at `(b, k)`: row `b` of the operand at the column the `k`-th start index names, read signed and
    clamped into `[0, C − 1]`. -/
theorem gather_col_apply {B C K w : Nat} (hC : 0 < C)
    (wf : GatherDims.WF ⟨2, ![B, C]⟩ ⟨2, ![K, 1]⟩ ⟨2, ![B, K]⟩ [0] [1] [] [1] [] 1 ![B, 1])
    (x : (⟨2, ![B, C]⟩ : Shape).Idx → α) (idx : IVec ⟨2, ![K, 1]⟩ w) (b : Fin B) (k : Fin K) :
    Host.gather (colDims B C K wf) x idx (ix2 b k)
      = x (ix2 b ⟨min (idx (ix2 k ⟨0, Nat.one_pos⟩)).toInt.toNat (C - 1), by omega⟩) := by
  unfold Host.gather
  congr 1
  funext a
  refine Fin.ext ?_
  show (colDims B C K wf).start (ix2 b k) idx a + (colDims B C K wf).batchCoord (ix2 b k) a + (colDims B C K wf).offCoord (ix2 b k) a = _
  rw [GatherDims.batchCoord_eq_zero _ _ _ List.not_mem_nil]
  match a with
  | ⟨0, _⟩ =>
    have h0 : (⟨0, by decide⟩ : Fin 2) ∉ (colDims B C K wf).startIndexMap :=
      show (⟨0, by decide⟩ : Fin 2) ∉ ([1] : List (Fin 2)) by decide
    have hk : (⟨0, by decide⟩ : Fin 2) ∈ (colDims B C K wf).sKept :=
      (GatherDims.mem_sKept _ _).2 ⟨show (⟨0, by decide⟩ : Fin 2) ∉ ([1] : List (Fin 2)) by decide, List.not_mem_nil⟩
    unfold GatherDims.start GatherDims.offCoord
    rw [dif_neg h0, dif_pos hk]
    simp only [Nat.zero_add]
    rfl
  | ⟨1, _⟩ =>
    have h1 : (⟨1, by decide⟩ : Fin 2) ∈ (colDims B C K wf).startIndexMap :=
      show (⟨1, by decide⟩ : Fin 2) ∈ ([1] : List (Fin 2)) by decide
    have hk : (⟨1, by decide⟩ : Fin 2) ∉ (colDims B C K wf).sKept := fun h =>
      ((GatherDims.mem_sKept _ _).1 h).1 (show (⟨1, by decide⟩ : Fin 2) ∈ ([1] : List (Fin 2)) by decide)
    rw [GatherDims.offCoord_eq_zero _ _ _ hk, Nat.add_zero]
    unfold GatherDims.start
    rw [dif_pos h1]
    have hsi : (colDims B C K wf).siIdx (ix2 b k) ⟨List.idxOf (⟨1, by decide⟩ : Fin 2) (colDims B C K wf).startIndexMap,
        List.idxOf_lt_length_iff.2 h1⟩ = ix2 k ⟨0, Nat.one_pos⟩ := by
      funext c; refine Fin.ext ?_
      match c with
      | ⟨0, _⟩ => rfl
      | ⟨1, _⟩ => rfl
    rw [hsi]
    rfl

/-- The dimension numbers of a row scatter: operand `[R, B]`, scatter indices `[K, 1]`, updates `[K, B]`; update `k`
    is a whole row (window axis 1), sent to the row its scatter index names (the row axis inserted). -/
abbrev rowDims (R B K : Nat)
    (wf : ScatterDims.WF ⟨2, ![R, B]⟩ ⟨2, ![K, 1]⟩ ⟨2, ![K, B]⟩ [1] [0] [0] 1) :
    ScatterDims ⟨2, ![R, B]⟩ ⟨2, ![K, 1]⟩ ⟨2, ![K, B]⟩ where
  updateWindowDims := [1]
  insertedWindowDims := [0]
  scatterDimsToOperandDims := [0]
  indexVectorDim := 1
  wf := wf

section RowScatter
variable {R B K w : Nat} (wf : ScatterDims.WF ⟨2, ![R, B]⟩ ⟨2, ![K, 1]⟩ ⟨2, ![K, B]⟩ [1] [0] [0] 1)
  (idx : IVec ⟨2, ![K, 1]⟩ w) (k : Fin K) (c : Fin B)

theorem rowDims_start0 :
    (rowDims R B K wf).start (ix2 k c) idx (⟨0, Nat.zero_lt_two⟩ : Fin 2) = (idx (ix2 k ⟨0, Nat.one_pos⟩)).toInt := by
  have h0 : (⟨0, Nat.zero_lt_two⟩ : Fin 2) ∈ (rowDims R B K wf).scatterDimsToOperandDims :=
    show (⟨0, Nat.zero_lt_two⟩ : Fin 2) ∈ ([0] : List (Fin 2)) by decide
  unfold ScatterDims.start
  rw [dif_pos h0]
  have hsi : (rowDims R B K wf).siIdx (ix2 k c) ⟨List.idxOf (⟨0, Nat.zero_lt_two⟩ : Fin 2) (rowDims R B K wf).scatterDimsToOperandDims,
      List.idxOf_lt_length_iff.2 h0⟩ = ix2 k ⟨0, Nat.one_pos⟩ := by
    funext a; refine Fin.ext ?_
    match a with
    | ⟨0, _⟩ => rfl
    | ⟨1, _⟩ => rfl
  rw [hsi]

theorem rowDims_start1 : (rowDims R B K wf).start (ix2 k c) idx (⟨1, Nat.one_lt_two⟩ : Fin 2) = 0 := by
  have h1 : (⟨1, Nat.one_lt_two⟩ : Fin 2) ∉ (rowDims R B K wf).scatterDimsToOperandDims :=
    show (⟨1, Nat.one_lt_two⟩ : Fin 2) ∉ ([0] : List (Fin 2)) by decide
  unfold ScatterDims.start
  rw [dif_neg h1]

theorem rowDims_window0 : (rowDims R B K wf).window (ix2 k c) (⟨0, Nat.zero_lt_two⟩ : Fin 2) = 0 := by
  have h0 : (⟨0, Nat.zero_lt_two⟩ : Fin 2) ∉ (rowDims R B K wf).sKept :=
    show (⟨0, Nat.zero_lt_two⟩ : Fin 2) ∉ ([1] : List (Fin 2)) by decide
  unfold ScatterDims.window
  rw [dif_neg h0]

theorem rowDims_window1 : (rowDims R B K wf).window (ix2 k c) (⟨1, Nat.one_lt_two⟩ : Fin 2) = c.val := by
  have h1 : (⟨1, Nat.one_lt_two⟩ : Fin 2) ∈ (rowDims R B K wf).sKept :=
    show (⟨1, Nat.one_lt_two⟩ : Fin 2) ∈ ([1] : List (Fin 2)) by decide
  unfold ScatterDims.window
  rw [dif_pos h1]
  rfl

/-- Update `(k, c)` lands at `(r, c')` exactly when its scatter index, read signed, is `r` and `c = c'`. -/
theorem rowDims_resultIdx_eq (r : Fin R) (c' : Fin B) :
    (rowDims R B K wf).resultIdx? (ix2 k c) idx = some (ix2 r c')
      ↔ (idx (ix2 k ⟨0, Nat.one_pos⟩)).toInt = (r.val : ℤ) ∧ c = c' := by
  have s0 := rowDims_start0 wf idx k c
  have s1 := rowDims_start1 wf idx k c
  have w0 := rowDims_window0 wf k c
  have w1 := rowDims_window1 wf k c
  unfold ScatterDims.resultIdx?
  split
  · next h =>
    rw [Option.some.injEq]
    constructor
    · intro e
      have e0 := congrArg (fun f => (f (⟨0, Nat.zero_lt_two⟩ : Fin 2)).val) e
      have e1 := congrArg (fun f => (f (⟨1, Nat.one_lt_two⟩ : Fin 2)).val) e
      simp only [s0, s1, w0, w1] at e0 e1
      have h0 := h (⟨0, Nat.zero_lt_two⟩ : Fin 2)
      rw [s0, w0] at h0
      refine ⟨?_, Fin.ext ?_⟩
      · have : ((idx (ix2 k ⟨0, Nat.one_pos⟩)).toInt + ((0 : ℕ) : ℤ)).toNat = r.val := e0
        omega
      · have : ((0 : ℤ) + (c.val : ℤ)).toNat = c'.val := e1
        omega
    · rintro ⟨hr, rfl⟩
      funext a; refine Fin.ext ?_
      match a with
      | ⟨0, _⟩ =>
        show ((rowDims R B K wf).start (ix2 k c) idx (⟨0, Nat.zero_lt_two⟩ : Fin 2) + ((rowDims R B K wf).window (ix2 k c) (⟨0, Nat.zero_lt_two⟩ : Fin 2) : ℤ)).toNat = r.val
        rw [s0, w0, hr]; simp
      | ⟨1, _⟩ =>
        show ((rowDims R B K wf).start (ix2 k c) idx (⟨1, Nat.one_lt_two⟩ : Fin 2) + ((rowDims R B K wf).window (ix2 k c) (⟨1, Nat.one_lt_two⟩ : Fin 2) : ℤ)).toNat = c.val
        rw [s1, w1]; simp
  · next h =>
    constructor
    · intro e; cases e
    · rintro ⟨hr, rfl⟩
      exfalso; apply h
      intro a
      match a with
      | ⟨0, _⟩ =>
        show 0 ≤ (rowDims R B K wf).start (ix2 k c) idx (⟨0, Nat.zero_lt_two⟩ : Fin 2) + ((rowDims R B K wf).window (ix2 k c) (⟨0, Nat.zero_lt_two⟩ : Fin 2) : ℤ) ∧ (rowDims R B K wf).start (ix2 k c) idx (⟨0, Nat.zero_lt_two⟩ : Fin 2) + ((rowDims R B K wf).window (ix2 k c) (⟨0, Nat.zero_lt_two⟩ : Fin 2) : ℤ) < (R : ℤ)
        rw [s0, w0, hr]; have := r.isLt; omega
      | ⟨1, _⟩ =>
        show 0 ≤ (rowDims R B K wf).start (ix2 k c) idx (⟨1, Nat.one_lt_two⟩ : Fin 2) + ((rowDims R B K wf).window (ix2 k c) (⟨1, Nat.one_lt_two⟩ : Fin 2) : ℤ) ∧ (rowDims R B K wf).start (ix2 k c) idx (⟨1, Nat.one_lt_two⟩ : Fin 2) + ((rowDims R B K wf).window (ix2 k c) (⟨1, Nat.one_lt_two⟩ : Fin 2) : ℤ) < (B : ℤ)
        rw [s1, w1]; have := c.isLt; omega

end RowScatter

section RowScatterSum
variable {R B K w : Nat} (wf : ScatterDims.WF ⟨2, ![R, B]⟩ ⟨2, ![K, 1]⟩ ⟨2, ![K, B]⟩ [1] [0] [0] 1)
  (idx : IVec ⟨2, ![K, 1]⟩ w)

/-- The accumulating row scatter at `(r, c)`: the operand's element plus the updates `(k, c)` over the `k` whose
    scatter index, read signed, is `r`. -/
theorem scatterAdd_row_apply (x : (⟨2, ![R, B]⟩ : Shape).Idx → EReal) (upd : (⟨2, ![K, B]⟩ : Shape).Idx → EReal)
    (r : Fin R) (c : Fin B) :
    Ideal.hostScatterAdd (rowDims R B K wf) x idx upd (ix2 r c)
      = x (ix2 r c) + ∑ k : Fin K, if (idx (ix2 k ⟨0, Nat.one_pos⟩)).toInt = (r.val : ℤ) then upd (ix2 k c) else 0 := by
  unfold Ideal.hostScatterAdd
  congr 1
  rw [Finset.sum_filter, sum_idx2]
  refine Finset.sum_congr rfl fun k _ => ?_
  simp only [rowDims_resultIdx_eq]
  by_cases hr : (idx (ix2 k ⟨0, Nat.one_pos⟩)).toInt = (r.val : ℤ)
  · simp only [hr, true_and, if_true]
    rw [Finset.sum_ite_eq' Finset.univ c (fun c' => upd (ix2 k c')), if_pos (Finset.mem_univ _)]
  · simp only [hr, false_and, if_false, Finset.sum_const_zero]

end RowScatterSum

open Cert.Spec

/-- An array read inside its shape. -/
theorem ofArr_of_lt {A B : Nat} (a : (⟨2, ![A, B]⟩ : Shape).Idx → EReal) {p q : ℕ} (hp : p < A) (hq : q < B) :
    ofArr a p q = a (ix2 ⟨p, hp⟩ ⟨q, hq⟩) := dif_pos ⟨hp, hq⟩

/-- A sparse product reads its matrix only at columns below the width the weight's columns are bounded by. -/
theorem spmm_congr (w : Coo) (C : ℕ) (hd : w.Dom C) (h h' : NMat) (b : ℕ) (hh : ∀ f, f < C → h b f = h' b f) (r : ℕ) :
    w.spmm h b r = w.spmm h' b r := by
  unfold Coo.spmm
  refine Finset.sum_congr rfl fun k hk => ?_
  have hk' := Finset.mem_range.1 hk
  have hc := hd.cols_range k hk'
  rw [hh _ (by omega)]

/-- A sparse product of a weight read off three arrays, as a sum over the arrays' positions. -/
theorem spmm_of_eq {K : Nat} (rows cols : IVec ⟨1, ![K]⟩ 32) (vals : (⟨1, ![K]⟩ : Shape).Idx → EReal) (h : NMat) (b r : ℕ) :
    (Coo.of rows cols vals).spmm h b r
      = ∑ k : Fin K, if (rows (ix1 k)).toInt = (r : ℤ) then h b (cols (ix1 k)).toInt.toNat * vals (ix1 k) else 0 := by
  unfold Coo.spmm Coo.of
  simp only
  rw [Finset.sum_range]
  refine Finset.sum_congr rfl fun k _ => ?_
  simp only [ofInts, ofVals, dif_pos k.isLt, Fin.eta]

/-- A signed compare with zero of a word that is not negative is the zero bit, so the select keeps the word. -/
theorem select_slt_zero_of_nonneg (x y : BitVec 32) (hx : 0 ≤ x.toInt) :
    Scalar.select (IntOp.cmpi .slt x 0#32) y x = x := by
  have hs : IntOp.cmpi .slt x 0#32 = 0#1 := by
    show BitVec.ofBool (x.slt 0#32) = 0#1
    have : x.slt 0#32 = false := by
      rw [BitVec.slt]; simp; omega
    rw [this]; rfl
  rw [hs]; exact select_zero _ _

/-- The column gather at `(b, k)` when the `k`-th start index, read signed, is a column `c` of the operand: the
    clamp is the identity. -/
theorem gather_col_apply_of_eq {B C K w : Nat}
    (wf : GatherDims.WF ⟨2, ![B, C]⟩ ⟨2, ![K, 1]⟩ ⟨2, ![B, K]⟩ [0] [1] [] [1] [] 1 ![B, 1])
    (x : (⟨2, ![B, C]⟩ : Shape).Idx → α) (idx : IVec ⟨2, ![K, 1]⟩ w) (b : Fin B) (k : Fin K)
    (c : ℕ) (hc : c < C) (hi : (idx (ix2 k ⟨0, Nat.one_pos⟩)).toInt = (c : ℤ)) :
    Host.gather (colDims B C K wf) x idx (ix2 b k) = x (ix2 b ⟨c, hc⟩) := by
  rw [gather_col_apply (by omega) wf x idx b k]
  have : (⟨min (idx (ix2 k ⟨0, Nat.one_pos⟩)).toInt.toNat (C - 1), by omega⟩ : Fin C) = ⟨c, hc⟩ :=
    Fin.ext (by show min (idx (ix2 k ⟨0, Nat.one_pos⟩)).toInt.toNat (C - 1) = c; omega)
  rw [this]

/-- ONE LEVEL, entry by entry.  The gathered columns (start indices the weight's columns, a negative one wrapped by
    `cw`: none is), times the values, added up by row into a zero matrix, read transposed: entry `(b, r)` is the
    sparse product of the weight with the matrix, triple by triple. -/
theorem level_read {B C K R : Nat}
    (gwf : GatherDims.WF ⟨2, ![B, C]⟩ ⟨2, ![K, 1]⟩ ⟨2, ![B, K]⟩ [0] [1] [] [1] [] 1 ![B, 1])
    (swf : ScatterDims.WF ⟨2, ![R, B]⟩ ⟨2, ![K, 1]⟩ ⟨2, ![K, B]⟩ [1] [0] [0] 1)
    (h : (⟨2, ![B, C]⟩ : Shape).Idx → EReal) (rows cols : IVec ⟨1, ![K]⟩ 32) (vals : (⟨1, ![K]⟩ : Shape).Idx → EReal)
    (hd : (Coo.of rows cols vals).Dom C) (cw : BitVec 32)
    (ci ri : IVec ⟨2, ![K, 1]⟩ 32)
    (hci : ∀ k : Fin K, ci (ix2 k ⟨0, Nat.one_pos⟩)
      = Scalar.select (IntOp.cmpi .slt (cols (ix1 k)) 0#32) (IntOp.addi (cols (ix1 k)) cw) (cols (ix1 k)))
    (hri : ∀ k : Fin K, ri (ix2 k ⟨0, Nat.one_pos⟩) = rows (ix1 k))
    (z : (⟨2, ![R, B]⟩ : Shape).Idx → EReal) (hz : ∀ i, z i = 0)
    (pt : (⟨2, ![K, B]⟩ : Shape).Idx → EReal)
    (hpt : ∀ (k : Fin K) (b : Fin B), pt (ix2 k b) = Host.gather (colDims B C K gwf) h ci (ix2 b k) * vals (ix1 k))
    (e : (⟨2, ![B, R]⟩ : Shape).Idx → EReal)
    (he : ∀ (b : Fin B) (r : Fin R), e (ix2 b r) = Ideal.hostScatterAdd (rowDims R B K swf) z ri pt (ix2 r b))
    (b r : ℕ) (hb : b < B) (hr : r < R) :
    ofArr e b r = (Coo.of rows cols vals).spmm (ofArr h) b r := by
  rw [ofArr_of_lt e hb hr, he, scatterAdd_row_apply, hz, zero_add, spmm_of_eq]
  refine Finset.sum_congr rfl fun k _ => ?_
  have hc := hd.cols_range k.val k.isLt
  have hcv : (Coo.of rows cols vals).cols k.val = (cols (ix1 k)).toInt := by
    show ofInts cols k.val = _
    simp only [ofInts, dif_pos k.isLt, Fin.eta]
  rw [hcv] at hc
  have hlt : (cols (ix1 k)).toInt.toNat < C := by omega
  have hci' : (ci (ix2 k ⟨0, Nat.one_pos⟩)).toInt = ((cols (ix1 k)).toInt.toNat : ℤ) := by
    rw [hci, select_slt_zero_of_nonneg _ _ hc.1]; omega
  rw [hri, hpt, gather_col_apply_of_eq gwf h ci ⟨b, hb⟩ k _ hlt hci', ofArr_of_lt h hb hlt]

/-- A concatenation along the columns, read at natural coordinates inside it: the first piece's columns, then the
    second's. -/
theorem ofArr_concat {B A E T : Nat} (hT : A + E = T)
    (hc : Shape.Concatenates [(⟨2, ![B, A]⟩ : Shape), ⟨2, ![B, E]⟩] ⟨2, ![B, T]⟩ (1 : Fin 2))
    (x : (⟨2, ![B, A]⟩ : Shape).Idx → EReal) (y : (⟨2, ![B, E]⟩ : Shape).Idx → EReal) (b f : ℕ) (hb : b < B) (hf : f < T) :
    ofArr (concatenate ⟨2, ![B, T]⟩ (1 : Fin 2) [⟨⟨2, ![B, A]⟩, x⟩, ⟨⟨2, ![B, E]⟩, y⟩] hc) b f
      = hcat A (ofArr x) (ofArr y) b f := by
  rw [ofArr_of_lt _ hb hf]
  unfold hcat
  by_cases hfa : f < A
  · rw [if_pos hfa, ofArr_of_lt x hb hfa]
    exact concatenate_pair_apply_left (t := ⟨2, ![B, T]⟩) (s₁ := ⟨2, ![B, A]⟩) (s₂ := ⟨2, ![B, E]⟩) (1 : Fin 2) x y hc
      (ix2 ⟨b, hb⟩ ⟨f, hf⟩) rfl (ix2 ⟨b, hb⟩ ⟨f, hfa⟩) (fun a => match a with | ⟨0, _⟩ => rfl | ⟨1, _⟩ => rfl)
  · rw [if_neg hfa, ofArr_of_lt y hb (show f - A < E by omega)]
    exact concatenate_pair_apply_right (t := ⟨2, ![B, T]⟩) (s₁ := ⟨2, ![B, A]⟩) (s₂ := ⟨2, ![B, E]⟩) (1 : Fin 2) x y hc
      (ix2 ⟨b, hb⟩ ⟨f, hf⟩) rfl rfl (ix2 ⟨b, hb⟩ ⟨f - A, by omega⟩)
      (fun a ha => match a, ha with | ⟨0, _⟩, _ => rfl | ⟨1, _⟩, ha => absurd rfl ha)
      (by show (f - A) + A = f; omega)

/-- ONE LEVEL APPENDED.  If the running array reads as `hN` inside its shape and the level's result is the sparse
    product with the running array, the concatenation reads inside its shape as `hN` with the sparse product of `hN`
    appended. -/
theorem append_read {B C R T : Nat} (hT : C + R = T)
    (hcc : Shape.Concatenates [(⟨2, ![B, C]⟩ : Shape), ⟨2, ![B, R]⟩] ⟨2, ![B, T]⟩ (1 : Fin 2))
    (hArr : (⟨2, ![B, C]⟩ : Shape).Idx → EReal) (e : (⟨2, ![B, R]⟩ : Shape).Idx → EReal)
    (w : Coo) (hd : w.Dom C) (hN : NMat)
    (H : ∀ b f, b < B → f < C → ofArr hArr b f = hN b f)
    (L : ∀ b r, b < B → r < R → ofArr e b r = w.spmm (ofArr hArr) b r)
    (b f : ℕ) (hb : b < B) (hf : f < T) :
    ofArr (concatenate ⟨2, ![B, T]⟩ (1 : Fin 2) [⟨⟨2, ![B, C]⟩, hArr⟩, ⟨⟨2, ![B, R]⟩, e⟩] hcc) b f
      = hcat C hN (w.spmm hN) b f := by
  rw [ofArr_concat hT hcc hArr e b f hb hf]
  unfold hcat
  by_cases hfc : f < C
  · rw [if_pos hfc, if_pos hfc]; exact H b f hb hfc
  · rw [if_neg hfc, if_neg hfc, L b (f - C) hb (by omega)]
    exact spmm_congr w C hd _ _ b (fun f' hf' => H b f' hb hf') _

end Cert.ReferenceIdeal.Hand

end
-- ==== Proof.RefVal.lean ====
/-
  The reference's result, at Ideal, on arrays in the precondition's domain: each level gathers the columns its
  triples name (inside the matrix, so the gather's clamp is the identity and no negative index is wrapped),
  multiplies by the values, and adds the products up by row (a scatter-add into a zero matrix: a triple whose
  row is too large is dropped and matches no row); the result is appended as new columns; the last weight gives
  the output.  Read at an index, this is the chain of sparse products over natural coordinates.

  Each of the four levels is the size-generic level of Ref/Level.lean at its own stages of the reference: the start
  indices are the weight's columns behind a select on their sign, the scatter indices its rows, the zero matrix
  the broadcast zero word, the updates the gathered columns times the broadcast values, transposed.  The running
  array agrees, inside its shape, with the specification's running matrix; a sparse product reads nothing else.
-/
import proofs.«409427_j11175504904589_3_alg».proof.Proof.Ref.RunH
import proofs.«409427_j11175504904589_3_alg».proof.Proof.Ref.ReadP
import proofs.«409427_j11175504904589_3_alg».proof.Proof.Spec
import proofs.«409427_j11175504904589_3_alg».proof.Proof.PreDom
import proofs.«409427_j11175504904589_3_alg».proof.Proof.LibIdealFinite
import proofs.«409427_j11175504904589_3_alg».proof.Proof.Ref.Level

noncomputable section

namespace Cert.ReferenceIdeal.Hand

open Idealize.ShloMosaic Idealize.ShloMosaic.TcCoe Idealize.SL.Sem Idealize.ShloMosaic.ValueIdx
open Cert.ReferenceIdeal Cert.ReferenceIdeal.ReadP Cert.Spec

/-- The 32-bit float zero word is the extended real zero. -/
theorem zero_word : FloatOps.ofBits (F := Ideal) .f32 0x00000000#32 = (0 : EReal) :=
  IdealFinite.ofBits_00000000.trans EReal.coe_zero

/-- The first level's result, inside its shape, is the sparse product of the first weight with `x`. -/
theorem lvl0 (x0 : FVec Ideal S8192x2048 .f32) (x1 x2 : IVec S8192 32) (x3 : FVec Ideal S8192 .f32)
    (hd : (Coo.of (K := 8192) x1 x2 x3).Dom 2048) (b r : ℕ) (hb : b < 8192) (hr : r < 512) :
    ofArr (A := 8192) (B := 512) (val_main_v14 (F := Ideal) x0 x1 x2 x3) b r
      = (Coo.of (K := 8192) x1 x2 x3).spmm (ofArr (A := 8192) (B := 2048) x0) b r :=
  level_read (B := 8192) (C := 2048) (K := 8192) (R := 512)
    Gen.gather_S8192x2048_S8192x1_S8192x8192_0_1_n_n_1_1_81921_wf Gen.scatter_S512x8192_S8192x1_S8192x8192_1_0_0_1_wf
    x0 x1 x2 x3 hd 2048#32 (val_main_v5 (F := Ideal) x2) (val_main_v12 (F := Ideal) x1)
    (fun k => by
      have e1 : idx_main_v5 (ix2 k ⟨0, Nat.one_pos⟩) = ix1 k := eq_ix1 _
      rw [val_main_v5_apply, e1, val_main_v4_apply, val_main_v1_apply, val_main_v3_apply, val_main_v0_apply,
        val_main_c_apply, val_main_v2_apply, val_main_c_0_apply])
    (fun k => by
      have e1 : idx_main_v12 (ix2 k ⟨0, Nat.one_pos⟩) = ix1 k := eq_ix1 _
      rw [val_main_v12_apply, e1])
    (val_main_v11 (F := Ideal)) (fun i => by rw [val_main_v11_apply, val_main_cst_apply]; exact zero_word)
    (val_main_v10 (F := Ideal) x0 x2 x3)
    (fun k b => by
      have e1 : idx_main_v10 (ix2 k b) = ix2 b k := eq_ix2 _
      have e2 : idx_main_v7 (idx_main_v8 (ix2 b k)) = ix1 k := eq_ix1 _
      rw [val_main_v10_apply, e1, val_main_v9_apply, val_main_v8_apply, val_main_v7_apply, e2]
      rfl)
    (val_main_v14 (F := Ideal) x0 x1 x2 x3)
    (fun b r => by
      have e1 : idx_main_v14 (ix2 b r) = ix2 r b := eq_ix2 _
      rw [val_main_v14_apply, e1]; rfl)
    b r hb hr

/-- The second level's result, inside its shape, is the sparse product of the second weight with the array the first
    level left (`x` with the first level's result appended). -/
theorem lvl1 (x0 : FVec Ideal S8192x2048 .f32) (x1 x2 : IVec S8192 32) (x3 : FVec Ideal S8192 .f32)
    (x4 x5 : IVec S8192 32) (x6 : FVec Ideal S8192 .f32)
    (hd : (Coo.of (K := 8192) x4 x5 x6).Dom 2560) (b r : ℕ) (hb : b < 8192) (hr : r < 512) :
    ofArr (A := 8192) (B := 512) (val_main_v30 (F := Ideal) x0 x1 x2 x3 x4 x5 x6) b r
      = (Coo.of (K := 8192) x4 x5 x6).spmm (ofArr (A := 8192) (B := 2560) (val_main_v15 (F := Ideal) x0 x1 x2 x3)) b r :=
  level_read (B := 8192) (C := 2560) (K := 8192) (R := 512)
    Gen.gather_S8192x2560_S8192x1_S8192x8192_0_1_n_n_1_1_81921_wf Gen.scatter_S512x8192_S8192x1_S8192x8192_1_0_0_1_wf
    (val_main_v15 (F := Ideal) x0 x1 x2 x3) x4 x5 x6 hd 2560#32 (val_main_v21 (F := Ideal) x5) (val_main_v28 (F := Ideal) x4)
    (fun k => by
      have e1 : idx_main_v21 (ix2 k ⟨0, Nat.one_pos⟩) = ix1 k := eq_ix1 _
      rw [val_main_v21_apply, e1, val_main_v20_apply, val_main_v17_apply, val_main_v19_apply, val_main_v16_apply,
        val_main_c_1_apply, val_main_v18_apply, val_main_c_2_apply])
    (fun k => by
      have e1 : idx_main_v28 (ix2 k ⟨0, Nat.one_pos⟩) = ix1 k := eq_ix1 _
      rw [val_main_v28_apply, e1])
    (val_main_v27 (F := Ideal)) (fun i => by rw [val_main_v27_apply, val_main_cst_3_apply]; exact zero_word)
    (val_main_v26 (F := Ideal) x0 x1 x2 x3 x5 x6)
    (fun k b => by
      have e1 : idx_main_v26 (ix2 k b) = ix2 b k := eq_ix2 _
      have e2 : idx_main_v23 (idx_main_v24 (ix2 b k)) = ix1 k := eq_ix1 _
      rw [val_main_v26_apply, e1, val_main_v25_apply, val_main_v24_apply, val_main_v23_apply, e2]
      rfl)
    (val_main_v30 (F := Ideal) x0 x1 x2 x3 x4 x5 x6)
    (fun b r => by
      have e1 : idx_main_v30 (ix2 b r) = ix2 r b := eq_ix2 _
      rw [val_main_v30_apply, e1]; rfl)
    b r hb hr

/-- The third level's result, inside its shape, is the sparse product of the third weight with the array the second
    level left. -/
theorem lvl2 (x0 : FVec Ideal S8192x2048 .f32) (x1 x2 : IVec S8192 32) (x3 : FVec Ideal S8192 .f32)
    (x4 x5 : IVec S8192 32) (x6 : FVec Ideal S8192 .f32) (x7 x8 : IVec S8192 32) (x9 : FVec Ideal S8192 .f32)
    (hd : (Coo.of (K := 8192) x7 x8 x9).Dom 3072) (b r : ℕ) (hb : b < 8192) (hr : r < 512) :
    ofArr (A := 8192) (B := 512) (val_main_v46 (F := Ideal) x0 x1 x2 x3 x4 x5 x6 x7 x8 x9) b r
      = (Coo.of (K := 8192) x7 x8 x9).spmm
          (ofArr (A := 8192) (B := 3072) (val_main_v31 (F := Ideal) x0 x1 x2 x3 x4 x5 x6)) b r :=
  level_read (B := 8192) (C := 3072) (K := 8192) (R := 512)
    Gen.gather_S8192x3072_S8192x1_S8192x8192_0_1_n_n_1_1_81921_wf Gen.scatter_S512x8192_S8192x1_S8192x8192_1_0_0_1_wf
    (val_main_v31 (F := Ideal) x0 x1 x2 x3 x4 x5 x6) x7 x8 x9 hd 3072#32 (val_main_v37 (F := Ideal) x8)
    (val_main_v44 (F := Ideal) x7)
    (fun k => by
      have e1 : idx_main_v37 (ix2 k ⟨0, Nat.one_pos⟩) = ix1 k := eq_ix1 _
      rw [val_main_v37_apply, e1, val_main_v36_apply, val_main_v33_apply, val_main_v35_apply, val_main_v32_apply,
        val_main_c_4_apply, val_main_v34_apply, val_main_c_5_apply])
    (fun k => by
      have e1 : idx_main_v44 (ix2 k ⟨0, Nat.one_pos⟩) = ix1 k := eq_ix1 _
      rw [val_main_v44_apply, e1])
    (val_main_v43 (F := Ideal)) (fun i => by rw [val_main_v43_apply, val_main_cst_6_apply]; exact zero_word)
    (val_main_v42 (F := Ideal) x0 x1 x2 x3 x4 x5 x6 x8 x9)
    (fun k b => by
      have e1 : idx_main_v42 (ix2 k b) = ix2 b k := eq_ix2 _
      have e2 : idx_main_v39 (idx_main_v40 (ix2 b k)) = ix1 k := eq_ix1 _
      rw [val_main_v42_apply, e1, val_main_v41_apply, val_main_v40_apply, val_main_v39_apply, e2]
      rfl)
    (val_main_v46 (F := Ideal) x0 x1 x2 x3 x4 x5 x6 x7 x8 x9)
    (fun b r => by
      have e1 : idx_main_v46 (ix2 b r) = ix2 r b := eq_ix2 _
      rw [val_main_v46_apply, e1]; rfl)
    b r hb hr

/-- The output, inside its shape, is the sparse product of the last weight with the array the third level left. -/
theorem lvl3 (x0 : FVec Ideal S8192x2048 .f32) (x1 x2 : IVec S8192 32) (x3 : FVec Ideal S8192 .f32)
    (x4 x5 : IVec S8192 32) (x6 : FVec Ideal S8192 .f32) (x7 x8 : IVec S8192 32) (x9 : FVec Ideal S8192 .f32)
    (x10 x11 : IVec S16384 32) (x12 : FVec Ideal S16384 .f32)
    (hd : (Coo.of (K := 16384) x10 x11 x12).Dom 3584) (b r : ℕ) (hb : b < 8192) (hr : r < 2048) :
    ofArr (A := 8192) (B := 2048) (val_main_v62 (F := Ideal) x0 x1 x2 x3 x4 x5 x6 x7 x8 x9 x10 x11 x12) b r
      = (Coo.of (K := 16384) x10 x11 x12).spmm
          (ofArr (A := 8192) (B := 3584) (val_main_v47 (F := Ideal) x0 x1 x2 x3 x4 x5 x6 x7 x8 x9)) b r :=
  level_read (B := 8192) (C := 3584) (K := 16384) (R := 2048)
    Gen.gather_S8192x3584_S16384x1_S8192x16384_0_1_n_n_1_1_81921_wf Gen.scatter_S2048x8192_S16384x1_S16384x8192_1_0_0_1_wf
    (val_main_v47 (F := Ideal) x0 x1 x2 x3 x4 x5 x6 x7 x8 x9) x10 x11 x12 hd 3584#32 (val_main_v53 (F := Ideal) x11)
    (val_main_v60 (F := Ideal) x10)
    (fun k => by
      have e1 : idx_main_v53 (ix2 k ⟨0, Nat.one_pos⟩) = ix1 k := eq_ix1 _
      rw [val_main_v53_apply, e1, val_main_v52_apply, val_main_v49_apply, val_main_v51_apply, val_main_v48_apply,
        val_main_c_7_apply, val_main_v50_apply, val_main_c_8_apply])
    (fun k => by
      have e1 : idx_main_v60 (ix2 k ⟨0, Nat.one_pos⟩) = ix1 k := eq_ix1 _
      rw [val_main_v60_apply, e1])
    (val_main_v59 (F := Ideal)) (fun i => by rw [val_main_v59_apply, val_main_cst_9_apply]; exact zero_word)
    (val_main_v58 (F := Ideal) x0 x1 x2 x3 x4 x5 x6 x7 x8 x9 x11 x12)
    (fun k b => by
      have e1 : idx_main_v58 (ix2 k b) = ix2 b k := eq_ix2 _
      have e2 : idx_main_v55 (idx_main_v56 (ix2 b k)) = ix1 k := eq_ix1 _
      rw [val_main_v58_apply, e1, val_main_v57_apply, val_main_v56_apply, val_main_v55_apply, e2]
      rfl)
    (val_main_v62 (F := Ideal) x0 x1 x2 x3 x4 x5 x6 x7 x8 x9 x10 x11 x12)
    (fun b r => by
      have e1 : idx_main_v62 (ix2 b r) = ix2 r b := eq_ix2 _
      rw [val_main_v62_apply, e1]; rfl)
    b r hb hr

/-- THE CHAIN.  On arrays in the domain the output stage, inside its shape, is the specification's chain of sparse
    products: each running array agrees inside its shape with the specification's running matrix, and each sparse
    product reads its matrix only there. -/
theorem out_read (x0 : FVec Ideal S8192x2048 .f32) (x1 x2 : IVec S8192 32) (x3 : FVec Ideal S8192 .f32)
    (x4 x5 : IVec S8192 32) (x6 : FVec Ideal S8192 .f32) (x7 x8 : IVec S8192 32) (x9 : FVec Ideal S8192 .f32)
    (x10 x11 : IVec S16384 32) (x12 : FVec Ideal S16384 .f32)
    (hd : Cert.PreDom.Dom x0 x1 x2 x3 x4 x5 x6 x7 x8 x9 x10 x11 x12) (b r : ℕ) (hb : b < 8192) (hr : r < 2048) :
    ofArr (A := 8192) (B := 2048) (val_main_v62 (F := Ideal) x0 x1 x2 x3 x4 x5 x6 x7 x8 x9 x10 x11 x12) b r
      = refOut (ofArr (A := 8192) (B := 2048) x0) (Coo.of (K := 8192) x1 x2 x3) (Coo.of (K := 8192) x4 x5 x6)
          (Coo.of (K := 8192) x7 x8 x9) (Coo.of (K := 16384) x10 x11 x12) b r := by
  have H1 : ∀ b f, b < 8192 → f < 2560 →
      ofArr (A := 8192) (B := 2560) (val_main_v15 (F := Ideal) x0 x1 x2 x3) b f
        = hcat 2048 (ofArr (A := 8192) (B := 2048) x0)
            ((Coo.of (K := 8192) x1 x2 x3).spmm (ofArr (A := 8192) (B := 2048) x0)) b f := fun b f hb hf => by
    unfold val_main_v15
    exact append_read (B := 8192) (C := 2048) (R := 512) (T := 2560) rfl
      Gen.concatenates_S8192x2048_S8192x512_S8192x2560_d1 x0 (val_main_v14 (F := Ideal) x0 x1 x2 x3)
      (Coo.of (K := 8192) x1 x2 x3) hd.d0 _ (fun _ _ _ _ => rfl) (lvl0 x0 x1 x2 x3 hd.d0) b f hb hf
  have H2 : ∀ b f, b < 8192 → f < 3072 →
      ofArr (A := 8192) (B := 3072) (val_main_v31 (F := Ideal) x0 x1 x2 x3 x4 x5 x6) b f
        = hcat 2560 _ ((Coo.of (K := 8192) x4 x5 x6).spmm _) b f := fun b f hb hf => by
    unfold val_main_v31
    exact append_read (B := 8192) (C := 2560) (R := 512) (T := 3072) rfl
      Gen.concatenates_S8192x2560_S8192x512_S8192x3072_d1 (val_main_v15 (F := Ideal) x0 x1 x2 x3)
      (val_main_v30 (F := Ideal) x0 x1 x2 x3 x4 x5 x6) (Coo.of (K := 8192) x4 x5 x6) hd.d1 _ H1
      (lvl1 x0 x1 x2 x3 x4 x5 x6 hd.d1) b f hb hf
  have H3 : ∀ b f, b < 8192 → f < 3584 →
      ofArr (A := 8192) (B := 3584) (val_main_v47 (F := Ideal) x0 x1 x2 x3 x4 x5 x6 x7 x8 x9) b f
        = hcat 3072 _ ((Coo.of (K := 8192) x7 x8 x9).spmm _) b f := fun b f hb hf => by
    unfold val_main_v47
    exact append_read (B := 8192) (C := 3072) (R := 512) (T := 3584) rfl
      Gen.concatenates_S8192x3072_S8192x512_S8192x3584_d1 (val_main_v31 (F := Ideal) x0 x1 x2 x3 x4 x5 x6)
      (val_main_v46 (F := Ideal) x0 x1 x2 x3 x4 x5 x6 x7 x8 x9) (Coo.of (K := 8192) x7 x8 x9) hd.d2 _ H2
      (lvl2 x0 x1 x2 x3 x4 x5 x6 x7 x8 x9 hd.d2) b f hb hf
  rw [lvl3 x0 x1 x2 x3 x4 x5 x6 x7 x8 x9 x10 x11 x12 hd.dm b r hb hr]
  exact spmm_congr (Coo.of (K := 16384) x10 x11 x12) 3584 hd.dm _ _ b (fun f hf => H3 b f hb hf) r

variable (m : (ℓ : Loc nD τ sig) → Buf (Elt Ideal) ℓ) (ρ : Dev nD → PrngReg)

/-- Core `c`'s contents of a TensorCore buffer at the launch. -/
abbrev A (c : Dev nD) (b : Ref sig .tc) : Buf (Elt Ideal) ((c.tc : Thread nD τ).loc b) := m ((c.tc : Thread nD τ).loc b)

/-- The last stage of the argument arrays is the array of the chain of sparse products. -/
theorem value_eq (c : Dev nD)
    (hd : Cert.PreDom.Dom (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12)) :
    val_main_v62 (F := Ideal) (A m c main_arg0) (A m c main_arg1) (A m c main_arg2) (A m c main_arg3) (A m c main_arg4)
        (A m c main_arg5) (A m c main_arg6) (A m c main_arg7) (A m c main_arg8) (A m c main_arg9) (A m c main_arg10)
        (A m c main_arg11) (A m c main_arg12)
      = Spec.toArr 8192 2048 (Spec.refOut (Spec.ofArr (A := 8192) (B := 2048) (A m c main_arg0))
          (Spec.Coo.of (K := 8192) (A m c main_arg1) (A m c main_arg2) (A m c main_arg3))
          (Spec.Coo.of (K := 8192) (A m c main_arg4) (A m c main_arg5) (A m c main_arg6))
          (Spec.Coo.of (K := 8192) (A m c main_arg7) (A m c main_arg8) (A m c main_arg9))
          (Spec.Coo.of (K := 16384) (A m c main_arg10) (A m c main_arg11) (A m c main_arg12))) := by
  funext j
  obtain ⟨p, q, rfl⟩ : ∃ p q, j = ix2 p q := ⟨j 0, j 1, eq_ix2 j⟩
  have h := out_read (A m c main_arg0) (A m c main_arg1) (A m c main_arg2) (A m c main_arg3) (A m c main_arg4)
    (A m c main_arg5) (A m c main_arg6) (A m c main_arg7) (A m c main_arg8) (A m c main_arg9) (A m c main_arg10)
    (A m c main_arg11) (A m c main_arg12) hd p.val q.val p.isLt q.isLt
  rw [ofArr_of_lt _ p.isLt q.isLt] at h
  exact h

/-- On arrays in the domain, every weakly fair execution of the reference ends with its result at the chain of sparse
    products of the argument arrays, and the argument arrays unchanged. -/
theorem ref_value (hdom : ∀ c : Dev nD, Cert.PreDom.Dom (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12)) :
    θ_run (defs (F := Ideal)) (onTc (τ := τ) (main (F := Ideal))) ⟨m, fun _ => 0, ρ⟩ (fun r => ∀ c : Dev nD,
        r.2.mem ((c.tc : Thread nD τ).loc main_v62)
          = Spec.toArr 8192 2048 (Spec.refOut (Spec.ofArr (A := 8192) (B := 2048) (A m c main_arg0))
              (Spec.Coo.of (K := 8192) (A m c main_arg1) (A m c main_arg2) (A m c main_arg3))
              (Spec.Coo.of (K := 8192) (A m c main_arg4) (A m c main_arg5) (A m c main_arg6))
              (Spec.Coo.of (K := 8192) (A m c main_arg7) (A m c main_arg8) (A m c main_arg9))
              (Spec.Coo.of (K := 16384) (A m c main_arg10) (A m c main_arg11) (A m c main_arg12)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) :=
  (θ_run (defs (F := Ideal)) _ _).mono
    (fun _ h c => ⟨(h c).1.trans (value_eq m c (hdom c)), (h c).2⟩)
    (run (F := Ideal) m ρ)

end Cert.ReferenceIdeal.Hand

end
-- ==== Proof.SpecLaw.lean ====
/-
  The law that joins the two programs: multiplying by a dense transpose is the sparse product.

  For a feature row `h[b, ·]` of real numbers and a sparse weight whose columns lie inside `[0, C)`,
  `∑_{f < C} h[b, f] · Wᵀ[f, r] = ∑_{f < C} ∑_k [col k = f ∧ row k = r] h[b, f] · val k
                              = ∑_k [row k = r] h[b, col k] · val k`,
  by distributing the product over the inner sum, exchanging the two finite sums and collapsing the
  sum over `f` at the one column `f = col k`; all of it in the reals, where every entry lives.
  Appending columns to `h` splits the outer sum at the old width, which is how the kernel's wide product
  against the first 2048 rows and its corrections against the later rows add up to the reference's levels.
-/
import proofs.«409427_j11175504904589_3_alg».proof.Proof.Spec
import proofs.«409427_j11175504904589_3_alg».proof.Proof.LibIdealFinite

noncomputable section

namespace Cert.Spec

open scoped BigOperators
open IdealFinite (IsFin)

/-! ### One level, in the reals -/

/-- Distribute, exchange the two sums, and collapse the sum over the columns at `f = col k`. -/
theorem real_law (K C : ℕ) (rows cols : ℕ → ℤ) (gr vr : ℕ → ℝ)
    (hc : ∀ k, k < K → 0 ≤ cols k ∧ cols k < (C : ℤ)) (r : ℕ) :
    (∑ f ∈ Finset.range C, gr f * ∑ k ∈ Finset.range K,
        if cols k = (f : ℤ) ∧ rows k = (r : ℤ) then vr k else 0)
      = ∑ k ∈ Finset.range K, if rows k = (r : ℤ) then gr (cols k).toNat * vr k else 0 := by
  simp only [Finset.mul_sum, mul_ite, mul_zero]
  rw [Finset.sum_comm]
  refine Finset.sum_congr rfl fun k hk => ?_
  obtain ⟨c0, c1⟩ := hc k (Finset.mem_range.mp hk)
  by_cases hr : rows k = (r : ℤ)
  · rw [if_pos hr, Finset.sum_eq_single_of_mem (cols k).toNat (Finset.mem_range.mpr (by omega))]
    · rw [if_pos ⟨by omega, hr⟩]
    · intro f _ hne
      refine if_neg ?_
      rintro ⟨h, -⟩
      exact hne (by omega)
  · rw [if_neg hr]
    exact Finset.sum_eq_zero fun f _ => if_neg fun h => hr h.2

/-! ### One level, in the extended reals, on real entries -/

/-- The product of a real row with the dense transpose is the sparse product, triple by triple. -/
theorem sum_dense_eq (w : Coo) (C : ℕ) (hw : w.Dom C) (g : ℕ → EReal)
    (hg : ∀ f, f < C → IsFin (g f)) (r : ℕ) :
    (∑ f ∈ Finset.range C, g f * w.dense f r)
      = ∑ k ∈ Finset.range w.K, if w.rows k = (r : ℤ) then g (w.cols k).toNat * w.vals k else 0 := by
  have hg' : ∀ f, ∃ a : ℝ, f < C → g f = (a : EReal) := fun f => by
    by_cases hf : f < C
    · obtain ⟨a, ha⟩ := hg f hf
      exact ⟨a, fun _ => ha⟩
    · exact ⟨0, fun h => absurd h hf⟩
  choose gr hgr using hg'
  have hv' : ∀ k, ∃ a : ℝ, k < w.K → w.vals k = (a : EReal) := fun k => by
    by_cases hk : k < w.K
    · obtain ⟨a, ha⟩ := hw.vals_real k hk
      exact ⟨a, fun _ => ha⟩
    · exact ⟨0, fun h => absurd h hk⟩
  choose vr hvr using hv'
  have hL : (∑ f ∈ Finset.range C, g f * w.dense f r)
      = ((∑ f ∈ Finset.range C, gr f * ∑ k ∈ Finset.range w.K,
          if w.cols k = (f : ℤ) ∧ w.rows k = (r : ℤ) then vr k else 0 : ℝ) : EReal) := by
    rw [IdealFinite.coe_finset_sum]
    refine Finset.sum_congr rfl fun f hf => ?_
    have hd : w.dense f r = ((∑ k ∈ Finset.range w.K,
          if w.cols k = (f : ℤ) ∧ w.rows k = (r : ℤ) then vr k else 0 : ℝ) : EReal) := by
      rw [IdealFinite.coe_finset_sum]
      show (∑ k ∈ Finset.range w.K, if w.cols k = (f : ℤ) ∧ w.rows k = (r : ℤ) then w.vals k else 0) = _
      refine Finset.sum_congr rfl fun k hk => ?_
      split_ifs
      · exact hvr k (Finset.mem_range.mp hk)
      · exact EReal.coe_zero.symm
    rw [hd, hgr f (Finset.mem_range.mp hf), EReal.coe_mul]
  have hR : (∑ k ∈ Finset.range w.K,
        if w.rows k = (r : ℤ) then g (w.cols k).toNat * w.vals k else 0)
      = ((∑ k ∈ Finset.range w.K,
          if w.rows k = (r : ℤ) then gr (w.cols k).toNat * vr k else 0 : ℝ) : EReal) := by
    rw [IdealFinite.coe_finset_sum]
    refine Finset.sum_congr rfl fun k hk => ?_
    have hk' := Finset.mem_range.mp hk
    obtain ⟨c0, c1⟩ := hw.cols_range k hk'
    split_ifs
    · rw [hgr (w.cols k).toNat (by omega), hvr k hk', EReal.coe_mul]
    · exact EReal.coe_zero.symm
  rw [hL, hR, real_law w.K C w.rows w.cols gr vr hw.cols_range r]

/-- A sparse product of a real row with real values is real. -/
theorem isFin_spmm (w : Coo) (C : ℕ) (hw : w.Dom C) (h : NMat) (b : ℕ)
    (hh : ∀ f, f < C → IsFin (h b f)) (r : ℕ) : IsFin (w.spmm h b r) := by
  show IsFin (∑ k ∈ Finset.range w.K,
    if w.rows k = (r : ℤ) then h b (w.cols k).toNat * w.vals k else 0)
  refine IdealFinite.isFin_sum _ _ fun k hk => ?_
  have hk' := Finset.mem_range.mp hk
  obtain ⟨c0, c1⟩ := hw.cols_range k hk'
  split_ifs
  · obtain ⟨a, ha⟩ := hh (w.cols k).toNat (by omega)
    obtain ⟨v, hv⟩ := hw.vals_real k hk'
    exact ⟨a * v, by rw [ha, hv, EReal.coe_mul]⟩
  · exact ⟨0, EReal.coe_zero.symm⟩

/-- The sparse product is the ordinary product with the dense transpose. -/
theorem spmm_eq_mm (w : Coo) (C : ℕ) (hw : w.Dom C) (h : NMat) (b : ℕ)
    (hh : ∀ f, f < C → IsFin (h b f)) (r : ℕ) : w.spmm h b r = mm C h w.dense b r :=
  (sum_dense_eq w C hw (h b) hh r).symm

/-! ### Appended columns -/

theorem hcat_lt (A : ℕ) (h e : NMat) (b f : ℕ) (hf : f < A) : hcat A h e b f = h b f :=
  if_pos hf

theorem hcat_ge (A : ℕ) (h e : NMat) (b f : ℕ) (hf : A ≤ f) : hcat A h e b f = e b (f - A) :=
  if_neg (not_lt.mpr hf)

theorem hcat_add (A : ℕ) (h e : NMat) (b i : ℕ) : hcat A h e b (A + i) = e b i := by
  rw [hcat_ge A h e b (A + i) (Nat.le_add_right A i), Nat.add_sub_cancel_left]

theorem isFin_hcat (A B : ℕ) (h e : NMat) (b : ℕ) (hh : ∀ f, f < A → IsFin (h b f))
    (he : ∀ i, i < B → IsFin (e b i)) (f : ℕ) (hf : f < A + B) : IsFin (hcat A h e b f) := by
  by_cases c : f < A
  · rw [hcat_lt A h e b f c]
    exact hh f c
  · rw [hcat_ge A h e b f (not_lt.mp c)]
    exact he (f - A) (by omega)

/-- One level: the product over the appended matrix splits at the old width into the wide product
    against the first 2048 rows of the dense transpose and the correction against its later rows. -/
theorem level (w : Coo) (B C : ℕ) (hC : C = 2048 + B) (hw : w.Dom C) (H x E P Q : NMat) (b r n : ℕ)
    (hH : ∀ f, f < C → IsFin (H b f))
    (hHx : ∀ f, f < 2048 → H b f = x b f)
    (hHE : ∀ i, i < B → H b (2048 + i) = E b i)
    (hP : ∀ f, f < 2048 → P f n = w.dense f r)
    (hQ : ∀ i, i < B → Q i r = w.dense (2048 + i) r) :
    mm 2048 x P b n + mm B E Q b r = w.spmm H b r := by
  subst hC
  rw [spmm_eq_mm w (2048 + B) hw H b hH r]
  show (∑ f ∈ Finset.range 2048, x b f * P f n) + (∑ i ∈ Finset.range B, E b i * Q i r)
    = ∑ f ∈ Finset.range (2048 + B), H b f * w.dense f r
  rw [Finset.sum_range_add]
  congr 1
  · refine Finset.sum_congr rfl fun f hf => ?_
    have hf' := Finset.mem_range.mp hf
    rw [hHx f hf', hP f hf']
  · refine Finset.sum_congr rfl fun i hi => ?_
    have hi' := Finset.mem_range.mp hi
    rw [hHE i hi', hQ i hi']

/-! ### The prefix weights, block by block -/

theorem Pof_0 (w0 w1 w2 wm : Coo) (f r : ℕ) (hr : r < 512) :
    Pof w0 w1 w2 wm f r = w0.dense f r := if_pos hr

theorem Pof_1 (w0 w1 w2 wm : Coo) (f r : ℕ) (hr : r < 512) :
    Pof w0 w1 w2 wm f (512 + r) = w1.dense f r := by
  show (if 512 + r < 512 then _ else if 512 + r < 1024 then w1.dense f (512 + r - 512) else _) = _
  rw [if_neg (by omega), if_pos (by omega), Nat.add_sub_cancel_left]

theorem Pof_2 (w0 w1 w2 wm : Coo) (f r : ℕ) (hr : r < 512) :
    Pof w0 w1 w2 wm f (1024 + r) = w2.dense f r := by
  show (if 1024 + r < 512 then _ else if 1024 + r < 1024 then _
    else if 1024 + r < 1536 then w2.dense f (1024 + r - 1024) else _) = _
  rw [if_neg (by omega), if_neg (by omega), if_pos (by omega), Nat.add_sub_cancel_left]

theorem Pof_3 (w0 w1 w2 wm : Coo) (f r : ℕ) :
    Pof w0 w1 w2 wm f (1536 + r) = wm.dense f r := by
  show (if 1536 + r < 512 then _ else if 1536 + r < 1024 then _
    else if 1536 + r < 1536 then _ else wm.dense f (1536 + r - 1536)) = _
  rw [if_neg (by omega), if_neg (by omega), if_neg (by omega), Nat.add_sub_cancel_left]

/-! ### The two chains, level by level -/

/-- The reference's running matrix after one, two and three levels. -/
def rH1 (x : NMat) (w0 : Coo) : NMat := hcat 2048 x (w0.spmm x)
def rH2 (x : NMat) (w0 w1 : Coo) : NMat := hcat 2560 (rH1 x w0) (w1.spmm (rH1 x w0))
def rH3 (x : NMat) (w0 w1 w2 : Coo) : NMat := hcat 3072 (rH2 x w0 w1) (w2.spmm (rH2 x w0 w1))

theorem refOut_eq (x : NMat) (w0 w1 w2 wm : Coo) :
    refOut x w0 w1 w2 wm = wm.spmm (rH3 x w0 w1 w2) := rfl

/-- The kernel's levels and its matrices of appended levels. -/
def kE0 (x P : NMat) : NMat := fun b r => mm 2048 x P b r
def kE1 (x P Q1 : NMat) : NMat := fun b r => mm 2048 x P b (512 + r) + mm 512 (kE0 x P) Q1 b r
def kEh01 (x P Q1 : NMat) : NMat := hcat 512 (kE0 x P) (kE1 x P Q1)
def kE2 (x P Q1 Q2 : NMat) : NMat :=
  fun b r => mm 2048 x P b (1024 + r) + mm 1024 (kEh01 x P Q1) Q2 b r
def kEh (x P Q1 Q2 : NMat) : NMat := hcat 1024 (kEh01 x P Q1) (kE2 x P Q1 Q2)

theorem kernelOut_eq (x P Q1 Q2 Q3 : NMat) (b r : ℕ) :
    kernelOut x P Q1 Q2 Q3 b r = mm 2048 x P b (1536 + r) + mm 1536 (kEh x P Q1 Q2) Q3 b r := rfl

/-- The kernel's row-by-row function at the densified weights is the reference's chain of sparse products,
    wherever `x` and the values are real and every column index lies inside the matrix it indexes. The weight
    arrays need only agree with the densified forms on the coordinates the kernel reads. -/
theorem kernelOut_eq_refOut (x P Q1 Q2 Q3 : NMat) (w0 w1 w2 wm : Coo)
    (hx : ∀ b f, b < 8192 → f < 2048 → ∃ r : ℝ, x b f = (r : EReal))
    (h0 : w0.Dom 2048) (h1 : w1.Dom 2560) (h2 : w2.Dom 3072) (hm : wm.Dom 3584)
    (hP : ∀ f n, f < 2048 → n < 3584 → P f n = Pof w0 w1 w2 wm f n)
    (hQ1 : ∀ i r, i < 512 → r < 512 → Q1 i r = Qof w1 i r)
    (hQ2 : ∀ i r, i < 1024 → r < 512 → Q2 i r = Qof w2 i r)
    (hQ3 : ∀ i r, i < 1536 → r < 2048 → Q3 i r = Qof wm i r)
    (b r : ℕ) (hb : b < 8192) (hr : r < 2048) :
    kernelOut x P Q1 Q2 Q3 b r = refOut x w0 w1 w2 wm b r := by
  -- every entry that is read is real, level after level
  have hx' : ∀ f, f < 2048 → IsFin (x b f) := fun f hf => hx b f hb hf
  have F1 : ∀ f, f < 2560 → IsFin (rH1 x w0 b f) := fun f hf =>
    isFin_hcat 2048 512 x (w0.spmm x) b hx' (fun i _ => isFin_spmm w0 2048 h0 x b hx' i) f hf
  have F2 : ∀ f, f < 3072 → IsFin (rH2 x w0 w1 b f) := fun f hf =>
    isFin_hcat 2560 512 (rH1 x w0) (w1.spmm (rH1 x w0)) b F1
      (fun i _ => isFin_spmm w1 2560 h1 (rH1 x w0) b F1 i) f hf
  have F3 : ∀ f, f < 3584 → IsFin (rH3 x w0 w1 w2 b f) := fun f hf =>
    isFin_hcat 3072 512 (rH2 x w0 w1) (w2.spmm (rH2 x w0 w1)) b F2
      (fun i _ => isFin_spmm w2 3072 h2 (rH2 x w0 w1) b F2 i) f hf
  -- the first 2048 columns of every running matrix are those of x
  have X1 : ∀ f, f < 2048 → rH1 x w0 b f = x b f := fun f hf => hcat_lt 2048 _ _ b f hf
  have X2 : ∀ f, f < 2048 → rH2 x w0 w1 b f = x b f := fun f hf =>
    (hcat_lt 2560 _ _ b f (by omega)).trans (X1 f hf)
  have X3 : ∀ f, f < 2048 → rH3 x w0 w1 w2 b f = x b f := fun f hf =>
    (hcat_lt 3072 _ _ b f (by omega)).trans (X2 f hf)
  -- level 0
  have L0 : ∀ i, i < 512 → kE0 x P b i = w0.spmm x b i := fun i hi => by
    rw [spmm_eq_mm w0 2048 h0 x b hx' i]
    show (∑ f ∈ Finset.range 2048, x b f * P f i) = ∑ f ∈ Finset.range 2048, x b f * w0.dense f i
    refine Finset.sum_congr rfl fun f hf => ?_
    rw [hP f i (Finset.mem_range.mp hf) (by omega), Pof_0 w0 w1 w2 wm f i hi]
  have E1 : ∀ i, i < 512 → rH1 x w0 b (2048 + i) = kE0 x P b i := fun i hi =>
    (hcat_add 2048 _ _ b i).trans (L0 i hi).symm
  -- level 1
  have L1 : ∀ i, i < 512 → kE1 x P Q1 b i = w1.spmm (rH1 x w0) b i := fun i hi =>
    level w1 512 2560 rfl h1 (rH1 x w0) x (kE0 x P) P Q1 b i (512 + i) F1 X1 E1
      (fun f hf => by rw [hP f (512 + i) hf (by omega), Pof_1 w0 w1 w2 wm f i hi])
      (fun j hj => hQ1 j i hj hi)
  have E2 : ∀ i, i < 1024 → rH2 x w0 w1 b (2048 + i) = kEh01 x P Q1 b i := fun i hi => by
    by_cases c : i < 512
    · rw [show rH2 x w0 w1 b (2048 + i) = rH1 x w0 b (2048 + i) from hcat_lt 2560 _ _ b _ (by omega),
        E1 i c]
      exact (hcat_lt 512 _ _ b i c).symm
    · rw [show rH2 x w0 w1 b (2048 + i) = w1.spmm (rH1 x w0) b (2048 + i - 2560) from
          hcat_ge 2560 _ _ b _ (by omega),
        show kEh01 x P Q1 b i = kE1 x P Q1 b (i - 512) from hcat_ge 512 _ _ b i (by omega),
        L1 (i - 512) (by omega), show 2048 + i - 2560 = i - 512 by omega]
  -- level 2
  have L2 : ∀ i, i < 512 → kE2 x P Q1 Q2 b i = w2.spmm (rH2 x w0 w1) b i := fun i hi =>
    level w2 1024 3072 rfl h2 (rH2 x w0 w1) x (kEh01 x P Q1) P Q2 b i (1024 + i) F2 X2 E2
      (fun f hf => by rw [hP f (1024 + i) hf (by omega), Pof_2 w0 w1 w2 wm f i hi])
      (fun j hj => hQ2 j i hj hi)
  have E3 : ∀ i, i < 1536 → rH3 x w0 w1 w2 b (2048 + i) = kEh x P Q1 Q2 b i := fun i hi => by
    by_cases c : i < 1024
    · rw [show rH3 x w0 w1 w2 b (2048 + i) = rH2 x w0 w1 b (2048 + i) from
          hcat_lt 3072 _ _ b _ (by omega), E2 i c]
      exact (hcat_lt 1024 _ _ b i c).symm
    · rw [show rH3 x w0 w1 w2 b (2048 + i) = w2.spmm (rH2 x w0 w1) b (2048 + i - 3072) from
          hcat_ge 3072 _ _ b _ (by omega),
        show kEh x P Q1 Q2 b i = kE2 x P Q1 Q2 b (i - 1024) from hcat_ge 1024 _ _ b i (by omega),
        L2 (i - 1024) (by omega), show 2048 + i - 3072 = i - 1024 by omega]
  -- the output
  rw [kernelOut_eq, refOut_eq]
  exact level wm 1536 3584 rfl hm (rH3 x w0 w1 w2) x (kEh x P Q1 Q2) P Q3 b r (1536 + r) F3 X3 E3
    (fun f hf => by rw [hP f (1536 + r) hf (by omega), Pof_3 w0 w1 w2 wm f r])
    (fun j hj => hQ3 j r hj hr)

end Cert.Spec

end
-- ==== Proof.lean ====
/-
  The five claims assembled.

  The two kernel frames are the frame of the one pallas_call proved from the launch theorem, at the word level and at
  the ideal instance; the reference's frame is its run, proved stretch by stretch, with the result dropped; the idealization rewrote nothing.  For the
  equivalence over the extended reals, the precondition puts the argument arrays in the domain where every entry
  is a real number, no row index is negative and every column index lies inside its matrix.  There the kernel's
  result is its row function of the densified weights, the reference's result is its chain of sparse products,
  and the law `∑_f h[b, f] · Wᵀ[f, r] = ∑_k [row k = r] h[b, col k] · val k` makes the two the same function
  of the arguments.
-/
import proofs.«409427_j11175504904589_3_alg».proof.Defs
import proofs.«409427_j11175504904589_3_alg».proof.Proof.Gen.Kernel
import proofs.«409427_j11175504904589_3_alg».proof.Proof.Gen.KernelIdeal
import proofs.«409427_j11175504904589_3_alg».proof.Proof.Gen.ReferenceIdeal
import proofs.«409427_j11175504904589_3_alg».proof.Proof.Ref.RunH
import proofs.«409427_j11175504904589_3_alg».proof.Proof.Gen.Pre_finite_inputs
import proofs.«409427_j11175504904589_3_alg».proof.Proof.KB.Frame
import proofs.«409427_j11175504904589_3_alg».proof.Proof.KI.Frame
import proofs.«409427_j11175504904589_3_alg».proof.Proof.KI.ArrVal
import proofs.«409427_j11175504904589_3_alg».proof.Proof.KI.HostVal
import proofs.«409427_j11175504904589_3_alg».proof.Proof.RefVal
import proofs.«409427_j11175504904589_3_alg».proof.Proof.PreDom
import proofs.«409427_j11175504904589_3_alg».proof.Proof.SpecLaw
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- The precondition of the kernel's arguments, as the domain facts. -/
theorem dom_k (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.PreDom.Dom (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) :=
  Cert.PreDom.dom_of_pre _ _ _ _ _ _ _ _ _ _ _ _ _ (hpre c)

theorem algebraic : Cert.algebraic_KernelIdeal_ReferenceIdeal := by
  intro m ρ m' ρ' hpre hagree
  have hdom := dom_k m hpre
  refine ⟨fun c => Cert.Spec.toArr 8192 2048 (Cert.Spec.refOut (Cert.Spec.ofArr (A := 8192) (B := 2048) (m ((c.tc : Thread Cert.KernelIdeal.nD Cert.KernelIdeal.τ).loc Cert.KernelIdeal.main_arg0)))
      (Cert.KernelIdeal.Hand.w0 m c) (Cert.KernelIdeal.Hand.w1 m c) (Cert.KernelIdeal.Hand.w2 m c) (Cert.KernelIdeal.Hand.wm m c)), ?_, ?_⟩
  · refine (θ_run Cert.KernelIdeal.defs _ _).mono (fun r h c => ⟨(h c).1.trans ?_, (h c).2⟩) (Cert.KernelIdeal.Hand.kernel_value m ρ)
    funext j
    rw [Cert.KernelIdeal.Hand.V_main_arg0]
    exact Cert.Spec.kernelOut_eq_refOut _ _ _ _ _ (Cert.KernelIdeal.Hand.w0 m c) (Cert.KernelIdeal.Hand.w1 m c)
      (Cert.KernelIdeal.Hand.w2 m c) (Cert.KernelIdeal.Hand.wm m c) (hdom c).x_real (hdom c).d0 (hdom c).d1 (hdom c).d2 (hdom c).dm
      (Cert.KernelIdeal.Hand.V_prefix m c (hdom c).d0 (hdom c).d1 (hdom c).d2 (hdom c).dm)
      (Cert.KernelIdeal.Hand.V_q1 m c (hdom c).d1) (Cert.KernelIdeal.Hand.V_q2 m c (hdom c).d2) (Cert.KernelIdeal.Hand.V_q3 m c (hdom c).dm)
      (j 0).val (j 1).val (j 0).isLt (j 1).isLt
  · have hdom' : ∀ c : Dev Cert.ReferenceIdeal.nD, Cert.PreDom.Dom (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) := by
      intro c
      obtain ⟨e0, e1, e2, e3, e4, e5, e6, e7, e8, e9, e10, e11, e12⟩ := hagree c
      rw [e0, e1, e2, e3, e4, e5, e6, e7, e8, e9, e10, e11, e12]
      exact hdom c
    refine (θ_run Cert.ReferenceIdeal.defs _ _).mono (fun r h c => ⟨(h c).1.trans ?_, (h c).2⟩) (Cert.ReferenceIdeal.Hand.ref_value m' ρ' hdom')
    obtain ⟨e0, e1, e2, e3, e4, e5, e6, e7, e8, e9, e10, e11, e12⟩ := hagree c
    show Cert.Spec.toArr 8192 2048 _ = Cert.Spec.toArr 8192 2048 _
    unfold Cert.ReferenceIdeal.Hand.A Cert.KernelIdeal.Hand.w0 Cert.KernelIdeal.Hand.w1 Cert.KernelIdeal.Hand.w2 Cert.KernelIdeal.Hand.wm
    rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
